-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1000000 32) (main_arg2 : IVec S100000 32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x1 : Shape := ⟨2, ![100000, 1]⟩
abbrev S10000x64 : Shape := ⟨2, ![10000, 64]⟩
abbrev S1000000x64 : Shape := ⟨2, ![1000000, 64]⟩
abbrev S1x64 : Shape := ⟨2, ![1, 64]⟩
abbrev S10000x1 : Shape := ⟨2, ![10000, 1]⟩
abbrev S64x1 : Shape := ⟨2, ![64, 1]⟩
abbrev S102400 : Shape := ⟨1, ![102400]⟩
abbrev S1x102400 : Shape := ⟨2, ![1, 102400]⟩
abbrev S64x102400 : Shape := ⟨2, ![64, 102400]⟩
abbrev S102400x64 : Shape := ⟨2, ![102400, 64]⟩
abbrev S64x3200 : Shape := ⟨2, ![64, 3200]⟩
abbrev S3200x64 : Shape := ⟨2, ![3200, 64]⟩

abbrev nBuf : Space → Nat
  | .hbm => 106
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S100000, .f32⟩
  | .hbm, ⟨15, _⟩ => ⟨S1000000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000, .f32⟩
  | .hbm, ⟨39, _⟩ => ⟨S1000000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S1000000x1, .f32⟩
  | .hbm, ⟨53, _⟩ => ⟨S1000000x64, .f32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1000000, .i32⟩
  | .hbm, ⟨64, _⟩ => ⟨S1000000, .i1⟩
  | .hbm, ⟨65, _⟩ => ⟨S_, .i32⟩
  | .hbm, ⟨66, _⟩ => ⟨S1000000, .i32⟩
  | .hbm, ⟨67, _⟩ => ⟨S1000000, .i32⟩
  | .hbm, ⟨68, _⟩ => ⟨S1000000, .i32⟩
  | .hbm, ⟨69, _⟩ => ⟨S1000000x1, .i32⟩
  | .hbm, ⟨70, _⟩ => ⟨S1000000x64, .f32⟩
  | .hbm, ⟨71, _⟩ => ⟨S1000000x1, .f32⟩
  | .hbm, ⟨72, _⟩ => ⟨S1000000x64, .f32⟩
  | .hbm, ⟨73, _⟩ => ⟨S1000000x64, .f32⟩
  | .hbm, ⟨74, _⟩ => ⟨S_, .f32⟩
  | .hbm, ⟨75, _⟩ => ⟨S100000x64, .f32⟩
  | .hbm, ⟨76, _⟩ => ⟨S1000000x1, .i32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S64, .i32⟩
  | .hbm, ⟨81, _⟩ => ⟨S64x1, .i32⟩
  | .hbm, ⟨82, _⟩ => ⟨S_, .i32⟩
  | .hbm, ⟨83, _⟩ => ⟨S_, .i32⟩
  | .hbm, ⟨84, _⟩ => ⟨S102400, .i32⟩
  | .hbm, ⟨85, _⟩ => ⟨S1x102400, .i32⟩
  | .hbm, ⟨86, _⟩ => ⟨S64x102400, .i32⟩
  | .hbm, ⟨87, _⟩ => ⟨S64x102400, .i32⟩
  | .hbm, ⟨88, _⟩ => ⟨S64x102400, .i1⟩
  | .hbm, ⟨89, _⟩ => ⟨S64x102400, .bf16⟩
  | .hbm, ⟨90, _⟩ => ⟨S_, .i32⟩
  | .hbm, ⟨91, _⟩ => ⟨S_, .f32⟩
  | .hbm, ⟨92, _⟩ => ⟨S102400x64, .f32⟩
  | .hbm, ⟨93, _⟩ => ⟨S64x64, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S64, .f32⟩
  | .hbm, ⟨98, _⟩ => ⟨S100000x1, .i32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64x1, .f32⟩
  | .hbm, ⟨104, _⟩ => ⟨S64x64, .f32⟩
  | .hbm, ⟨105, _⟩ => ⟨S64x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S64x3200, .bf16⟩
  | .local _ .vmem, ⟨29, _⟩ => ⟨S64x3200, .bf16⟩
  | .local _ .vmem, ⟨30, _⟩ => ⟨S3200x64, .f32⟩
  | .local _ .vmem, ⟨31, _⟩ => ⟨S3200x64, .f32⟩
  | .local _ .vmem, ⟨32, _⟩ => ⟨S64x64, .f32⟩
  | .local _ .vmem, ⟨33, _⟩ => ⟨S64x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_11 : Ref sig .tc := ⟨.hbm, 82, rfl⟩
abbrev main_call0_v0 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_call1_v0 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![32], ![false]⟩

def k4_cond2 (i : grid4.Coords) : BitVec 1 :=
  let arg0 : BitVec 32 := BitVec.ofNat 32 (i 0).val
  let c31_i32 : BitVec 32 := 31#32
  let v14 : BitVec 1 := Scalar.cmpi .eq arg0 c31_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S64x3200 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3200x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S64_S64x1_0 : S64.BroadcastsInDim S64x1 (![0] : Fin 1 → Fin S64x1.rank)
  pads_S100000_S102400_024000 : S100000.Pads (![0] : Fin 1 → Nat) ![2400] ![0] S102400
  h_S_ : 0 < S_.numel
  bcast_S102400_S1x102400_1 : S102400.BroadcastsInDim S1x102400 (![1] : Fin 1 → Fin S1x102400.rank)
  bcast_S1x102400_S64x102400_0_1 : S1x102400.BroadcastsInDim S64x102400 (![0, 1] : Fin 2 → Fin S64x102400.rank)
  bcast_S64x1_S64x102400_0_1 : S64x1.BroadcastsInDim S64x102400 (![0, 1] : Fin 2 → Fin S64x102400.rank)
  pads_S100000x64_S102400x64_024000_000 : S100000x64.Pads (![0, 0] : Fin 2 → Nat) ![2400, 0] ![0, 0] S102400x64
  shapeCasts_S64x64_S64x64 : S64x64.ShapeCasts S64x64
  inb_S64x3200_S64x3200_0_0 : ∀ a, (![0, 0] : Fin 2 → Nat) a + S64x3200.size a ≤ S64x3200.size a
  h_S64x3200 : 0 < S64x3200.numel
  shapeCasts_S64x3200_S64x3200 : S64x3200.ShapeCasts S64x3200
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  bcast_S_S64 : S_.BroadcastsInDim S64 (![] : Fin 0 → Fin S64.rank)
  bcast_S100000_S100000x1_0 : S100000.BroadcastsInDim S100000x1 (![0] : Fin 1 → Fin S100000x1.rank)
  bcast_S64x1_S64x64_0_1 : S64x1.BroadcastsInDim S64x64 (![0, 1] : Fin 2 → Fin S64x64.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S64x3200_S3200x64_S64x64_1_0_0_1_n_n_wf : DotDims.WF S64x3200 S3200x64 S64x64 [1] [0] [0] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x3200.size a ≤ S64x102400.size a
  hwx4_0 : ∀ i : grid4.Coords, EltTy.bits .bf16 = 32 ∨ (Rect.block (s := S64x102400) S64x3200.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3200x64.size a ≤ S102400x64.size a
  hwx4_1 : ∀ i : grid4.Coords, EltTy.bits .f32 = 32 ∨ (Rect.block (s := S102400x64) S3200x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S64x3200_S3200x64_S64x64_1_0_0_1_n_n : DotDims S64x3200 S3200x64 S64x64 where
  lhsContracting := [1]
  rhsContracting := [0]
  lhsNonContracting := [0]
  rhsNonContracting := [1]
  lhsBatch := []
  rhsBatch := []
  wf := dot_S64x3200_S3200x64_S64x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v67) S64x3200.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S3200x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S64x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩
abbrev S64x1 : Shape := ⟨2, ![64, 1]⟩

abbrev nBuf : Space → Nat
  | .hbm => 141
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S1x1000000, .i32⟩
  | 8 => ⟨S1000000, .i32⟩
  | 9 => ⟨S1x1000000, .i32⟩
  | 10 => ⟨S1000000, .i32⟩
  | 11 => ⟨S100000x64, .f32⟩
  | 12 => ⟨S_, .f32⟩
  | 13 => ⟨S1000000, .f32⟩
  | 14 => ⟨S_, .f32⟩
  | 15 => ⟨S100000, .f32⟩
  | 16 => ⟨S1000000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000, .f32⟩
  | 40 => ⟨S1000000, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x64, .f32⟩
  | 50 => ⟨S1000000x1, .f32⟩
  | 51 => ⟨S1000000x64, .f32⟩
  | 52 => ⟨S1000000x64, .f32⟩
  | 53 => ⟨S_, .f32⟩
  | 54 => ⟨S100000x64, .f32⟩
  | 55 => ⟨S1000000x1, .i32⟩
  | 56 => ⟨S100000x64, .f32⟩
  | 57 => ⟨S100000, .f32⟩
  | 58 => ⟨S100000x1, .f32⟩
  | 59 => ⟨S100000x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x64, .f32⟩
  | 69 => ⟨S_, .f32⟩
  | 70 => ⟨S1000000, .f32⟩
  | 71 => ⟨S_, .f32⟩
  | 72 => ⟨S100000, .f32⟩
  | 73 => ⟨S1000000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000, .f32⟩
  | 97 => ⟨S1000000, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S1000000x1, .f32⟩
  | 108 => ⟨S1000000x64, .f32⟩
  | 109 => ⟨S1000000x64, .f32⟩
  | 110 => ⟨S_, .f32⟩
  | 111 => ⟨S100000x64, .f32⟩
  | 112 => ⟨S1000000x1, .i32⟩
  | 113 => ⟨S100000x64, .f32⟩
  | 114 => ⟨S100000, .f32⟩
  | 115 => ⟨S100000x1, .f32⟩
  | 116 => ⟨S100000x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S_, .f32⟩
  | 126 => ⟨S64x64, .f32⟩
  | 127 => ⟨S100000x1, .i32⟩
  | _ => ⟨S100000x64, .f32⟩

abbrev hbmTy0_1 (i : Nat) : BufTy := match i % 128 with
  | 0 => ⟨S64x64, .f32⟩
  | 1 => ⟨S_, .f32⟩
  | 2 => ⟨S100000, .f32⟩
  | 3 => ⟨S_, .f32⟩
  | 4 => ⟨S64, .f32⟩
  | 5 => ⟨S100000x1, .i32⟩
  | 6 => ⟨S64, .f32⟩
  | 7 => ⟨S_, .f32⟩
  | 8 => ⟨S64, .f32⟩
  | 9 => ⟨S64, .f32⟩
  | 10 => ⟨S64x1, .f32⟩
  | 11 => ⟨S64x64, .f32⟩
  | 12 => ⟨S64x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_19 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S100000x64_S64x64_S100000x64_1_0_0_1_n_n_wf : DotDims.WF S100000x64 S64x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Bits.Mm0.lean ====
/-
  A layer's projection h = x · W as a tiled launch: ten grid points, point t multiplying rows
  10000·t … 10000·t + 9999 of the layer's input array by the layer's whole 64 × 64 weight and writing those rows of the result.
  Stated here, at any float instance and for any contents `V` the launch finds in the arrays: what each window's
  staging buffer holds at a point, what the body leaves in the result's buffer (its one whole-buffer store),
  the body's triple, and the launch's proof data with its obligation at every point.
-/
import proofs.«408095_j65790309040228_2_alg».proof.Proof.Gen.Kernel.Launch
import proofs.«408095_j65790309040228_2_alg».proof.Proof.Gen.Kernel.Skeleton
import proofs.«408095_j65790309040228_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mm0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The row block's staging buffer holds the point's rows whenever the body is called, for any proof data over
    these arrays whose body leaves that buffer as it found it. -/
theorem held_rows {c : Dev nD} (dat : Dat τ (Elt F) Unit ℕ (UR sig nD τ) ℕ cfg0 c)
    (hA : dat.A 0 = V c (Pipeline.arrRef spec0 0)) (hafter : ∀ t, dat.after 0 t = blockAt V c 0 t)
    (t : Fin cfg0.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- The weight's staging buffer holds the whole weight at every point: it is fetched once and its block never moves. -/
theorem held_weight {c : Dev nD} (dat : Dat τ (Elt F) Unit ℕ (UR sig nD τ) ℕ cfg0 c)
    (hA : dat.A 1 = V c (Pipeline.arrRef spec0 1)) (hafter : ∀ t, dat.after 1 t = blockAt V c 1 t)
    (t : Fin cfg0.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- The whole 10000 × 64 buffer as one rectangle, and the whole 64 × 64 one. -/
abbrev rowsRect : Rect S10000x64 := Rect.unit (s := S10000x64) ![0, 0] S10000x64.size inb_S10000x64_S10000x64_0_0
abbrev weightRect : Rect S64x64 := Rect.unit (s := S64x64) ![0, 0] S64x64.size inb_S64x64_S64x64_0_0

/-- What the body leaves in the result's staging buffer: its single store, over the whole buffer, of the product
    of the rows it loaded by the weight it loaded. -/
def product (x : Vec F S10000x64 .f32) (wgt : Vec F S64x64 .f32) : Vec F S10000x64 .f32 :=
  View.canon [⟨rowsRect, k0_pay1 (View.ld x rowsRect) (View.ld wgt weightRect)⟩]

/-- That one store covers the buffer. -/
theorem product_cover (p : Vec F S10000x64 .f32) (y : S10000x64.Idx) :
    ∃ pc ∈ ([⟨rowsRect, p⟩] : List (View.Piece (Elt F) S10000x64 .f32)), y ∈ pc.1.set :=
  View.cover_of_tiled [⟨rowsRect, p⟩] S10000x64.size (by rfl) y

set_option maxHeartbeats 1000000 in
/-- The body's triple: from the two input buffers at `x` and `wgt` and the result's buffer at anything, it ends with
    the inputs as they were and the result's buffer at `product x wgt`. -/
theorem body_triple (c : Dev nD) (E : Set ℕ) (i : grid0.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x : Vec F S10000x64 .f32) (wgt : Vec F S64x64 .f32) (K : PUnit → sProp 𝕄) :
    iprop(owns (c : Thread nD τ) arg1 fullShare x ∗ owns (c : Thread nD τ) arg2 fullShare wgt
        ∗ (∃ d, owns (c : Thread nD τ) arg3 fullShare d)
        ∗ (iprop(owns (c : Thread nD τ) arg1 fullShare x ∗ owns (c : Thread nD τ) arg2 fullShare wgt
            ∗ owns (c : Thread nD τ) arg3 fullShare (product x wgt)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The launch's proof data on core `c`: the arrays as found; after the body at point `t` the two inputs' buffers at
    their blocks and the result's at the product of those blocks; the scoped buffers and the generator register ride
    through untouched; nothing is owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => product (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weight (c : Dev nD) (t : Fin cfg0.N) : (dat V c).after 1 t = blockAt V c 1 t := by dsimp only [dat]
theorem after_result (c : Dev nD) (t : Fin cfg0.N) :
    (dat V c).after 2 t = product (blockAt V c 0 t) (blockAt V c 1 t) := by dsimp only [dat]

theorem before_rows (c : Dev nD) (t : Fin cfg0.N) (d) : (dat V c).before 0 t d = blockAt V c 0 t :=
  held_rows V (dat V c) (dat_A V c 0) (after_rows V c) t d
theorem before_weight (c : Dev nD) (t : Fin cfg0.N) (d) : (dat V c).before 1 t d = blockAt V c 1 t :=
  held_weight V (dat V c) (dat_A V c 1) (after_weight V c) t d

/-- What the pipeline hands the body at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it takes back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the triple applies; the rest passes through. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weight]
  rw [show (dat V c).Φ t.succ = (dat V c).Φ t.castSucc from rfl,
    show (dat V c).owesAt () t.succ = (dat V c).owesAt () t.castSucc from rfl,
    after_rows, after_weight, after_result]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's obligation for this launch, at every point. -/
theorem obligation (c : Dev nD) : BodyObligation (dat (F := F) V c) (defs₀ (F := F)) Variants.none () Set.univ := fun t => by
  rw [bigSep_W0, bigSep_W0]
  exact body_at V c t

end Cert.Kernel.Mm0

end
-- ==== Proof.Bits.Fin1.lean ====
/-
  A layer's closing step as a tiled launch: ten grid points, point t taking rows 10000·t … 10000·t + 9999
  of the aggregated messages, of the projected features and of the squared inverse-root degrees (a column), and
  the whole bias row, and writing max((agg + h · d²) + b, 0) on those rows.
  Stated here, at any float instance and for any contents `V` the launch finds in the arrays: what each window's
  staging buffer holds at a point, what the body leaves in the result's buffer (its one whole-buffer store),
  the body's triple, and the launch's proof data with its obligation at every point.
-/
import proofs.«408095_j65790309040228_2_alg».proof.Proof.Gen.Kernel.Launch
import proofs.«408095_j65790309040228_2_alg».proof.Proof.Gen.Kernel.Skeleton
import proofs.«408095_j65790309040228_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fin1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- An input window's staging buffer holds that window's block whenever the body is called — fetched at this point,
    or fetched earlier with the block not having moved since (the bias row) — for any proof data over these arrays
    whose body leaves that buffer as it found it. One statement per input window. -/
theorem held_agg {c : Dev nD} (dat : Dat τ (Elt F) Unit ℕ (UR sig nD τ) ℕ cfg1 c)
    (hA : dat.A 0 = V c (Pipeline.arrRef spec1 0)) (hafter : ∀ t, dat.after 0 t = blockAt V c 0 t)
    (t : Fin cfg1.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem held_feat {c : Dev nD} (dat : Dat τ (Elt F) Unit ℕ (UR sig nD τ) ℕ cfg1 c)
    (hA : dat.A 1 = V c (Pipeline.arrRef spec1 1)) (hafter : ∀ t, dat.after 1 t = blockAt V c 1 t)
    (t : Fin cfg1.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem held_scale {c : Dev nD} (dat : Dat τ (Elt F) Unit ℕ (UR sig nD τ) ℕ cfg1 c)
    (hA : dat.A 2 = V c (Pipeline.arrRef spec1 2)) (hafter : ∀ t, dat.after 2 t = blockAt V c 2 t)
    (t : Fin cfg1.N) (d) : dat.before 2 t d = blockAt V c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
theorem held_bias {c : Dev nD} (dat : Dat τ (Elt F) Unit ℕ (UR sig nD τ) ℕ cfg1 c)
    (hA : dat.A 3 = V c (Pipeline.arrRef spec1 3)) (hafter : ∀ t, dat.after 3 t = blockAt V c 3 t)
    (t : Fin cfg1.N) (d) : dat.before 3 t d = blockAt V c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)

/-- The four buffer shapes, each as one whole rectangle. -/
abbrev rowsRect : Rect S10000x64 := Rect.unit (s := S10000x64) ![0, 0] S10000x64.size inb_S10000x64_S10000x64_0_0
abbrev colRect : Rect S10000x1 := Rect.unit (s := S10000x1) ![0, 0] S10000x1.size inb_S10000x1_S10000x1_0_0
abbrev biasRect : Rect S1x64 := Rect.unit (s := S1x64) ![0, 0] S1x64.size inb_S1x64_S1x64_0_0

/-- What the body leaves in the result's staging buffer: its single store, over the whole buffer, of the clamped
    sum of what it loaded. -/
def closed (a : Vec F S10000x64 .f32) (h : Vec F S10000x64 .f32) (s : Vec F S10000x1 .f32) (b : Vec F S1x64 .f32) :
    Vec F S10000x64 .f32 :=
  View.canon [⟨rowsRect, k1_pay1 (View.ld a rowsRect) (View.ld h rowsRect) (View.ld s colRect) (View.ld b biasRect)⟩]

/-- That one store covers the buffer. -/
theorem closed_cover (p : Vec F S10000x64 .f32) (y : S10000x64.Idx) :
    ∃ pc ∈ ([⟨rowsRect, p⟩] : List (View.Piece (Elt F) S10000x64 .f32)), y ∈ pc.1.set :=
  View.cover_of_tiled [⟨rowsRect, p⟩] S10000x64.size (by rfl) y

set_option maxHeartbeats 1000000 in
/-- The body's triple: from the four input buffers at given contents and the result's buffer at anything, it ends with
    the inputs as they were and the result's buffer at `closed` of them. -/
theorem body_triple (c : Dev nD) (E : Set ℕ) (i : grid1.Coords)
    (arg1 : Memref sig .tc .vmem S10000x64 .f32) (harg1 : arg1.IsWhole)
    (arg2 : Memref sig .tc .vmem S10000x64 .f32) (harg2 : arg2.IsWhole)
    (arg3 : Memref sig .tc .vmem S10000x1 .f32) (harg3 : arg3.IsWhole)
    (arg4 : Memref sig .tc .vmem S1x64 .f32) (harg4 : arg4.IsWhole)
    (arg5 : Memref sig .tc .vmem S10000x64 .f32) (harg5 : arg5.IsWhole)
    (a : Vec F S10000x64 .f32) (h : Vec F S10000x64 .f32) (s : Vec F S10000x1 .f32) (b : Vec F S1x64 .f32)
    (K : PUnit → sProp 𝕄) :
    iprop(owns (c : Thread nD τ) arg1 fullShare a ∗ owns (c : Thread nD τ) arg2 fullShare h
        ∗ owns (c : Thread nD τ) arg3 fullShare s ∗ owns (c : Thread nD τ) arg4 fullShare b
        ∗ (∃ d, owns (c : Thread nD τ) arg5 fullShare d)
        ∗ (iprop(owns (c : Thread nD τ) arg1 fullShare a ∗ owns (c : Thread nD τ) arg2 fullShare h
            ∗ owns (c : Thread nD τ) arg3 fullShare s ∗ owns (c : Thread nD τ) arg4 fullShare b
            ∗ owns (c : Thread nD τ) arg5 fullShare (closed a h s b)) -∗ K ⟨⟩))
      ⊢ wp frame (wpE (defs₀ (F := F)) Variants.none c none) E
          (cc1__finalize_kernel i arg1 harg1 arg2 harg2 arg3 harg3 arg4 harg4 arg5 harg5) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (closed_cover _)

/-- The launch's proof data on core `c`: the arrays as found; after the body at point `t` the four inputs' buffers at
    their blocks and the result's at `closed` of those blocks; the scoped buffers and the generator register ride
    through untouched; nothing is owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => closed (blockAt V c 0 t) (blockAt V c 1 t) (blockAt V c 2 t) (blockAt V c 3 t)
  Φ _ := Pipeline.ΦA spec1 c
  q _ := fullShare
  owed _ := 0

theorem dat_A (c : Dev nD) (w : Fin cfg1.W) : (dat V c).A w = V c (Pipeline.arrRef spec1 w) := by
  dsimp only [dat]

theorem after_agg (c : Dev nD) (t : Fin cfg1.N) : (dat V c).after 0 t = blockAt V c 0 t := by dsimp only [dat]
theorem after_feat (c : Dev nD) (t : Fin cfg1.N) : (dat V c).after 1 t = blockAt V c 1 t := by dsimp only [dat]
theorem after_scale (c : Dev nD) (t : Fin cfg1.N) : (dat V c).after 2 t = blockAt V c 2 t := by dsimp only [dat]
theorem after_bias (c : Dev nD) (t : Fin cfg1.N) : (dat V c).after 3 t = blockAt V c 3 t := by dsimp only [dat]
theorem after_result (c : Dev nD) (t : Fin cfg1.N) :
    (dat V c).after 4 t = closed (blockAt V c 0 t) (blockAt V c 1 t) (blockAt V c 2 t) (blockAt V c 3 t) := by
  dsimp only [dat]

theorem before_agg (c : Dev nD) (t : Fin cfg1.N) (d) : (dat V c).before 0 t d = blockAt V c 0 t :=
  held_agg V (dat V c) (dat_A V c 0) (after_agg V c) t d
theorem before_feat (c : Dev nD) (t : Fin cfg1.N) (d) : (dat V c).before 1 t d = blockAt V c 1 t :=
  held_feat V (dat V c) (dat_A V c 1) (after_feat V c) t d
theorem before_scale (c : Dev nD) (t : Fin cfg1.N) (d) : (dat V c).before 2 t d = blockAt V c 2 t :=
  held_scale V (dat V c) (dat_A V c 2) (after_scale V c) t d
theorem before_bias (c : Dev nD) (t : Fin cfg1.N) (d) : (dat V c).before 3 t d = blockAt V c 3 t :=
  held_bias V (dat V c) (dat_A V c 3) (after_bias V c) t d

/-- What the pipeline hands the body at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it takes back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the triple applies; the rest passes through. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_agg, before_feat, before_scale, before_bias]
  rw [show (dat V c).Φ t.succ = (dat V c).Φ t.castSucc from rfl,
    show (dat V c).owesAt () t.succ = (dat V c).owesAt () t.castSucc from rfl,
    after_agg, after_feat, after_scale, after_bias, after_result]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's obligation for this launch, at every point. -/
theorem obligation (c : Dev nD) : BodyObligation (dat (F := F) V c) (defs₀ (F := F)) Variants.none () Set.univ := fun t => by
  rw [bigSep_W1, bigSep_W1]
  exact body_at V c t

end Cert.Kernel.Fin1

end
-- ==== Proof.Bits.Mm2.lean ====
/-
  A layer's projection h = x · W as a tiled launch: ten grid points, point t multiplying rows
  10000·t … 10000·t + 9999 of the layer's input array by the layer's whole 64 × 64 weight and writing those rows of the result.
  Stated here, at any float instance and for any contents `V` the launch finds in the arrays: what each window's
  staging buffer holds at a point, what the body leaves in the result's buffer (its one whole-buffer store),
  the body's triple, and the launch's proof data with its obligation at every point.
-/
import proofs.«408095_j65790309040228_2_alg».proof.Proof.Gen.Kernel.Launch
import proofs.«408095_j65790309040228_2_alg».proof.Proof.Gen.Kernel.Skeleton
import proofs.«408095_j65790309040228_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mm2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blockAt (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The row block's staging buffer holds the point's rows whenever the body is called, for any proof data over
    these arrays whose body leaves that buffer as it found it. -/
theorem held_rows {c : Dev nD} (dat : Dat τ (Elt F) Unit ℕ (UR sig nD τ) ℕ cfg2 c)
    (hA : dat.A 0 = V c (Pipeline.arrRef spec2 0)) (hafter : ∀ t, dat.after 0 t = blockAt V c 0 t)
    (t : Fin cfg2.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- The weight's staging buffer holds the whole weight at every point: it is fetched once and its block never moves. -/
theorem held_weight {c : Dev nD} (dat : Dat τ (Elt F) Unit ℕ (UR sig nD τ) ℕ cfg2 c)
    (hA : dat.A 1 = V c (Pipeline.arrRef spec2 1)) (hafter : ∀ t, dat.after 1 t = blockAt V c 1 t)
    (t : Fin cfg2.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- The whole 10000 × 64 buffer as one rectangle, and the whole 64 × 64 one. -/
abbrev rowsRect : Rect S10000x64 := Rect.unit (s := S10000x64) ![0, 0] S10000x64.size inb_S10000x64_S10000x64_0_0
abbrev weightRect : Rect S64x64 := Rect.unit (s := S64x64) ![0, 0] S64x64.size inb_S64x64_S64x64_0_0

/-- What the body leaves in the result's staging buffer: its single store, over the whole buffer, of the product
    of the rows it loaded by the weight it loaded. -/
def product (x : Vec F S10000x64 .f32) (wgt : Vec F S64x64 .f32) : Vec F S10000x64 .f32 :=
  View.canon [⟨rowsRect, k2_pay1 (View.ld x rowsRect) (View.ld wgt weightRect)⟩]

/-- That one store covers the buffer. -/
theorem product_cover (p : Vec F S10000x64 .f32) (y : S10000x64.Idx) :
    ∃ pc ∈ ([⟨rowsRect, p⟩] : List (View.Piece (Elt F) S10000x64 .f32)), y ∈ pc.1.set :=
  View.cover_of_tiled [⟨rowsRect, p⟩] S10000x64.size (by rfl) y

set_option maxHeartbeats 1000000 in
/-- The body's triple: from the two input buffers at `x` and `wgt` and the result's buffer at anything, it ends with
    the inputs as they were and the result's buffer at `product x wgt`. -/
theorem body_triple (c : Dev nD) (E : Set ℕ) (i : grid2.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x : Vec F S10000x64 .f32) (wgt : Vec F S64x64 .f32) (K : PUnit → sProp 𝕄) :
    iprop(owns (c : Thread nD τ) arg1 fullShare x ∗ owns (c : Thread nD τ) arg2 fullShare wgt
        ∗ (∃ d, owns (c : Thread nD τ) arg3 fullShare d)
        ∗ (iprop(owns (c : Thread nD τ) arg1 fullShare x ∗ owns (c : Thread nD τ) arg2 fullShare wgt
            ∗ owns (c : Thread nD τ) arg3 fullShare (product x wgt)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The launch's proof data on core `c`: the arrays as found; after the body at point `t` the two inputs' buffers at
    their blocks and the result's at the product of those blocks; the scoped buffers and the generator register ride
    through untouched; nothing is owed. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => product (blockAt V c 0 t) (blockAt V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem after_rows (c : Dev nD) (t : Fin cfg2.N) : (dat V c).after 0 t = blockAt V c 0 t := by dsimp only [dat]
theorem after_weight (c : Dev nD) (t : Fin cfg2.N) : (dat V c).after 1 t = blockAt V c 1 t := by dsimp only [dat]
theorem after_result (c : Dev nD) (t : Fin cfg2.N) :
    (dat V c).after 2 t = product (blockAt V c 0 t) (blockAt V c 1 t) := by dsimp only [dat]

theorem before_rows (c : Dev nD) (t : Fin cfg2.N) (d) : (dat V c).before 0 t d = blockAt V c 0 t :=
  held_rows V (dat V c) (dat_A V c 0) (after_rows V c) t d
theorem before_weight (c : Dev nD) (t : Fin cfg2.N) (d) : (dat V c).before 1 t d = blockAt V c 1 t :=
  held_weight V (dat V c) (dat_A V c 1) (after_weight V c) t d

/-- What the pipeline hands the body at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it takes back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their blocks, so the triple applies; the rest passes through. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows, before_weight]
  rw [show (dat V c).Φ t.succ = (dat V c).Φ t.castSucc from rfl,
    show (dat V c).owesAt () t.succ = (dat V c).owesAt () t.castSucc from rfl,
    after_rows, after_weight, after_result]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's obligation for this launch, at every point. -/
theorem obligation (c : Dev nD) : BodyObligation (dat (F := F) V c) (defs₀ (F := F)) Variants.none () Set.univ := fun t => by
  rw [bigSep_W2, bigSep_W2]
  exact body_at V c t

end Cert.Kernel.Mm2

end
-- ==== Proof.Bits.Fin3.lean ====
/-
  A layer's closing step as a tiled launch: ten grid points, point t taking rows 10000·t … 10000·t + 9999
  of the aggregated messages, of the projected features and of the squared inverse-root degrees (a column), and
  the whole bias row, and writing max((agg + h · d²) + b, 0) on those rows.
  Stated here, at any float instance and for any contents `V` the launch finds in the arrays: what each window's
  staging buffer holds at a point, what the body leaves in the result's buffer (its one whole-buffer store),
  the body's triple, and the launch's proof data with its obligation at every point.
-/
import proofs.«408095_j65790309040228_2_alg».proof.Proof.Gen.Kernel.Launch
import proofs.«408095_j65790309040228_2_alg».proof.Proof.Gen.Kernel.Skeleton
import proofs.«408095_j65790309040228_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fin3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blockAt (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- An input window's staging buffer holds that window's block whenever the body is called — fetched at this point,
    or fetched earlier with the block not having moved since (the bias row) — for any proof data over these arrays
    whose body leaves that buffer as it found it. One statement per input window. -/
theorem held_agg {c : Dev nD} (dat : Dat τ (Elt F) Unit ℕ (UR sig nD τ) ℕ cfg3 c)
    (hA : dat.A 0 = V c (Pipeline.arrRef spec3 0)) (hafter : ∀ t, dat.after 0 t = blockAt V c 0 t)
    (t : Fin cfg3.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem held_feat {c : Dev nD} (dat : Dat τ (Elt F) Unit ℕ (UR sig nD τ) ℕ cfg3 c)
    (hA : dat.A 1 = V c (Pipeline.arrRef spec3 1)) (hafter : ∀ t, dat.after 1 t = blockAt V c 1 t)
    (t : Fin cfg3.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem held_scale {c : Dev nD} (dat : Dat τ (Elt F) Unit ℕ (UR sig nD τ) ℕ cfg3 c)
    (hA : dat.A 2 = V c (Pipeline.arrRef spec3 2)) (hafter : ∀ t, dat.after 2 t = blockAt V c 2 t)
    (t : Fin cfg3.N) (d) : dat.before 2 t d = blockAt V c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
theorem held_bias {c : Dev nD} (dat : Dat τ (Elt F) Unit ℕ (UR sig nD τ) ℕ cfg3 c)
    (hA : dat.A 3 = V c (Pipeline.arrRef spec3 3)) (hafter : ∀ t, dat.after 3 t = blockAt V c 3 t)
    (t : Fin cfg3.N) (d) : dat.before 3 t d = blockAt V c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)

/-- The four buffer shapes, each as one whole rectangle. -/
abbrev rowsRect : Rect S10000x64 := Rect.unit (s := S10000x64) ![0, 0] S10000x64.size inb_S10000x64_S10000x64_0_0
abbrev colRect : Rect S10000x1 := Rect.unit (s := S10000x1) ![0, 0] S10000x1.size inb_S10000x1_S10000x1_0_0
abbrev biasRect : Rect S1x64 := Rect.unit (s := S1x64) ![0, 0] S1x64.size inb_S1x64_S1x64_0_0

/-- What the body leaves in the result's staging buffer: its single store, over the whole buffer, of the clamped
    sum of what it loaded. -/
def closed (a : Vec F S10000x64 .f32) (h : Vec F S10000x64 .f32) (s : Vec F S10000x1 .f32) (b : Vec F S1x64 .f32) :
    Vec F S10000x64 .f32 :=
  View.canon [⟨rowsRect, k3_pay1 (View.ld a rowsRect) (View.ld h rowsRect) (View.ld s colRect) (View.ld b biasRect)⟩]

/-- That one store covers the buffer. -/
theorem closed_cover (p : Vec F S10000x64 .f32) (y : S10000x64.Idx) :
    ∃ pc ∈ ([⟨rowsRect, p⟩] : List (View.Piece (Elt F) S10000x64 .f32)), y ∈ pc.1.set :=
  View.cover_of_tiled [⟨rowsRect, p⟩] S10000x64.size (by rfl) y

set_option maxHeartbeats 1000000 in
/-- The body's triple: from the four input buffers at given contents and the result's buffer at anything, it ends with
    the inputs as they were and the result's buffer at `closed` of them. -/
theorem body_triple (c : Dev nD) (E : Set ℕ) (i : grid3.Coords)
    (arg1 : Memref sig .tc .vmem S10000x64 .f32) (harg1 : arg1.IsWhole)
    (arg2 : Memref sig .tc .vmem S10000x64 .f32) (harg2 : arg2.IsWhole)
    (arg3 : Memref sig .tc .vmem S10000x1 .f32) (harg3 : arg3.IsWhole)
    (arg4 : Memref sig .tc .vmem S1x64 .f32) (harg4 : arg4.IsWhole)
    (arg5 : Memref sig .tc .vmem S10000x64 .f32) (harg5 : arg5.IsWhole)
    (a : Vec F S10000x64 .f32) (h : Vec F S10000x64 .f32) (s : Vec F S10000x1 .f32) (b : Vec F S1x64 .f32)
    (K : PUnit → sProp 𝕄) :
    iprop(owns (c : Thread nD τ) arg1 fullShare a ∗ owns (c : Thread nD τ) arg2 fullShare h
        ∗ owns (c : Thread nD τ) arg3 fullShare s ∗ owns (c : Thread nD τ) arg4 fullShare b
        ∗ (∃ d, owns (c : Thread nD τ) arg5 fullShare d)
        ∗ (iprop(owns (c : Thread nD τ) arg1 fullShare a ∗ owns (c : Thread nD τ) arg2 fullShare h
            ∗ owns (c : Thread nD τ) arg3 fullShare s ∗ owns (c : Thread nD τ) arg4 fullShare b
            ∗ owns (c : Thread nD τ) arg5 fullShare (closed a h s b)) -∗ K ⟨⟩))
      ⊢ wp frame (wpE (defs₀ (F := F)) Variants.none c none) E
          (cc3__finalize_kernel i arg1 harg1 arg2 harg2 arg3 harg3 arg4 harg4 arg5 harg5) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (closed_cover _)

/-- The launch's proof data on core `c`: the arrays as found; after the body at point `t` the four inputs' buffers at
    their blocks and the result's at `closed` of those blocks; the scoped buffers and the generator register ride
    through untouched; nothing is owed. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => closed (blockAt V c 0 t) (blockAt V c 1 t) (blockAt V c 2 t) (blockAt V c 3 t)
  Φ _ := Pipeline.ΦA spec3 c
  q _ := fullShare
  owed _ := 0

theorem dat_A (c : Dev nD) (w : Fin cfg3.W) : (dat V c).A w = V c (Pipeline.arrRef spec3 w) := by
  dsimp only [dat]

theorem after_agg (c : Dev nD) (t : Fin cfg3.N) : (dat V c).after 0 t = blockAt V c 0 t := by dsimp only [dat]
theorem after_feat (c : Dev nD) (t : Fin cfg3.N) : (dat V c).after 1 t = blockAt V c 1 t := by dsimp only [dat]
theorem after_scale (c : Dev nD) (t : Fin cfg3.N) : (dat V c).after 2 t = blockAt V c 2 t := by dsimp only [dat]
theorem after_bias (c : Dev nD) (t : Fin cfg3.N) : (dat V c).after 3 t = blockAt V c 3 t := by dsimp only [dat]
theorem after_result (c : Dev nD) (t : Fin cfg3.N) :
    (dat V c).after 4 t = closed (blockAt V c 0 t) (blockAt V c 1 t) (blockAt V c 2 t) (blockAt V c 3 t) := by
  dsimp only [dat]

theorem before_agg (c : Dev nD) (t : Fin cfg3.N) (d) : (dat V c).before 0 t d = blockAt V c 0 t :=
  held_agg V (dat V c) (dat_A V c 0) (after_agg V c) t d
theorem before_feat (c : Dev nD) (t : Fin cfg3.N) (d) : (dat V c).before 1 t d = blockAt V c 1 t :=
  held_feat V (dat V c) (dat_A V c 1) (after_feat V c) t d
theorem before_scale (c : Dev nD) (t : Fin cfg3.N) (d) : (dat V c).before 2 t d = blockAt V c 2 t :=
  held_scale V (dat V c) (dat_A V c 2) (after_scale V c) t d
theorem before_bias (c : Dev nD) (t : Fin cfg3.N) (d) : (dat V c).before 3 t d = blockAt V c 3 t :=
  held_bias V (dat V c) (dat_A V c 3) (after_bias V c) t d

/-- What the pipeline hands the body at point `t`, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it takes back. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

/-- The body at any point: the inputs' buffers hold their blocks, so the triple applies; the rest passes through. -/
theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_agg, before_feat, before_scale, before_bias]
  rw [show (dat V c).Φ t.succ = (dat V c).Φ t.castSucc from rfl,
    show (dat V c).owesAt () t.succ = (dat V c).owesAt () t.castSucc from rfl,
    after_agg, after_feat, after_scale, after_bias, after_result]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's obligation for this launch, at every point. -/
theorem obligation (c : Dev nD) : BodyObligation (dat (F := F) V c) (defs₀ (F := F)) Variants.none () Set.univ := fun t => by
  rw [bigSep_W3, bigSep_W3]
  exact body_at V c t

end Cert.Kernel.Fin3

end
-- ==== Proof.Bits.Pool4.lean ====
/-
  The mean pool's numerator as a tiled launch: thirty-two grid points, point t multiplying columns
  3200·t … 3200·t + 3199 of the 64 × 102400 membership mask by rows 3200·t … of the padded node features
  into a 64 × 64 accumulator kept in a scratch buffer — cleared at the first point, added into at every point,
  and copied to the result's buffer at the last point, the only one whose result is written back.
  Stated here, at any float instance and for any contents `V` the launch finds in the arrays: the accumulator
  after each point, the body's triples, and the launch's proof data with its obligation at every point.
-/
import proofs.«408095_j65790309040228_2_alg».proof.Proof.Gen.Kernel.Launch
import proofs.«408095_j65790309040228_2_alg».proof.Proof.Gen.Kernel.Skeleton
import proofs.«408095_j65790309040228_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Pool4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blockAt (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The three buffer shapes, each as one whole rectangle. -/
abbrev sqRect : Rect S64x64 := Rect.unit (s := S64x64) ![0, 0] S64x64.size inb_S64x64_S64x64_0_0
abbrev maskRect : Rect S64x3200 := Rect.unit (s := S64x3200) ![0, 0] S64x3200.size inb_S64x3200_S64x3200_0_0
abbrev featRect : Rect S3200x64 := Rect.unit (s := S3200x64) ![0, 0] S3200x64.size inb_S3200x64_S3200x64_0_0

/-- The cleared accumulator: what the first point's whole-buffer store of zeros leaves in the scratch. -/
def cleared : Vec F S64x64 .f32 := View.canon [⟨sqRect, k4_pay1 (F := F)⟩]

/-- One accumulation: what a point's whole-buffer store leaves in the scratch, from the mask block and the feature
    block it loaded and what the scratch held when it loaded it. -/
def step (mk : Vec F S64x3200 .bf16) (h : Vec F S3200x64 .f32) (acc : Vec F S64x64 .f32) : Vec F S64x64 .f32 :=
  View.canon [⟨sqRect, k4_pay2 (View.ld mk maskRect) (View.ld h featRect) (View.ld acc sqRect)⟩]

/-- The scratch after point `n`: the first point accumulates onto the cleared buffer, every later one onto what the
    point before left. -/
def accAt (c : Dev nD) : (n : ℕ) → n < cfg4.N → Vec F S64x64 .f32
  | 0, hn => step (blockAt V c 0 ⟨0, hn⟩) (blockAt V c 1 ⟨0, hn⟩) cleared
  | n + 1, hn => step (blockAt V c 0 ⟨n + 1, hn⟩) (blockAt V c 1 ⟨n + 1, hn⟩) (accAt c n (Nat.lt_of_succ_lt hn))

theorem accAt_zero (c : Dev nD) (hn : 0 < cfg4.N) :
    accAt V c 0 hn = step (blockAt V c 0 ⟨0, hn⟩) (blockAt V c 1 ⟨0, hn⟩) cleared := rfl
theorem accAt_succ (c : Dev nD) (n : ℕ) (hn : n + 1 < cfg4.N) :
    accAt V c (n + 1) hn = step (blockAt V c 0 ⟨n + 1, hn⟩) (blockAt V c 1 ⟨n + 1, hn⟩) (accAt V c n (Nat.lt_of_succ_lt hn)) := rfl

/-! ## The two conditions of the body, in closed form over the grid -/

/-- The first conditional's test: the point's coordinate is zero. -/
abbrev isFirst (i : grid4.Coords) : Prop :=
  (Scalar.cmpi .ne (Scalar.extui (Scalar.cmpi .eq (BitVec.ofNat 32 (i 0).val) 0#32)) 0#32) = 1#1
/-- The second conditional's test: the point's coordinate is thirty-one. -/
abbrev isLast (i : grid4.Coords) : Prop := k4_cond2 i = 1#1

theorem isFirst_iff : ∀ t : Fin cfg4.N, isFirst (grid4.coords t) ↔ t.val = 0 :=
  (by decide +kernel : ∀ t : Fin grid4.N, isFirst (grid4.coords t) ↔ t.val = 0)
theorem isLast_iff : ∀ t : Fin cfg4.N, isLast (grid4.coords t) ↔ t.val = 31 :=
  (by decide +kernel : ∀ t : Fin grid4.N, isLast (grid4.coords t) ↔ t.val = 31)

/-! ## Where the result's window is idle -/

theorem live_mask : ∀ t : Fin cfg4.N, cfg4.idle 0 (grid4.coords t) = false := fun _ => rfl
theorem live_feat : ∀ t : Fin cfg4.N, cfg4.idle 1 (grid4.coords t) = false := fun _ => rfl
/-- At every point but the last the result's window is idle and its block is not written back. -/
theorem idle_result : ∀ t : Fin cfg4.N, ¬isLast (grid4.coords t) → cfg4.idle 2 (grid4.coords t) = true := by decide +kernel
theorem noFlush_result : ∀ t : Fin cfg4.N, ¬isLast (grid4.coords t) → (cfg4.win 2).flush t = false := by decide +kernel
/-- At the last point it is live. -/
theorem live_result : ∀ t : Fin cfg4.N, isLast (grid4.coords t) → cfg4.idle 2 (grid4.coords t) = false := by decide +kernel

/-! ## What whole-buffer stores leave -/

/-- The zero offsets of the whole rectangles, as a constant function. -/
theorem off_zero : (![0, 0] : Fin 2 → Nat) = fun _ => 0 := by funext a; fin_cases a <;> rfl

/-- The cleared accumulator is the zero payload; an accumulation is the update payload of what it loaded. -/
theorem cleared_eq : cleared (F := F) = k4_pay1 (F := F) :=
  View.canon_unit_zero (S := S64x64) off_zero inb_S64x64_S64x64_0_0 _
theorem step_eq (mk : Vec F S64x3200 .bf16) (h : Vec F S3200x64 .f32) (acc : Vec F S64x64 .f32) :
    step mk h acc = k4_pay2 (View.ld mk maskRect) (View.ld h featRect) (View.ld acc sqRect) :=
  View.canon_unit_zero (S := S64x64) off_zero inb_S64x64_S64x64_0_0 _

/-- After a store through the whole-shape rectangle at zero offsets, made last, the buffer reads as that store's
    payload, whatever was stored before: stated over any shape. -/
theorem read_last_whole {S : Shape} {e : EltTy} (v : View sig .tc .vmem S e) (f : v.ty.Contents (Elt F))
    {off : Fin S.rank → Nat} (h : off = fun _ => 0) (inb : ∀ a, off a + S.size a ≤ S.size a)
    (P : S.Idx → Elt F e) (L : List (View.Piece (Elt F) S e)) :
    v.read (Elt F) (v.writes (Elt F) f ((⟨Rect.unit off S.size inb, P⟩ : View.Piece (Elt F) S e) :: L)) = P := by
  rw [View.read_writes_eq_canon v f _
    (fun y => ⟨(⟨Rect.unit off S.size inb, P⟩ : View.Piece (Elt F) S e), List.mem_cons_self, View.mem_set_unit_zero h inb y⟩),
    View.canon_cons_unit_zero h]

/-- One whole-buffer store of the accumulator's shape, read back, is its payload; so is the later of two. -/
theorem read_one (v : View sig .tc .vmem S64x64 .f32) (f : v.ty.Contents (Elt F)) (P : Vec F S64x64 .f32) :
    v.read (Elt F) (v.writes (Elt F) f [⟨sqRect, P⟩]) = P :=
  read_last_whole v f off_zero inb_S64x64_S64x64_0_0 P []
theorem read_two (v : View sig .tc .vmem S64x64 .f32) (f : v.ty.Contents (Elt F)) (P Q : Vec F S64x64 .f32) :
    v.read (Elt F) (v.writes (Elt F) f [⟨sqRect, P⟩, ⟨sqRect, Q⟩]) = P :=
  read_last_whole v f off_zero inb_S64x64_S64x64_0_0 P [⟨sqRect, Q⟩]

/-! ## The body's three runs -/

set_option maxHeartbeats 1000000 in
/-- A middle point: neither conditional fires; the accumulator is loaded, updated and stored back. -/
theorem run_middle (c : Dev nD) (E : Set ℕ) (i : grid4.Coords) (h1 : ¬isFirst i) (h2 : ¬isLast i)
    (arg1 : Memref sig .tc .vmem S64x3200 .bf16) (harg1 : arg1.IsWhole)
    (arg2 : Memref sig .tc .vmem S3200x64 .f32) (harg2 : arg2.IsWhole)
    (arg3 : Memref sig .tc .vmem S64x64 .f32) (harg3 : arg3.IsWhole)
    (arg4 : Memref sig .tc .vmem S64x64 .f32) (harg4 : arg4.IsWhole)
    (x : Vec F S64x3200 .bf16) (y : Vec F S3200x64 .f32) (acc : Vec F S64x64 .f32) (K : PUnit → sProp 𝕄) :
    iprop(owns (c : Thread nD τ) arg1 fullShare x ∗ owns (c : Thread nD τ) arg2 fullShare y
        ∗ owns (c : Thread nD τ) arg4 fullShare acc
        ∗ (iprop(owns (c : Thread nD τ) arg1 fullShare x ∗ owns (c : Thread nD τ) arg2 fullShare y
            ∗ owns (c : Thread nD τ) arg4 fullShare (step x y acc)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f4, %hf4, H4⟩, Hk⟩
  subst hf0; subst hf1; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  rw [read_one, step_eq]; rfl

set_option maxHeartbeats 1000000 in
/-- The first point: the accumulator is cleared, then loaded, updated and stored back. -/
theorem run_first (c : Dev nD) (E : Set ℕ) (i : grid4.Coords) (h1 : isFirst i) (h2 : ¬isLast i)
    (arg1 : Memref sig .tc .vmem S64x3200 .bf16) (harg1 : arg1.IsWhole)
    (arg2 : Memref sig .tc .vmem S3200x64 .f32) (harg2 : arg2.IsWhole)
    (arg3 : Memref sig .tc .vmem S64x64 .f32) (harg3 : arg3.IsWhole)
    (arg4 : Memref sig .tc .vmem S64x64 .f32) (harg4 : arg4.IsWhole)
    (x : Vec F S64x3200 .bf16) (y : Vec F S3200x64 .f32) (K : PUnit → sProp 𝕄) :
    iprop(owns (c : Thread nD τ) arg1 fullShare x ∗ owns (c : Thread nD τ) arg2 fullShare y
        ∗ (∃ d, owns (c : Thread nD τ) arg4 fullShare d)
        ∗ (iprop(owns (c : Thread nD τ) arg1 fullShare x ∗ owns (c : Thread nD τ) arg2 fullShare y
            ∗ owns (c : Thread nD τ) arg4 fullShare (step x y cleared)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d4, %f4, -, H4⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  sl_unfold_words
  rw [read_two, step_eq, View.readCov_unit_zero (S := S64x64) _ off_zero, View.ld_unit_zero (S := S64x64) off_zero, cleared_eq]; rfl

set_option maxHeartbeats 1000000 in
/-- The last point: the accumulator is loaded, updated and stored back, then copied over the result's buffer. -/
theorem run_last (c : Dev nD) (E : Set ℕ) (i : grid4.Coords) (h1 : ¬isFirst i) (h2 : isLast i)
    (arg1 : Memref sig .tc .vmem S64x3200 .bf16) (harg1 : arg1.IsWhole)
    (arg2 : Memref sig .tc .vmem S3200x64 .f32) (harg2 : arg2.IsWhole)
    (arg3 : Memref sig .tc .vmem S64x64 .f32) (harg3 : arg3.IsWhole)
    (arg4 : Memref sig .tc .vmem S64x64 .f32) (harg4 : arg4.IsWhole)
    (x : Vec F S64x3200 .bf16) (y : Vec F S3200x64 .f32) (acc : Vec F S64x64 .f32) (K : PUnit → sProp 𝕄) :
    iprop(owns (c : Thread nD τ) arg1 fullShare x ∗ owns (c : Thread nD τ) arg2 fullShare y
        ∗ (∃ d, owns (c : Thread nD τ) arg3 fullShare d)
        ∗ owns (c : Thread nD τ) arg4 fullShare acc
        ∗ (iprop(owns (c : Thread nD τ) arg1 fullShare x ∗ owns (c : Thread nD τ) arg2 fullShare y
            ∗ owns (c : Thread nD τ) arg3 fullShare (step x y acc)
            ∗ owns (c : Thread nD τ) arg4 fullShare (step x y acc)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [read_one, View.readCov_unit_zero (S := S64x64) _ off_zero, step_eq]; rfl
  iexists _; isplitr
  swap; · iexact H4
  ipureintro
  sl_unfold_words
  rw [read_one, step_eq]; rfl

/-! ## The inputs' staging buffers hold their blocks -/

/-- The mask's staging buffer holds the point's block whenever the body is called: it is fetched at every point. -/
theorem held_mask {c : Dev nD} (dat : Dat τ (Elt F) Unit ℕ (UR sig nD τ) ℕ cfg4 c)
    (hA : dat.A 0 = V c (Pipeline.arrRef spec4 0)) (hafter : ∀ t, dat.after 0 t = blockAt V c 0 t)
    (t : Fin cfg4.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- So does the features' staging buffer. -/
theorem held_feat {c : Dev nD} (dat : Dat τ (Elt F) Unit ℕ (UR sig nD τ) ℕ cfg4 c)
    (hA : dat.A 1 = V c (Pipeline.arrRef spec4 1)) (hafter : ∀ t, dat.after 1 t = blockAt V c 1 t)
    (t : Fin cfg4.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- The region invariant before position `n`: before the first point every scoped buffer that is no staging buffer
    of this launch at anything and the generator register at some state; afterwards the same with the scratch at the
    accumulator the point before left. -/
def inv (c : Dev nD) : (n : ℕ) → n ≤ cfg4.N → sProp 𝕄
  | 0, _ => Pipeline.ΦA spec4 c
  | n + 1, hn => iprop(owns (c : Thread nD τ) (Memref.whole cc4_scratch0) fullShare (accAt V c n hn)
      ∗ Pipeline.scopedRestBut (Ix := Unit) (Name := ℕ) (U := UR sig nD τ) (Lvl := ℕ) (Val := Elt F) spec4 c [cc4_scratch0]
      ∗ ∃ r, prngReg c r)

/-- The launch's proof data on core `c`: the arrays as found; after the body at point `t` the two inputs' buffers at
    their blocks and the result's at the accumulator after `t` (consulted at the last point only: elsewhere the window is
    idle); the invariant `inv`; nothing is owed. -/
def dat (c : Dev nD) : Dat τ (Elt F) Unit ℕ (UR sig nD τ) ℕ cfg4 c where
  A w := V c (Pipeline.arrRef spec4 w)
  after w t := match w with
    | ⟨0, _⟩ => blockAt V c 0 t
    | ⟨1, _⟩ => blockAt V c 1 t
    | ⟨2, _⟩ => accAt V c t.val t.isLt
  Φ t := inv V c t.val (Nat.le_of_lt_succ t.isLt)
  q _ := fullShare
  owed _ := 0

theorem dat_A (c : Dev nD) (w : Fin cfg4.W) : (dat V c).A w = V c (Pipeline.arrRef spec4 w) := by
  dsimp only [dat]
theorem after_mask (c : Dev nD) (t : Fin cfg4.N) : (dat V c).after 0 t = blockAt V c 0 t := by dsimp only [dat]
theorem after_feat (c : Dev nD) (t : Fin cfg4.N) : (dat V c).after 1 t = blockAt V c 1 t := by dsimp only [dat]
theorem after_result (c : Dev nD) (t : Fin cfg4.N) : (dat V c).after 2 t = accAt V c t.val t.isLt := by dsimp only [dat]

theorem before_mask (c : Dev nD) (t : Fin cfg4.N) (d) : (dat V c).before 0 t d = blockAt V c 0 t :=
  held_mask V (dat V c) (dat_A V c 0) (after_mask V c) t d
theorem before_feat (c : Dev nD) (t : Fin cfg4.N) (d) : (dat V c).before 1 t d = blockAt V c 1 t :=
  held_feat V (dat V c) (dat_A V c 1) (after_feat V c) t d

/-! ## The accumulator and the invariant, point by point -/

/-- The accumulator after the first point. -/
theorem accAt_first (c : Dev nD) (t : Fin cfg4.N) (hz : t.val = 0) :
    accAt V c t.val t.isLt = step (blockAt V c 0 t) (blockAt V c 1 t) cleared := by
  obtain ⟨n, hn⟩ := t
  cases n with
  | zero => rfl
  | succ n => exact absurd hz (Nat.succ_ne_zero n)

/-- The accumulator after any later point, from the one before. -/
theorem accAt_later (c : Dev nD) (t : Fin cfg4.N) (hz : t.val ≠ 0) :
    accAt V c t.val t.isLt = step (blockAt V c 0 t) (blockAt V c 1 t)
      (accAt V c (t.val - 1) (Nat.lt_of_le_of_lt (Nat.sub_le _ _) t.isLt)) := by
  obtain ⟨n, hn⟩ := t
  cases n with
  | zero => exact absurd rfl hz
  | succ n => rfl

/-- The scoped buffers that are neither a staging buffer of this launch nor its scratch. -/
abbrev others (c : Dev nD) : sProp 𝕄 :=
  Pipeline.scopedRestBut (Ix := Unit) (Name := ℕ) (U := UR sig nD τ) (Lvl := ℕ) (Val := Elt F) spec4 c [cc4_scratch0]

theorem inv_zero (c : Dev nD) (n : ℕ) (h : n ≤ cfg4.N) (hz : n = 0) : inv V c n h = Pipeline.ΦA spec4 c := by
  subst hz; rfl

theorem inv_succ (c : Dev nD) (n : ℕ) (hn : n < cfg4.N) :
    inv V c (n + 1) hn = iprop(owns (c : Thread nD τ) (Memref.whole cc4_scratch0) fullShare (accAt V c n hn)
      ∗ others c ∗ ∃ r, prngReg c r) := rfl

theorem inv_pos (c : Dev nD) (n : ℕ) (h : n ≤ cfg4.N) (hz : n ≠ 0) :
    inv V c n h = iprop(owns (c : Thread nD τ) (Memref.whole cc4_scratch0) fullShare (accAt V c (n - 1) (by omega))
      ∗ others c ∗ ∃ r, prngReg c r) := by
  cases n with
  | zero => exact absurd rfl hz
  | succ n => rfl

/-- What the launch hands the region, with the scratch split off the other scoped buffers and owned as a memref. -/
theorem PhiA_eq (c : Dev nD) :
    (Pipeline.ΦA spec4 c : sProp 𝕄)
      = iprop(iprop((∃ d, owns (c : Thread nD τ) (Memref.whole cc4_scratch0) fullShare d) ∗ others c) ∗ (∃ r, prngReg c r)) := by
  unfold Pipeline.ΦA; rw [scopedRest4_split]; simp only [owns_whole]

theorem inv_castSucc (c : Dev nD) (t : Fin cfg4.N) :
    (dat V c).Φ t.castSucc = inv V c t.val (Nat.le_of_lt t.isLt) := by
  dsimp only [dat]; simp only [Fin.coe_castSucc]

/-! ## The body at a point -/

/-- What the pipeline hands the body at point `t`, window by window, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d)))

/-- and what it takes back: the result's buffer as found where its window is idle, at the accumulator where it is live. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. The inputs' buffers hold their blocks; the point is the first, the last or one between,
    which decides the two conditionals; the invariant hands the body the scratch (at anything before the first point,
    at the accumulator the point before left afterwards) and takes it back at this point's accumulator; the result's
    buffer passes through untouched where its window is idle and ends at the accumulator at the last point. -/
theorem body_at (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_mask, before_feat]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st4_0 t) fullShare ((dat V c).after 0 t) from by
    unfold Dat.leavesExact; rw [live_mask t], after_mask]
  rw [show (dat V c).leavesExact 1 t = owns (c : Thread nD τ) (st4_1 t) fullShare ((dat V c).after 1 t) from by
    unfold Dat.leavesExact; rw [live_feat t], after_feat]
  have hN : t.val < 32 := lt_of_lt_of_eq t.isLt (show cfg4.N = 32 from N_4)
  by_cases hL : t.val = 31
  · have hF : t.val ≠ 0 := by omega
    rw [show (dat V c).leavesExact 2 t = owns (c : Thread nD τ) (st4_2 t) fullShare ((dat V c).after 2 t) from by
      unfold Dat.leavesExact; rw [live_result t ((isLast_iff t).mpr hL)], after_result]
    rw [accAt_later V c t hF, inv_castSucc V c t, inv_pos V c _ _ hF]
    iintro ⟨⟨HS, HR, Hg⟩, Ho, ⟨%d0, H0⟩, ⟨%d1, H1⟩, ⟨%d2, H2⟩⟩
    iapply (run_last c Set.univ (grid4.coords t) (fun h => hF ((isFirst_iff t).mp h)) ((isLast_iff t).mpr hL)
      _ _ _ _ _ _ _ _ (blockAt V c 0 t) (blockAt V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hL' : ¬isLast (grid4.coords t) := fun h => hL ((isLast_iff t).mp h)
    rw [Dat.leavesExact_idle (dat V c) 2 t (idle_result t hL') (noFlush_result t hL')]
    by_cases hF : t.val = 0
    · rw [accAt_first V c t hF, inv_castSucc V c t, inv_zero V c _ _ hF, PhiA_eq]
      iintro ⟨⟨⟨HS, HR⟩, Hg⟩, Ho, ⟨%d0, H0⟩, ⟨%d1, H1⟩, H2⟩
      iapply (run_first c Set.univ (grid4.coords t) ((isFirst_iff t).mpr hF) hL'
        _ _ _ _ _ _ _ _ (blockAt V c 0 t) (blockAt V c 1 t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [accAt_later V c t hF, inv_castSucc V c t, inv_pos V c _ _ hF]
      iintro ⟨⟨HS, HR, Hg⟩, Ho, ⟨%d0, H0⟩, ⟨%d1, H1⟩, H2⟩
      iapply (run_middle c Set.univ (grid4.coords t) (fun h => hF ((isFirst_iff t).mp h)) hL'
        _ _ _ _ _ _ _ _ (blockAt V c 0 t) (blockAt V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The pipeline library's obligation for this launch, at every point. -/
theorem obligation (c : Dev nD) : BodyObligation (dat (F := F) V c) (defs₀ (F := F)) Variants.none () Set.univ := fun t => by
  rw [bigSep_W4, bigSep_W4]
  exact body_at V c t

/-- What the launch hands the region is the invariant before the first point. -/
theorem inv_enter (c : Dev nD) : Pipeline.ΦA spec4 c ⊢ (dat V c).Φ 0 := by
  rw [show (dat V c).Φ 0 = inv V c 0 (Nat.zero_le _) from rfl, inv_zero V c 0 _ rfl]
  try exact Idealize.SL.BI.Entails.refl _

/-- After the last point the invariant gives the scoped buffers and the register back, the accumulator forgotten. -/
theorem inv_leave (c : Dev nD) : (dat V c).Φ (Fin.last cfg4.N) ⊢ Pipeline.ΦA spec4 c := by
  rw [show (dat V c).Φ (Fin.last cfg4.N) = inv V c (Fin.last cfg4.N).val (Nat.le_of_lt_succ (Fin.last cfg4.N).isLt) from rfl,
    inv_pos V c _ _ (by rw [Fin.val_last]; have : cfg4.N = 32 := N_4; omega), PhiA_eq]
  iintro ⟨HS, HR, Hg⟩
  isplitl [HS HR]
  · isplitl [HS]; · iexists _; iexact HS
    iexact HR
  iexact Hg

end Cert.Kernel.Pool4

end
-- ==== Proof.Bits.RunDefs.lean ====
/-
  The contents of the core's buffers at every boundary between the program's host stretches and its five
  launches, with each launch's result array named: the projection of the inputs (`proj1`), the first layer's
  output (`layer1`), its projection (`proj2`), the second layer's output (`layer2`) and the pooled sums
  (`pooled`) — each the array its launch's write-backs leave, from the contents that launch is entered at.
  `results` packs them in the form the program's segment list is stated over, and the equations `at_2 … at_13` say
  that the boundary contents over `results` are the ones named here.
-/
import proofs.«408095_j65790309040228_2_alg».proof.Proof.Gen.Kernel.Regions
import proofs.«408095_j65790309040228_2_alg».proof.Proof.Bits.Mm0
import proofs.«408095_j65790309040228_2_alg».proof.Proof.Bits.Fin1
import proofs.«408095_j65790309040228_2_alg».proof.Proof.Bits.Mm2
import proofs.«408095_j65790309040228_2_alg».proof.Proof.Bits.Fin3
import proofs.«408095_j65790309040228_2_alg».proof.Proof.Bits.Pool4

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A valuation of the core's buffers read at the TensorCore's references: what a launch's proof data take. -/
abbrev atRefs (X : Dev nD → Valuation τ sig (Elt F)) :
    (c : Dev nD) → (b : Ref sig .tc) → Buf (Elt F) ((c : Thread nD τ).loc b) := fun c b => X c b

/-- After the first host stretch: the first projection is entered here. -/
abbrev X1 (c : Dev nD) : Valuation τ sig (Elt F) := V1 m c
/-- The first projection's result array: h₁ = x · W₁. -/
def proj1 (c : Dev nD) : Buf (Elt F) ((c : Thread nD τ).loc main_v28) := (Mm0.dat (atRefs (X1 m)) c).arrAt 2 cfg0.N
abbrev X2 (c : Dev nD) : Valuation τ sig (Elt F) := Function.update (X1 m c) main_v28 (proj1 m c)
abbrev X3 (c : Dev nD) : Valuation τ sig (Elt F) := StableHlo.after hostOps1 (X2 m c)
/-- The first layer's output array. -/
def layer1 (c : Dev nD) : Buf (Elt F) ((c : Thread nD τ).loc main_v43) := (Fin1.dat (atRefs (X3 m)) c).arrAt 4 cfg1.N
abbrev X4 (c : Dev nD) : Valuation τ sig (Elt F) := Function.update (X3 m c) main_v43 (layer1 m c)
/-- The second projection's result array: h₂ = layer1 · W₂. -/
def proj2 (c : Dev nD) : Buf (Elt F) ((c : Thread nD τ).loc main_v44) := (Mm2.dat (atRefs (X4 m)) c).arrAt 2 cfg2.N
abbrev X5 (c : Dev nD) : Valuation τ sig (Elt F) := Function.update (X4 m c) main_v44 (proj2 m c)
abbrev X6 (c : Dev nD) : Valuation τ sig (Elt F) := StableHlo.after hostOps3 (X5 m c)
/-- The second layer's output array. -/
def layer2 (c : Dev nD) : Buf (Elt F) ((c : Thread nD τ).loc main_v59) := (Fin3.dat (atRefs (X6 m)) c).arrAt 4 cfg3.N
abbrev X7 (c : Dev nD) : Valuation τ sig (Elt F) := Function.update (X6 m c) main_v59 (layer2 m c)
abbrev X8 (c : Dev nD) : Valuation τ sig (Elt F) := StableHlo.after hostOps4 (X7 m c)
abbrev X9 (c : Dev nD) : Valuation τ sig (Elt F) := StableHlo.after hostOps4_1 (X8 m c)
abbrev X10 (c : Dev nD) : Valuation τ sig (Elt F) := StableHlo.after hostOps4_2 (X9 m c)
abbrev X11 (c : Dev nD) : Valuation τ sig (Elt F) := StableHlo.after hostOps4_3 (X10 m c)
/-- The pooled sums' array. -/
def pooled (c : Dev nD) : Buf (Elt F) ((c : Thread nD τ).loc main_v69) := (Pool4.dat (atRefs (X11 m)) c).arrAt 2 cfg4.N
abbrev X12 (c : Dev nD) : Valuation τ sig (Elt F) := Function.update (X11 m c) main_v69 (pooled m c)
abbrev X13 (c : Dev nD) : Valuation τ sig (Elt F) := StableHlo.after hostOps5 (X12 m c)

/-- What the launches leave, in the form the segment list reads it: at boundary J, the contents named above. -/
def results : Outs (F := F) := fun J r c =>
  match J with
  | 2 => X2 m c r
  | 4 => X4 m c r
  | 5 => X5 m c r
  | 7 => X7 m c r
  | 12 => X12 m c r
  | _ => X13 m c r

theorem at_2 (c : Dev nD) : V2 m (results m) c = X2 m c := by
  show Function.update (V1 m c) main_v28 (Function.update (X1 m c) main_v28 (proj1 m c) main_v28) = _
  rw [Function.update_self]
theorem at_3 (c : Dev nD) : V3 m (results m) c = X3 m c := by
  show StableHlo.after hostOps1 (V2 m (results m) c) = _
  rw [at_2]
theorem at_4 (c : Dev nD) : V4 m (results m) c = X4 m c := by
  show Function.update (V3 m (results m) c) main_v43 (Function.update (X3 m c) main_v43 (layer1 m c) main_v43) = _
  rw [Function.update_self, at_3]
theorem at_5 (c : Dev nD) : V5 m (results m) c = X5 m c := by
  show Function.update (V4 m (results m) c) main_v44 (Function.update (X4 m c) main_v44 (proj2 m c) main_v44) = _
  rw [Function.update_self, at_4]
theorem at_6 (c : Dev nD) : V6 m (results m) c = X6 m c := by
  show StableHlo.after hostOps3 (V5 m (results m) c) = _
  rw [at_5]
theorem at_7 (c : Dev nD) : V7 m (results m) c = X7 m c := by
  show Function.update (V6 m (results m) c) main_v59 (Function.update (X6 m c) main_v59 (layer2 m c) main_v59) = _
  rw [Function.update_self, at_6]
theorem at_8 (c : Dev nD) : V8 m (results m) c = X8 m c := by
  show StableHlo.after hostOps4 (V7 m (results m) c) = _
  rw [at_7]
theorem at_9 (c : Dev nD) : V9 m (results m) c = X9 m c := by
  show StableHlo.after hostOps4_1 (V8 m (results m) c) = _
  rw [at_8]
theorem at_10 (c : Dev nD) : V10 m (results m) c = X10 m c := by
  show StableHlo.after hostOps4_2 (V9 m (results m) c) = _
  rw [at_9]
theorem at_11 (c : Dev nD) : V11 m (results m) c = X11 m c := by
  show StableHlo.after hostOps4_3 (V10 m (results m) c) = _
  rw [at_10]
theorem at_12 (c : Dev nD) : V12 m (results m) c = X12 m c := by
  show Function.update (V11 m (results m) c) main_v69 (Function.update (X11 m c) main_v69 (pooled m c) main_v69) = _
  rw [Function.update_self, at_11]
theorem at_13 (c : Dev nD) : V13 m (results m) c = X13 m c := by
  show StableHlo.after hostOps5 (V12 m (results m) c) = _
  rw [at_12]

end Cert.Kernel.Run

end
-- ==== Proof.Bits.Segs.lean ====
/-
  The program's five launches as segments of its run. Each is entered with every unscoped buffer of the core
  held whole at the boundary's contents (`Run.XJ`), beside the generator register at some state and the core
  owing nothing (`beside`), and is left the same way at the next boundary's contents: the launch's arrays are taken
  out of the held buffers at entry and put back, at what its write-backs leave, at exit; the register and the scoped
  buffers pass into the launch's invariant and out of it.
-/
import proofs.«408095_j65790309040228_2_alg».proof.Proof.Bits.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every launch's proof data, each at the contents its launch is entered at. -/
def pdats : (p : Fin 5) → (c : Dev nD) → Dat τ (Elt F) Unit ℕ (UR sig nD τ) ℕ (cfgs p) c
  | ⟨0, _⟩ => fun c => Mm0.dat (atRefs (X1 m)) c
  | ⟨1, _⟩ => fun c => Fin1.dat (atRefs (X3 m)) c
  | ⟨2, _⟩ => fun c => Mm2.dat (atRefs (X4 m)) c
  | ⟨3, _⟩ => fun c => Fin3.dat (atRefs (X6 m)) c
  | ⟨4, _⟩ => fun c => Pool4.dat (atRefs (X11 m)) c

abbrev noVariants : Variants := Variants.none
/-- No core waits on another: no level is assigned. -/
abbrev noLevels : GSem nD τ sig → Finset Unit := fun _ => ∅
abbrev levelOf : GSem nD τ sig → Unit → ℕ := fun _ _ => 0

/-- What rides beside the held buffers through every segment: the generator register at some state, nothing owed. -/
abbrev beside (c : Dev nD) : sProp 𝕄 :=
  iprop((∃ r, prngReg c r) ∗ ∃ W, owes (c : Thread nD τ) (0 : CellTallies nD τ sig Unit) W)

/-- The thread state at a boundary with contents `X`. -/
abbrev stateAt (X : Dev nD → Valuation τ sig (Elt F)) (c : Dev nD) : sProp 𝕄 :=
  iprop(StableHlo.held (c : Thread nD τ) (Pipeline.ucRefs τ sig) (X c) ∗ beside c)

/-! ## What a launch leaves in the held buffers

A launch writes back through its one output window only: at its exit the output window's reference holds the array the
write-backs leave, every input window's array is as it was entered, and no other buffer is touched. So the exit contents
are the entry contents updated at the output window's reference. -/

section Exit

variable {p : Fin 5} (lf : Pipeline.LaunchFacts (nD := nD) (τ := τ) cfgs p) (o : Fin (cfgs p).W)
  (hinp : ∀ w, w ≠ o → ((cfgs p).win w).isOut = false) {c : Dev nD}
  (dat : Dat τ (Elt F) Unit ℕ (UR sig nD τ) ℕ (cfgs p) c) (X : Valuation τ sig (Elt F))
  (hA : ∀ w, dat.A w = X (Pipeline.arrRef (cfgs p).spec w))

include lf hinp hA in
/-- Every array of the launch holds at exit what the entry contents, updated at the output's reference with the array
    the write-backs leave, say: the output by the update itself; an input because its array is never written back, is
    read off the entry contents, and lies at another reference than the output's (the arrays are pairwise distinct). -/
theorem exit_arr (w : Fin (cfgs p).W) :
    dat.arrAt w (cfgs p).N
      = Function.update X (Proc.devRef .tc (Pipeline.arrRef (cfgs p).spec o)) (dat.arrAt o (cfgs p).N)
          (Pipeline.arrRef (cfgs p).spec w) := by
  by_cases h : w = o
  · subst h
    exact (Function.update_self (f := X) (Proc.devRef .tc (Pipeline.arrRef (cfgs p).spec w) : DevRef τ sig) (dat.arrAt w (cfgs p).N)).symm
  · rw [Function.update_of_ne (StableHlo.devRef_ne_of_ne fun e => h (lf.win.arr_inj e))]
    exact (dat.arrAt_in w (hinp w h) _).trans (hA w)

/-- A buffer that is no array of the launch is not the output's: the update leaves it as entered. -/
theorem exit_rest (b : Ref sig .tc) (hb : b ∉ Finset.univ.image (Pipeline.arrRef (cfgs p).spec)) :
    Function.update X (Proc.devRef .tc (Pipeline.arrRef (cfgs p).spec o)) (dat.arrAt o (cfgs p).N) b = X b :=
  Function.update_of_ne (StableHlo.devRef_ne_of_ne fun e => hb (Finset.mem_image.mpr ⟨o, Finset.mem_univ _, e.symm⟩)) _ _

end Exit

/-! ## A launch with no semaphore of its own, between two boundary contents -/

set_option backward.isDefEq.respectTransparency.types false in
/-- Launch p as a segment entered at the contents V and left at the contents W, given: the launch's layout facts; the body
    obligation of its proof data; that the data hold every array whole, owe nothing and bound no recorded pair; that
    the data's arrays are read off V (hA); that every window but o is an input and W is V updated at o's reference with
    the array o's write-backs leave (hinp, hW); and that the data's invariant is entered from, and left to, the scoped
    buffers no window stages beside the generator register (hin, hout). The arrays are split out of the held buffers at
    entry and joined back at exit; the register goes into the invariant and comes out of it; the rest of the held buffers
    bypasses the launch. -/
def launchSeg (p : Fin 5) (lf : Pipeline.LaunchFacts (nD := nD) (τ := τ) cfgs p)
    (V W : Dev nD → Valuation τ sig (Elt F))
    (hbody : ∀ c, BodyObligation (pdats m p c) (defs₀ (F := F)) Variants.none () Set.univ)
    (hq : ∀ c w, (pdats m p c).q w = fullShare)
    (howed : ∀ c t, (pdats m p c).owed t = 0)
    (hrec : ∀ c t, (pdats m p c).recorded t = Set.univ)
    (hA : ∀ c w, (pdats m p c).A w = V c (Pipeline.arrRef (cfgs p).spec w))
    (o : Fin (cfgs p).W) (hinp : ∀ w, w ≠ o → ((cfgs p).win w).isOut = false)
    (hW : ∀ c, W c = Function.update (V c) (Proc.devRef .tc (Pipeline.arrRef (cfgs p).spec o)) ((pdats m p c).arrAt o (cfgs p).N))
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄)) :
    Pipeline.RegionSeg (pcfgs (F := F)) adm (pdats m) () defs₀ noVariants noLevels levelOf p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLevels levelOf p howed
  pre c := stateAt V c
  post c := stateAt W c
  X c := iprop(∃ r, prngReg c r)
  Y c := iprop(∃ r, prngReg c r)
  Z c := Pipeline.unscopedRest (Ix := Unit) (Name := ℕ) (U := UR sig nD τ) (Lvl := ℕ) (cfgs p).spec c (atRefs V c)
  hentry c := by
    -- the held buffers at V are the launch's arrays at the data's entry contents and the rest
    have hsplit := Pipeline.arrays_of_unscopedBufs (p := p) (pcfgs (F := F)) adm (pdats m) lf.win lf.arr_whole c
      ((pdats m p c).share_full (hq c)) (atRefs V c) (hA c)
    rw [Pipeline.unscopedBufs_held] at hsplit
    unfold Pipeline.Dat.owesAt Pipeline.owesWithin
    rw [howed c]
    iintro ⟨⟨Hheld, Hreg, Howes⟩, -, -⟩
    icases Howes with ⟨%S, Howes⟩
    ihave Hparts := hsplit $$ Hheld
    icases Hparts with ⟨Harr, Hrest⟩
    imodintro
    isplitl [Harr]; · iexact Harr
    isplitr
    · -- no table is prefetched
      unfold Pipeline.prefHeld
      rw [show (Finset.univ : Finset (Fin 0)) = ∅ from rfl, BI.bigSep_empty]; iempintro
    isplitl [Howes]
    · -- nothing owed; no bound on the recorded pairs
      iexists S
      isplitr
      · ipureintro; intro x _; exact Or.inl (by rw [hrec c]; trivial)
      iexact Howes
    isplitl [Hreg]; · iexact Hreg
    iexact Hrest
  hin c := by
    refine BIBase.Entails.trans ?_ (hin c)
    unfold Pipeline.ΦA
    iintro ⟨Hreg, -, Hscoped⟩
    isplitl [Hscoped]; · iexact Hscoped
    iexact Hreg
  hout c := by
    refine (hout c).trans ?_
    rw [Pipeline.ownSems0_none]; unfold Pipeline.ΦA
    iintro ⟨Hscoped, Hreg⟩
    isplitl [Hreg]; · iexact Hreg
    isplitr; · iempintro
    iexact Hscoped
  hexit c := by
    -- the arrays at their exit contents and the rest at V are the held buffers at W
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atRefs V c) (atRefs W c) ((pdats m p c).arrAt · (cfgs p).N)
      (fun w => (exit_arr lf o hinp (pdats m p c) (V c) (hA c) w).trans (congrFun (hW c) _).symm)
      (fun b hb => (congrFun (hW c) _).trans (exit_rest o (pdats m p c) (V c) b hb))
    rw [Pipeline.unscopedBufs_held] at hjoin
    unfold Pipeline.Dat.owesAt Pipeline.owesWithin
    rw [howed c]
    iintro ⟨Harr, Howes, Hreg, Hrest⟩
    icases Howes with ⟨%S, -, Howes⟩
    imodintro
    isplitl [Harr Hrest]
    · iapply hjoin
      isplitl [Harr]; · iexact Harr
      iexact Hrest
    isplitl [Hreg]; · iexact Hreg
    iexists S; iexact Howes

/-! ## The five launches -/

/-- The first projection: entered at X1, left at X2. It reads the rows and the weight and writes the product. -/
def seg0 : Pipeline.RegionSeg (pcfgs (F := F)) adm (pdats m) () defs₀ noVariants noLevels levelOf 0 :=
  launchSeg m 0 launch0 (X1 m) (X2 m) (Mm0.obligation _) (fun _ _ => rfl) (fun _ _ => rfl) (fun _ _ => rfl)
    (Mm0.dat_A _) 2 (by decide) (fun _ => rfl) (fun _ => .rfl) (fun _ => .rfl)
theorem seg0_pre (c : Dev nD) : (seg0 m).pre c = stateAt (X1 m) c := rfl
theorem seg0_post (c : Dev nD) : (seg0 m).post c = stateAt (X2 m) c := rfl

/-- The first layer's closing step: entered at X3, left at X4. It reads the aggregate, the projection, the scale and
    the bias and writes the layer's output. -/
def seg1 : Pipeline.RegionSeg (pcfgs (F := F)) adm (pdats m) () defs₀ noVariants noLevels levelOf 1 :=
  launchSeg m 1 launch1 (X3 m) (X4 m) (Fin1.obligation _) (fun _ _ => rfl) (fun _ _ => rfl) (fun _ _ => rfl)
    (Fin1.dat_A _) 4 (by decide) (fun _ => rfl) (fun _ => .rfl) (fun _ => .rfl)
theorem seg1_pre (c : Dev nD) : (seg1 m).pre c = stateAt (X3 m) c := rfl
theorem seg1_post (c : Dev nD) : (seg1 m).post c = stateAt (X4 m) c := rfl

/-- The second projection: entered at X4, left at X5. It reads the first layer's output and the weight and writes the product. -/
def seg2 : Pipeline.RegionSeg (pcfgs (F := F)) adm (pdats m) () defs₀ noVariants noLevels levelOf 2 :=
  launchSeg m 2 launch2 (X4 m) (X5 m) (Mm2.obligation _) (fun _ _ => rfl) (fun _ _ => rfl) (fun _ _ => rfl)
    (Mm2.dat_A _) 2 (by decide) (fun _ => rfl) (fun _ => .rfl) (fun _ => .rfl)
theorem seg2_pre (c : Dev nD) : (seg2 m).pre c = stateAt (X4 m) c := rfl
theorem seg2_post (c : Dev nD) : (seg2 m).post c = stateAt (X5 m) c := rfl

/-- The second layer's closing step: entered at X6, left at X7. It reads the aggregate, the projection, the scale and
    the bias and writes the layer's output. -/
def seg3 : Pipeline.RegionSeg (pcfgs (F := F)) adm (pdats m) () defs₀ noVariants noLevels levelOf 3 :=
  launchSeg m 3 launch3 (X6 m) (X7 m) (Fin3.obligation _) (fun _ _ => rfl) (fun _ _ => rfl) (fun _ _ => rfl)
    (Fin3.dat_A _) 4 (by decide) (fun _ => rfl) (fun _ => .rfl) (fun _ => .rfl)
theorem seg3_pre (c : Dev nD) : (seg3 m).pre c = stateAt (X6 m) c := rfl
theorem seg3_post (c : Dev nD) : (seg3 m).post c = stateAt (X7 m) c := rfl

/-- The pooling launch: entered at X11, left at X12. It reads the mask and the features and writes the pooled sums; its
    invariant carries the scratch accumulator between points, so it is entered from and left to the scoped buffers and
    the register by the launch's own two entailments. -/
def seg4 : Pipeline.RegionSeg (pcfgs (F := F)) adm (pdats m) () defs₀ noVariants noLevels levelOf 4 :=
  launchSeg m 4 launch4 (X11 m) (X12 m) (Pool4.obligation _) (fun _ _ => rfl) (fun _ _ => rfl) (fun _ _ => rfl)
    (Pool4.dat_A _) 2 (by decide) (fun _ => rfl) (fun c => Pool4.inv_enter _ c) (fun c => Pool4.inv_leave _ c)
theorem seg4_pre (c : Dev nD) : (seg4 m).pre c = stateAt (X11 m) c := rfl
theorem seg4_post (c : Dev nD) : (seg4 m).post c = stateAt (X12 m) c := rfl

end Cert.Kernel.Run

end
-- ==== Proof.Bits.Run.lean ====
/-
  The whole program's run. The program is thirteen segments in a row — eight host stretches and the five launches —,
  each entered with the core's unscoped buffers held whole at the boundary's contents beside the generator register
  and nothing owed, and leaving them so at the next boundary's contents. Chained from the launch memory, they give:
  every weakly fair execution terminates, nothing faults, and every unscoped buffer of the core ends holding the last
  boundary's contents `X13` — the argument arrays as launched (no segment writes one) and the result array at the
  value the host operations and the launches' result arrays compose to.
-/
import proofs.«408095_j65790309040228_2_alg».proof.Proof.Bits.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's segments: the generated list over the launches' results named in `results`, every host stretch
    carrying `beside` along, the five launches the records of `seg0 … seg4`. -/
abbrev allSegs (c : Dev nD) : List (Seg (pcfgs (F := F)) adm (pdats m) () defs₀ noVariants noLevels levelOf) :=
  segs m (results m) noVariants noLevels levelOf (fun _ => beside) () (pdats m) (seg0 m) (seg1 m) (seg2 m) (seg3 m) (seg4 m) c

/-- Each launch is entered from the boundary before it and leaves the boundary after it. -/
theorem enter0 (c : Dev nD) : iprop(StableHlo.held (c : Thread nD τ) (Pipeline.ucRefs τ sig) (V1 m c) ∗ beside c) ⊢ (seg0 m).pre c := by
  rw [seg0_pre]
theorem leave0 (c : Dev nD) : (seg0 m).post c ⊢ iprop(StableHlo.held (c : Thread nD τ) (Pipeline.ucRefs τ sig) (V2 m (results m) c) ∗ beside c) := by
  rw [seg0_post, at_2]
theorem enter1 (c : Dev nD) : iprop(StableHlo.held (c : Thread nD τ) (Pipeline.ucRefs τ sig) (V3 m (results m) c) ∗ beside c) ⊢ (seg1 m).pre c := by
  rw [seg1_pre, at_3]
theorem leave1 (c : Dev nD) : (seg1 m).post c ⊢ iprop(StableHlo.held (c : Thread nD τ) (Pipeline.ucRefs τ sig) (V4 m (results m) c) ∗ beside c) := by
  rw [seg1_post, at_4]
theorem enter2 (c : Dev nD) : iprop(StableHlo.held (c : Thread nD τ) (Pipeline.ucRefs τ sig) (V4 m (results m) c) ∗ beside c) ⊢ (seg2 m).pre c := by
  rw [seg2_pre, at_4]
theorem leave2 (c : Dev nD) : (seg2 m).post c ⊢ iprop(StableHlo.held (c : Thread nD τ) (Pipeline.ucRefs τ sig) (V5 m (results m) c) ∗ beside c) := by
  rw [seg2_post, at_5]
theorem enter3 (c : Dev nD) : iprop(StableHlo.held (c : Thread nD τ) (Pipeline.ucRefs τ sig) (V6 m (results m) c) ∗ beside c) ⊢ (seg3 m).pre c := by
  rw [seg3_pre, at_6]
theorem leave3 (c : Dev nD) : (seg3 m).post c ⊢ iprop(StableHlo.held (c : Thread nD τ) (Pipeline.ucRefs τ sig) (V7 m (results m) c) ∗ beside c) := by
  rw [seg3_post, at_7]
theorem enter4 (c : Dev nD) : iprop(StableHlo.held (c : Thread nD τ) (Pipeline.ucRefs τ sig) (V11 m (results m) c) ∗ beside c) ⊢ (seg4 m).pre c := by
  rw [seg4_pre, at_11]
theorem leave4 (c : Dev nD) : (seg4 m).post c ⊢ iprop(StableHlo.held (c : Thread nD τ) (Pipeline.ucRefs τ sig) (V12 m (results m) c) ∗ beside c) := by
  rw [seg4_post, at_12]

/-- After the last host stretch the generator register is let go and the core owes nothing. -/
theorem close_chain (c : Dev nD) :
    iprop(StableHlo.held (c : Thread nD τ) (Pipeline.ucRefs τ sig) (V13 m (results m) c) ∗ beside c)
      ⊢ (iprop(StableHlo.held (c : Thread nD τ) (Pipeline.ucRefs τ sig) (V13 m (results m) c)
          ∗ ∃ W, owes (c : Thread nD τ) (0 : CellTallies nD τ sig Unit) W) : sProp 𝕄) := by
  iintro ⟨Hh, -, Ho⟩
  isplitl [Hh]; · iexact Hh
  iexact Ho

-- the launch theorem's implicit arguments are found by unifying its conclusion with this one, which takes unfolding
-- plain definitions in a metavariable's type
set_option backward.isDefEq.respectTransparency.types false in
/-- THE RUN: from any memory with zero counters every weakly fair execution of the program terminates, nothing
    faulting, and every unscoped buffer ends at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = X13 m c b) := by
  refine Pipeline.θ_run_regions_kit_dev (pcfgs (F := F)) adm (pdats m) () cellOf_inj emb₁ defs₀ noVariants noLevels levelOf m ρ main
    (allSegs m)
    (fun c Q => by
      rewrite [main_chain c, Seg.run_eq_chain,
        show (allSegs m c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          Prog.lift (.customCall (Pipeline.entry 4) ()),
          StableHlo.seq hostOps5 ] from rfl]
      exact .rfl)
    (fun c => by simp only [allSegs, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V13 m (results m) c))
    (hch := fun c => ⟨.rfl, enter0 m c, leave0 m c, enter1 m c, (leave1 m c).trans (enter2 m c), leave2 m c, enter3 m c, leave3 m c,
      .rfl, .rfl, .rfl, enter4 m c, leave4 m c, close_chain m c⟩)
    (hinit := by
      refine Pipeline.initEach noLevels levelOf fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X13 m c b)
    (hfin := fun c s' => by
      rw [at_13]
      iintro ⟨Hh, HSI⟩
      unfold StableHlo.held
      imodintro
      iapply (pointsTo_read_all (Pipeline.ucRefs τ sig) (fun b => (((c : Thread nD τ)).1, b)) (X13 m c) s')
      isplitl [Hh] <;> iassumption)
    (hQ := fun _ h => h)

/-- An unscoped TensorCore reference is among those read at the end. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

end Cert.Kernel.Run

end
-- ==== Proof.Bits.Frames.lean ====
/-
  The frame of the tiled program, read off its run: every argument array ends as launched, because the last
  boundary's contents at an argument walk back, stretch by stretch and launch by launch, to the launch memory — no
  host operation and no launch writes an argument.
-/
import proofs.«408095_j65790309040228_2_alg».proof.Proof.Bits.Run

set_option maxRecDepth 16384

noncomputable section

namespace Cert.Kernel.Run

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem kept0 (c : Dev nD) : X13 m c main_arg0 = m ((c : Thread nD τ).loc main_arg0) := by
  rw [← at_13]; exact V13_main_arg0 m (results m) c
theorem kept1 (c : Dev nD) : X13 m c main_arg1 = m ((c : Thread nD τ).loc main_arg1) := by
  rw [← at_13]; exact V13_main_arg1 m (results m) c
theorem kept2 (c : Dev nD) : X13 m c main_arg2 = m ((c : Thread nD τ).loc main_arg2) := by
  rw [← at_13]; exact V13_main_arg2 m (results m) c
theorem kept3 (c : Dev nD) : X13 m c main_arg3 = m ((c : Thread nD τ).loc main_arg3) := by
  rw [← at_13]; exact V13_main_arg3 m (results m) c
theorem kept4 (c : Dev nD) : X13 m c main_arg4 = m ((c : Thread nD τ).loc main_arg4) := by
  rw [← at_13]; exact V13_main_arg4 m (results m) c
theorem kept5 (c : Dev nD) : X13 m c main_arg5 = m ((c : Thread nD τ).loc main_arg5) := by
  rw [← at_13]; exact V13_main_arg5 m (results m) c
theorem kept6 (c : Dev nD) : X13 m c main_arg6 = m ((c : Thread nD τ).loc main_arg6) := by
  rw [← at_13]; exact V13_main_arg6 m (results m) c

/-- The frame: the program runs to the end, nothing faults, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_ucRefs main_arg0 (by decide))).trans (kept0 m c),
    (h c _ (mem_ucRefs main_arg1 (by decide))).trans (kept1 m c),
    (h c _ (mem_ucRefs main_arg2 (by decide))).trans (kept2 m c),
    (h c _ (mem_ucRefs main_arg3 (by decide))).trans (kept3 m c),
    (h c _ (mem_ucRefs main_arg4 (by decide))).trans (kept4 m c),
    (h c _ (mem_ucRefs main_arg5 (by decide))).trans (kept5 m c),
    (h c _ (mem_ucRefs main_arg6 (by decide))).trans (kept6 m c)⟩)
    (run_all m ρ)

end Cert.Kernel.Run

end
-- ==== Proof.Mm0.lean ====
/-
  A layer's projection h = x · W as a tiled launch: ten grid points, point t multiplying rows
  10000·t … 10000·t + 9999 of the layer's input array by the layer's whole 64 × 64 weight and writing those rows of the result.
  Stated here, at any float instance and for any contents `V` the launch finds in the arrays: what each window's
  staging buffer holds at a point, what the body leaves in the result's buffer (its one whole-buffer store),
  the body's triple, and the launch's proof data with its obligation at every point.
-/
import proofs.«408095_j65790309040228_2_alg».proof.Proof.Gen.KernelIdeal.Launch
import proofs.«408095_j65790309040228_2_alg».proof.Proof.Gen.KernelIdeal.Skeleton
import proofs.«408095_j65790309040228_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mm0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The row block's staging buffer holds the point's rows whenever the body is called, for any proof data over
    these arrays whose body leaves that buffer as it found it. -/
theorem held_rows {c : Dev nD} (dat : Dat τ (Elt F) Unit ℕ (UR sig nD τ) ℕ cfg0 c)
    (hA : dat.A 0 = V c (Pipeline.arrRef spec0 0)) (hafter : ∀ t, dat.after 0 t = blockAt V c 0 t)
    (t : Fin cfg0.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- The weight's staging buffer holds the whole weight at every point: it is fetched once and its block never moves. -/
theorem held_weight {c : Dev nD} (dat : Dat τ (Elt F) Unit ℕ (UR sig nD τ) ℕ cfg0 c)
    (hA : dat.A 1 = V c (Pipeline.arrRef spec0 1)) (hafter : ∀ t, dat.after 1 t = blockAt V c 1 t)
    (t : Fin cfg0.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- The whole 10000 × 64 buffer as one rectangle, and the whole 64 × 64 one. -/
abbrev rowsRect : Rect S10000x64 := Rect.unit (s := S10000x64) ![0, 0] S10000x64.size inb_S10000x64_S10000x64_0_0
abbrev weightRect : Rect S64x64 := Rect.unit (s := S64x64) ![0, 0] S64x64.size inb_S64x64_S64x64_0_0

/-- What the body leaves in the result's staging buffer: its single store, over the whole buffer, of the product
    of the rows it loaded by the weight it loaded. -/
def product (x : Vec F S10000x64 .f32) (wgt : Vec F S64x64 .f32) : Vec F S10000x64 .f32 :=
  View.canon [⟨rowsRect, k0_pay1 (View.ld x rowsRect) (View.ld wgt weightRect)⟩]

/-- That one store covers the buffer. -/
theorem product_cover (p : Vec F S10000x64 .f32) (y : S10000x64.Idx) :
    ∃ pc ∈ ([⟨rowsRect, p⟩] : List (View.Piece (Elt F) S10000x64 .f32)), y ∈ pc.1.set :=
  View.cover_of_tiled [⟨rowsRect, p⟩] S10000x64.size (by rfl) y

set_option maxHeartbeats 1000000 in
/-- The body's triple: from the two input buffers at `x` and `wgt` and the result's buffer at anything, it ends with
    the inputs as they were and the result's buffer at `product x wgt`. -/
theorem body_triple (c : Dev nD) (E : Set ℕ) (i : grid0.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x : Vec F S10000x64 .f32) (wgt : Vec F S64x64 .f32) (K : PUnit → sProp 𝕄) :
    iprop(owns (c : Thread nD τ) arg1 fullShare x ∗ owns (c : Thread nD τ) arg2 fullShare wgt
        ∗ (∃ d, owns (c : Thread nD τ) arg3 fullShare d)
        ∗ (iprop(owns (c : Thread nD τ) arg1 fullShare x ∗ owns (c : Thread nD τ) arg2 fullShare wgt
            ∗ owns (c : Thread nD τ) arg3 fullShare (product x wgt)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The launch's proof data on core `c`: the arrays as found; after the body at point `t` the two inputs' buffers at
    their blocks and the result's at the product of those blocks; the scoped buffers and the generator register ride
    through untouched; nothing is owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => product (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weight (c : Dev nD) (t : Fin cfg0.N) : (dat V c).after 1 t = blockAt V c 1 t := by dsimp only [dat]
theorem after_result (c : Dev nD) (t : Fin cfg0.N) :
    (dat V c).after 2 t = product (blockAt V c 0 t) (blockAt V c 1 t) := by dsimp only [dat]

theorem before_rows (c : Dev nD) (t : Fin cfg0.N) (d) : (dat V c).before 0 t d = blockAt V c 0 t :=
  held_rows V (dat V c) (dat_A V c 0) (after_rows V c) t d
theorem before_weight (c : Dev nD) (t : Fin cfg0.N) (d) : (dat V c).before 1 t d = blockAt V c 1 t :=
  held_weight V (dat V c) (dat_A V c 1) (after_weight V c) t d

/-- What the pipeline hands the body at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it takes back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the triple applies; the rest passes through. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weight]
  rw [show (dat V c).Φ t.succ = (dat V c).Φ t.castSucc from rfl,
    show (dat V c).owesAt () t.succ = (dat V c).owesAt () t.castSucc from rfl,
    after_rows, after_weight, after_result]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's obligation for this launch, at every point. -/
theorem obligation (c : Dev nD) : BodyObligation (dat (F := F) V c) (defs₀ (F := F)) Variants.none () Set.univ := fun t => by
  rw [bigSep_W0, bigSep_W0]
  exact body_at V c t

end Cert.KernelIdeal.Mm0

end
-- ==== Proof.Fin1.lean ====
/-
  A layer's closing step as a tiled launch: ten grid points, point t taking rows 10000·t … 10000·t + 9999
  of the aggregated messages, of the projected features and of the squared inverse-root degrees (a column), and
  the whole bias row, and writing max((agg + h · d²) + b, 0) on those rows.
  Stated here, at any float instance and for any contents `V` the launch finds in the arrays: what each window's
  staging buffer holds at a point, what the body leaves in the result's buffer (its one whole-buffer store),
  the body's triple, and the launch's proof data with its obligation at every point.
-/
import proofs.«408095_j65790309040228_2_alg».proof.Proof.Gen.KernelIdeal.Launch
import proofs.«408095_j65790309040228_2_alg».proof.Proof.Gen.KernelIdeal.Skeleton
import proofs.«408095_j65790309040228_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fin1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- An input window's staging buffer holds that window's block whenever the body is called — fetched at this point,
    or fetched earlier with the block not having moved since (the bias row) — for any proof data over these arrays
    whose body leaves that buffer as it found it. One statement per input window. -/
theorem held_agg {c : Dev nD} (dat : Dat τ (Elt F) Unit ℕ (UR sig nD τ) ℕ cfg1 c)
    (hA : dat.A 0 = V c (Pipeline.arrRef spec1 0)) (hafter : ∀ t, dat.after 0 t = blockAt V c 0 t)
    (t : Fin cfg1.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem held_feat {c : Dev nD} (dat : Dat τ (Elt F) Unit ℕ (UR sig nD τ) ℕ cfg1 c)
    (hA : dat.A 1 = V c (Pipeline.arrRef spec1 1)) (hafter : ∀ t, dat.after 1 t = blockAt V c 1 t)
    (t : Fin cfg1.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem held_scale {c : Dev nD} (dat : Dat τ (Elt F) Unit ℕ (UR sig nD τ) ℕ cfg1 c)
    (hA : dat.A 2 = V c (Pipeline.arrRef spec1 2)) (hafter : ∀ t, dat.after 2 t = blockAt V c 2 t)
    (t : Fin cfg1.N) (d) : dat.before 2 t d = blockAt V c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
theorem held_bias {c : Dev nD} (dat : Dat τ (Elt F) Unit ℕ (UR sig nD τ) ℕ cfg1 c)
    (hA : dat.A 3 = V c (Pipeline.arrRef spec1 3)) (hafter : ∀ t, dat.after 3 t = blockAt V c 3 t)
    (t : Fin cfg1.N) (d) : dat.before 3 t d = blockAt V c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)

/-- The four buffer shapes, each as one whole rectangle. -/
abbrev rowsRect : Rect S10000x64 := Rect.unit (s := S10000x64) ![0, 0] S10000x64.size inb_S10000x64_S10000x64_0_0
abbrev colRect : Rect S10000x1 := Rect.unit (s := S10000x1) ![0, 0] S10000x1.size inb_S10000x1_S10000x1_0_0
abbrev biasRect : Rect S1x64 := Rect.unit (s := S1x64) ![0, 0] S1x64.size inb_S1x64_S1x64_0_0

/-- What the body leaves in the result's staging buffer: its single store, over the whole buffer, of the clamped
    sum of what it loaded. -/
def closed (a : Vec F S10000x64 .f32) (h : Vec F S10000x64 .f32) (s : Vec F S10000x1 .f32) (b : Vec F S1x64 .f32) :
    Vec F S10000x64 .f32 :=
  View.canon [⟨rowsRect, k1_pay1 (View.ld a rowsRect) (View.ld h rowsRect) (View.ld s colRect) (View.ld b biasRect)⟩]

/-- That one store covers the buffer. -/
theorem closed_cover (p : Vec F S10000x64 .f32) (y : S10000x64.Idx) :
    ∃ pc ∈ ([⟨rowsRect, p⟩] : List (View.Piece (Elt F) S10000x64 .f32)), y ∈ pc.1.set :=
  View.cover_of_tiled [⟨rowsRect, p⟩] S10000x64.size (by rfl) y

set_option maxHeartbeats 1000000 in
/-- The body's triple: from the four input buffers at given contents and the result's buffer at anything, it ends with
    the inputs as they were and the result's buffer at `closed` of them. -/
theorem body_triple (c : Dev nD) (E : Set ℕ) (i : grid1.Coords)
    (arg1 : Memref sig .tc .vmem S10000x64 .f32) (harg1 : arg1.IsWhole)
    (arg2 : Memref sig .tc .vmem S10000x64 .f32) (harg2 : arg2.IsWhole)
    (arg3 : Memref sig .tc .vmem S10000x1 .f32) (harg3 : arg3.IsWhole)
    (arg4 : Memref sig .tc .vmem S1x64 .f32) (harg4 : arg4.IsWhole)
    (arg5 : Memref sig .tc .vmem S10000x64 .f32) (harg5 : arg5.IsWhole)
    (a : Vec F S10000x64 .f32) (h : Vec F S10000x64 .f32) (s : Vec F S10000x1 .f32) (b : Vec F S1x64 .f32)
    (K : PUnit → sProp 𝕄) :
    iprop(owns (c : Thread nD τ) arg1 fullShare a ∗ owns (c : Thread nD τ) arg2 fullShare h
        ∗ owns (c : Thread nD τ) arg3 fullShare s ∗ owns (c : Thread nD τ) arg4 fullShare b
        ∗ (∃ d, owns (c : Thread nD τ) arg5 fullShare d)
        ∗ (iprop(owns (c : Thread nD τ) arg1 fullShare a ∗ owns (c : Thread nD τ) arg2 fullShare h
            ∗ owns (c : Thread nD τ) arg3 fullShare s ∗ owns (c : Thread nD τ) arg4 fullShare b
            ∗ owns (c : Thread nD τ) arg5 fullShare (closed a h s b)) -∗ K ⟨⟩))
      ⊢ wp frame (wpE (defs₀ (F := F)) Variants.none c none) E
          (cc1__finalize_kernel i arg1 harg1 arg2 harg2 arg3 harg3 arg4 harg4 arg5 harg5) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (closed_cover _)

/-- The launch's proof data on core `c`: the arrays as found; after the body at point `t` the four inputs' buffers at
    their blocks and the result's at `closed` of those blocks; the scoped buffers and the generator register ride
    through untouched; nothing is owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => closed (blockAt V c 0 t) (blockAt V c 1 t) (blockAt V c 2 t) (blockAt V c 3 t)
  Φ _ := Pipeline.ΦA spec1 c
  q _ := fullShare
  owed _ := 0

theorem dat_A (c : Dev nD) (w : Fin cfg1.W) : (dat V c).A w = V c (Pipeline.arrRef spec1 w) := by
  dsimp only [dat]

theorem after_agg (c : Dev nD) (t : Fin cfg1.N) : (dat V c).after 0 t = blockAt V c 0 t := by dsimp only [dat]
theorem after_feat (c : Dev nD) (t : Fin cfg1.N) : (dat V c).after 1 t = blockAt V c 1 t := by dsimp only [dat]
theorem after_scale (c : Dev nD) (t : Fin cfg1.N) : (dat V c).after 2 t = blockAt V c 2 t := by dsimp only [dat]
theorem after_bias (c : Dev nD) (t : Fin cfg1.N) : (dat V c).after 3 t = blockAt V c 3 t := by dsimp only [dat]
theorem after_result (c : Dev nD) (t : Fin cfg1.N) :
    (dat V c).after 4 t = closed (blockAt V c 0 t) (blockAt V c 1 t) (blockAt V c 2 t) (blockAt V c 3 t) := by
  dsimp only [dat]

theorem before_agg (c : Dev nD) (t : Fin cfg1.N) (d) : (dat V c).before 0 t d = blockAt V c 0 t :=
  held_agg V (dat V c) (dat_A V c 0) (after_agg V c) t d
theorem before_feat (c : Dev nD) (t : Fin cfg1.N) (d) : (dat V c).before 1 t d = blockAt V c 1 t :=
  held_feat V (dat V c) (dat_A V c 1) (after_feat V c) t d
theorem before_scale (c : Dev nD) (t : Fin cfg1.N) (d) : (dat V c).before 2 t d = blockAt V c 2 t :=
  held_scale V (dat V c) (dat_A V c 2) (after_scale V c) t d
theorem before_bias (c : Dev nD) (t : Fin cfg1.N) (d) : (dat V c).before 3 t d = blockAt V c 3 t :=
  held_bias V (dat V c) (dat_A V c 3) (after_bias V c) t d

/-- What the pipeline hands the body at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it takes back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the triple applies; the rest passes through. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_agg, before_feat, before_scale, before_bias]
  rw [show (dat V c).Φ t.succ = (dat V c).Φ t.castSucc from rfl,
    show (dat V c).owesAt () t.succ = (dat V c).owesAt () t.castSucc from rfl,
    after_agg, after_feat, after_scale, after_bias, after_result]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's obligation for this launch, at every point. -/
theorem obligation (c : Dev nD) : BodyObligation (dat (F := F) V c) (defs₀ (F := F)) Variants.none () Set.univ := fun t => by
  rw [bigSep_W1, bigSep_W1]
  exact body_at V c t

end Cert.KernelIdeal.Fin1

end
-- ==== Proof.Mm2.lean ====
/-
  A layer's projection h = x · W as a tiled launch: ten grid points, point t multiplying rows
  10000·t … 10000·t + 9999 of the layer's input array by the layer's whole 64 × 64 weight and writing those rows of the result.
  Stated here, at any float instance and for any contents `V` the launch finds in the arrays: what each window's
  staging buffer holds at a point, what the body leaves in the result's buffer (its one whole-buffer store),
  the body's triple, and the launch's proof data with its obligation at every point.
-/
import proofs.«408095_j65790309040228_2_alg».proof.Proof.Gen.KernelIdeal.Launch
import proofs.«408095_j65790309040228_2_alg».proof.Proof.Gen.KernelIdeal.Skeleton
import proofs.«408095_j65790309040228_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mm2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blockAt (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The row block's staging buffer holds the point's rows whenever the body is called, for any proof data over
    these arrays whose body leaves that buffer as it found it. -/
theorem held_rows {c : Dev nD} (dat : Dat τ (Elt F) Unit ℕ (UR sig nD τ) ℕ cfg2 c)
    (hA : dat.A 0 = V c (Pipeline.arrRef spec2 0)) (hafter : ∀ t, dat.after 0 t = blockAt V c 0 t)
    (t : Fin cfg2.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- The weight's staging buffer holds the whole weight at every point: it is fetched once and its block never moves. -/
theorem held_weight {c : Dev nD} (dat : Dat τ (Elt F) Unit ℕ (UR sig nD τ) ℕ cfg2 c)
    (hA : dat.A 1 = V c (Pipeline.arrRef spec2 1)) (hafter : ∀ t, dat.after 1 t = blockAt V c 1 t)
    (t : Fin cfg2.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- The whole 10000 × 64 buffer as one rectangle, and the whole 64 × 64 one. -/
abbrev rowsRect : Rect S10000x64 := Rect.unit (s := S10000x64) ![0, 0] S10000x64.size inb_S10000x64_S10000x64_0_0
abbrev weightRect : Rect S64x64 := Rect.unit (s := S64x64) ![0, 0] S64x64.size inb_S64x64_S64x64_0_0

/-- What the body leaves in the result's staging buffer: its single store, over the whole buffer, of the product
    of the rows it loaded by the weight it loaded. -/
def product (x : Vec F S10000x64 .f32) (wgt : Vec F S64x64 .f32) : Vec F S10000x64 .f32 :=
  View.canon [⟨rowsRect, k2_pay1 (View.ld x rowsRect) (View.ld wgt weightRect)⟩]

/-- That one store covers the buffer. -/
theorem product_cover (p : Vec F S10000x64 .f32) (y : S10000x64.Idx) :
    ∃ pc ∈ ([⟨rowsRect, p⟩] : List (View.Piece (Elt F) S10000x64 .f32)), y ∈ pc.1.set :=
  View.cover_of_tiled [⟨rowsRect, p⟩] S10000x64.size (by rfl) y

set_option maxHeartbeats 1000000 in
/-- The body's triple: from the two input buffers at `x` and `wgt` and the result's buffer at anything, it ends with
    the inputs as they were and the result's buffer at `product x wgt`. -/
theorem body_triple (c : Dev nD) (E : Set ℕ) (i : grid2.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x : Vec F S10000x64 .f32) (wgt : Vec F S64x64 .f32) (K : PUnit → sProp 𝕄) :
    iprop(owns (c : Thread nD τ) arg1 fullShare x ∗ owns (c : Thread nD τ) arg2 fullShare wgt
        ∗ (∃ d, owns (c : Thread nD τ) arg3 fullShare d)
        ∗ (iprop(owns (c : Thread nD τ) arg1 fullShare x ∗ owns (c : Thread nD τ) arg2 fullShare wgt
            ∗ owns (c : Thread nD τ) arg3 fullShare (product x wgt)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The launch's proof data on core `c`: the arrays as found; after the body at point `t` the two inputs' buffers at
    their blocks and the result's at the product of those blocks; the scoped buffers and the generator register ride
    through untouched; nothing is owed. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => product (blockAt V c 0 t) (blockAt V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem after_rows (c : Dev nD) (t : Fin cfg2.N) : (dat V c).after 0 t = blockAt V c 0 t := by dsimp only [dat]
theorem after_weight (c : Dev nD) (t : Fin cfg2.N) : (dat V c).after 1 t = blockAt V c 1 t := by dsimp only [dat]
theorem after_result (c : Dev nD) (t : Fin cfg2.N) :
    (dat V c).after 2 t = product (blockAt V c 0 t) (blockAt V c 1 t) := by dsimp only [dat]

theorem before_rows (c : Dev nD) (t : Fin cfg2.N) (d) : (dat V c).before 0 t d = blockAt V c 0 t :=
  held_rows V (dat V c) (dat_A V c 0) (after_rows V c) t d
theorem before_weight (c : Dev nD) (t : Fin cfg2.N) (d) : (dat V c).before 1 t d = blockAt V c 1 t :=
  held_weight V (dat V c) (dat_A V c 1) (after_weight V c) t d

/-- What the pipeline hands the body at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it takes back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their blocks, so the triple applies; the rest passes through. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows, before_weight]
  rw [show (dat V c).Φ t.succ = (dat V c).Φ t.castSucc from rfl,
    show (dat V c).owesAt () t.succ = (dat V c).owesAt () t.castSucc from rfl,
    after_rows, after_weight, after_result]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's obligation for this launch, at every point. -/
theorem obligation (c : Dev nD) : BodyObligation (dat (F := F) V c) (defs₀ (F := F)) Variants.none () Set.univ := fun t => by
  rw [bigSep_W2, bigSep_W2]
  exact body_at V c t

end Cert.KernelIdeal.Mm2

end
-- ==== Proof.Fin3.lean ====
/-
  A layer's closing step as a tiled launch: ten grid points, point t taking rows 10000·t … 10000·t + 9999
  of the aggregated messages, of the projected features and of the squared inverse-root degrees (a column), and
  the whole bias row, and writing max((agg + h · d²) + b, 0) on those rows.
  Stated here, at any float instance and for any contents `V` the launch finds in the arrays: what each window's
  staging buffer holds at a point, what the body leaves in the result's buffer (its one whole-buffer store),
  the body's triple, and the launch's proof data with its obligation at every point.
-/
import proofs.«408095_j65790309040228_2_alg».proof.Proof.Gen.KernelIdeal.Launch
import proofs.«408095_j65790309040228_2_alg».proof.Proof.Gen.KernelIdeal.Skeleton
import proofs.«408095_j65790309040228_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fin3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blockAt (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- An input window's staging buffer holds that window's block whenever the body is called — fetched at this point,
    or fetched earlier with the block not having moved since (the bias row) — for any proof data over these arrays
    whose body leaves that buffer as it found it. One statement per input window. -/
theorem held_agg {c : Dev nD} (dat : Dat τ (Elt F) Unit ℕ (UR sig nD τ) ℕ cfg3 c)
    (hA : dat.A 0 = V c (Pipeline.arrRef spec3 0)) (hafter : ∀ t, dat.after 0 t = blockAt V c 0 t)
    (t : Fin cfg3.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem held_feat {c : Dev nD} (dat : Dat τ (Elt F) Unit ℕ (UR sig nD τ) ℕ cfg3 c)
    (hA : dat.A 1 = V c (Pipeline.arrRef spec3 1)) (hafter : ∀ t, dat.after 1 t = blockAt V c 1 t)
    (t : Fin cfg3.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem held_scale {c : Dev nD} (dat : Dat τ (Elt F) Unit ℕ (UR sig nD τ) ℕ cfg3 c)
    (hA : dat.A 2 = V c (Pipeline.arrRef spec3 2)) (hafter : ∀ t, dat.after 2 t = blockAt V c 2 t)
    (t : Fin cfg3.N) (d) : dat.before 2 t d = blockAt V c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
theorem held_bias {c : Dev nD} (dat : Dat τ (Elt F) Unit ℕ (UR sig nD τ) ℕ cfg3 c)
    (hA : dat.A 3 = V c (Pipeline.arrRef spec3 3)) (hafter : ∀ t, dat.after 3 t = blockAt V c 3 t)
    (t : Fin cfg3.N) (d) : dat.before 3 t d = blockAt V c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)

/-- The four buffer shapes, each as one whole rectangle. -/
abbrev rowsRect : Rect S10000x64 := Rect.unit (s := S10000x64) ![0, 0] S10000x64.size inb_S10000x64_S10000x64_0_0
abbrev colRect : Rect S10000x1 := Rect.unit (s := S10000x1) ![0, 0] S10000x1.size inb_S10000x1_S10000x1_0_0
abbrev biasRect : Rect S1x64 := Rect.unit (s := S1x64) ![0, 0] S1x64.size inb_S1x64_S1x64_0_0

/-- What the body leaves in the result's staging buffer: its single store, over the whole buffer, of the clamped
    sum of what it loaded. -/
def closed (a : Vec F S10000x64 .f32) (h : Vec F S10000x64 .f32) (s : Vec F S10000x1 .f32) (b : Vec F S1x64 .f32) :
    Vec F S10000x64 .f32 :=
  View.canon [⟨rowsRect, k3_pay1 (View.ld a rowsRect) (View.ld h rowsRect) (View.ld s colRect) (View.ld b biasRect)⟩]

/-- That one store covers the buffer. -/
theorem closed_cover (p : Vec F S10000x64 .f32) (y : S10000x64.Idx) :
    ∃ pc ∈ ([⟨rowsRect, p⟩] : List (View.Piece (Elt F) S10000x64 .f32)), y ∈ pc.1.set :=
  View.cover_of_tiled [⟨rowsRect, p⟩] S10000x64.size (by rfl) y

set_option maxHeartbeats 1000000 in
/-- The body's triple: from the four input buffers at given contents and the result's buffer at anything, it ends with
    the inputs as they were and the result's buffer at `closed` of them. -/
theorem body_triple (c : Dev nD) (E : Set ℕ) (i : grid3.Coords)
    (arg1 : Memref sig .tc .vmem S10000x64 .f32) (harg1 : arg1.IsWhole)
    (arg2 : Memref sig .tc .vmem S10000x64 .f32) (harg2 : arg2.IsWhole)
    (arg3 : Memref sig .tc .vmem S10000x1 .f32) (harg3 : arg3.IsWhole)
    (arg4 : Memref sig .tc .vmem S1x64 .f32) (harg4 : arg4.IsWhole)
    (arg5 : Memref sig .tc .vmem S10000x64 .f32) (harg5 : arg5.IsWhole)
    (a : Vec F S10000x64 .f32) (h : Vec F S10000x64 .f32) (s : Vec F S10000x1 .f32) (b : Vec F S1x64 .f32)
    (K : PUnit → sProp 𝕄) :
    iprop(owns (c : Thread nD τ) arg1 fullShare a ∗ owns (c : Thread nD τ) arg2 fullShare h
        ∗ owns (c : Thread nD τ) arg3 fullShare s ∗ owns (c : Thread nD τ) arg4 fullShare b
        ∗ (∃ d, owns (c : Thread nD τ) arg5 fullShare d)
        ∗ (iprop(owns (c : Thread nD τ) arg1 fullShare a ∗ owns (c : Thread nD τ) arg2 fullShare h
            ∗ owns (c : Thread nD τ) arg3 fullShare s ∗ owns (c : Thread nD τ) arg4 fullShare b
            ∗ owns (c : Thread nD τ) arg5 fullShare (closed a h s b)) -∗ K ⟨⟩))
      ⊢ wp frame (wpE (defs₀ (F := F)) Variants.none c none) E
          (cc3__finalize_kernel i arg1 harg1 arg2 harg2 arg3 harg3 arg4 harg4 arg5 harg5) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (closed_cover _)

/-- The launch's proof data on core `c`: the arrays as found; after the body at point `t` the four inputs' buffers at
    their blocks and the result's at `closed` of those blocks; the scoped buffers and the generator register ride
    through untouched; nothing is owed. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => closed (blockAt V c 0 t) (blockAt V c 1 t) (blockAt V c 2 t) (blockAt V c 3 t)
  Φ _ := Pipeline.ΦA spec3 c
  q _ := fullShare
  owed _ := 0

theorem dat_A (c : Dev nD) (w : Fin cfg3.W) : (dat V c).A w = V c (Pipeline.arrRef spec3 w) := by
  dsimp only [dat]

theorem after_agg (c : Dev nD) (t : Fin cfg3.N) : (dat V c).after 0 t = blockAt V c 0 t := by dsimp only [dat]
theorem after_feat (c : Dev nD) (t : Fin cfg3.N) : (dat V c).after 1 t = blockAt V c 1 t := by dsimp only [dat]
theorem after_scale (c : Dev nD) (t : Fin cfg3.N) : (dat V c).after 2 t = blockAt V c 2 t := by dsimp only [dat]
theorem after_bias (c : Dev nD) (t : Fin cfg3.N) : (dat V c).after 3 t = blockAt V c 3 t := by dsimp only [dat]
theorem after_result (c : Dev nD) (t : Fin cfg3.N) :
    (dat V c).after 4 t = closed (blockAt V c 0 t) (blockAt V c 1 t) (blockAt V c 2 t) (blockAt V c 3 t) := by
  dsimp only [dat]

theorem before_agg (c : Dev nD) (t : Fin cfg3.N) (d) : (dat V c).before 0 t d = blockAt V c 0 t :=
  held_agg V (dat V c) (dat_A V c 0) (after_agg V c) t d
theorem before_feat (c : Dev nD) (t : Fin cfg3.N) (d) : (dat V c).before 1 t d = blockAt V c 1 t :=
  held_feat V (dat V c) (dat_A V c 1) (after_feat V c) t d
theorem before_scale (c : Dev nD) (t : Fin cfg3.N) (d) : (dat V c).before 2 t d = blockAt V c 2 t :=
  held_scale V (dat V c) (dat_A V c 2) (after_scale V c) t d
theorem before_bias (c : Dev nD) (t : Fin cfg3.N) (d) : (dat V c).before 3 t d = blockAt V c 3 t :=
  held_bias V (dat V c) (dat_A V c 3) (after_bias V c) t d

/-- What the pipeline hands the body at point `t`, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it takes back. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

/-- The body at any point: the inputs' buffers hold their blocks, so the triple applies; the rest passes through. -/
theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_agg, before_feat, before_scale, before_bias]
  rw [show (dat V c).Φ t.succ = (dat V c).Φ t.castSucc from rfl,
    show (dat V c).owesAt () t.succ = (dat V c).owesAt () t.castSucc from rfl,
    after_agg, after_feat, after_scale, after_bias, after_result]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's obligation for this launch, at every point. -/
theorem obligation (c : Dev nD) : BodyObligation (dat (F := F) V c) (defs₀ (F := F)) Variants.none () Set.univ := fun t => by
  rw [bigSep_W3, bigSep_W3]
  exact body_at V c t

end Cert.KernelIdeal.Fin3

end
-- ==== Proof.Pool4.lean ====
/-
  The mean pool's numerator as a tiled launch: thirty-two grid points, point t multiplying columns
  3200·t … 3200·t + 3199 of the 64 × 102400 membership mask by rows 3200·t … of the padded node features
  into a 64 × 64 accumulator kept in a scratch buffer — cleared at the first point, added into at every point,
  and copied to the result's buffer at the last point, the only one whose result is written back.
  Stated here, at any float instance and for any contents `V` the launch finds in the arrays: the accumulator
  after each point, the body's triples, and the launch's proof data with its obligation at every point.
-/
import proofs.«408095_j65790309040228_2_alg».proof.Proof.Gen.KernelIdeal.Launch
import proofs.«408095_j65790309040228_2_alg».proof.Proof.Gen.KernelIdeal.Skeleton
import proofs.«408095_j65790309040228_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Pool4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blockAt (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The three buffer shapes, each as one whole rectangle. -/
abbrev sqRect : Rect S64x64 := Rect.unit (s := S64x64) ![0, 0] S64x64.size inb_S64x64_S64x64_0_0
abbrev maskRect : Rect S64x3200 := Rect.unit (s := S64x3200) ![0, 0] S64x3200.size inb_S64x3200_S64x3200_0_0
abbrev featRect : Rect S3200x64 := Rect.unit (s := S3200x64) ![0, 0] S3200x64.size inb_S3200x64_S3200x64_0_0

/-- The cleared accumulator: what the first point's whole-buffer store of zeros leaves in the scratch. -/
def cleared : Vec F S64x64 .f32 := View.canon [⟨sqRect, k4_pay1 (F := F)⟩]

/-- One accumulation: what a point's whole-buffer store leaves in the scratch, from the mask block and the feature
    block it loaded and what the scratch held when it loaded it. -/
def step (mk : Vec F S64x3200 .bf16) (h : Vec F S3200x64 .f32) (acc : Vec F S64x64 .f32) : Vec F S64x64 .f32 :=
  View.canon [⟨sqRect, k4_pay2 (View.ld mk maskRect) (View.ld h featRect) (View.ld acc sqRect)⟩]

/-- The scratch after point `n`: the first point accumulates onto the cleared buffer, every later one onto what the
    point before left. -/
def accAt (c : Dev nD) : (n : ℕ) → n < cfg4.N → Vec F S64x64 .f32
  | 0, hn => step (blockAt V c 0 ⟨0, hn⟩) (blockAt V c 1 ⟨0, hn⟩) cleared
  | n + 1, hn => step (blockAt V c 0 ⟨n + 1, hn⟩) (blockAt V c 1 ⟨n + 1, hn⟩) (accAt c n (Nat.lt_of_succ_lt hn))

theorem accAt_zero (c : Dev nD) (hn : 0 < cfg4.N) :
    accAt V c 0 hn = step (blockAt V c 0 ⟨0, hn⟩) (blockAt V c 1 ⟨0, hn⟩) cleared := rfl
theorem accAt_succ (c : Dev nD) (n : ℕ) (hn : n + 1 < cfg4.N) :
    accAt V c (n + 1) hn = step (blockAt V c 0 ⟨n + 1, hn⟩) (blockAt V c 1 ⟨n + 1, hn⟩) (accAt V c n (Nat.lt_of_succ_lt hn)) := rfl

/-! ## The two conditions of the body, in closed form over the grid -/

/-- The first conditional's test: the point's coordinate is zero. -/
abbrev isFirst (i : grid4.Coords) : Prop :=
  (Scalar.cmpi .ne (Scalar.extui (Scalar.cmpi .eq (BitVec.ofNat 32 (i 0).val) 0#32)) 0#32) = 1#1
/-- The second conditional's test: the point's coordinate is thirty-one. -/
abbrev isLast (i : grid4.Coords) : Prop := k4_cond2 i = 1#1

theorem isFirst_iff : ∀ t : Fin cfg4.N, isFirst (grid4.coords t) ↔ t.val = 0 :=
  (by decide +kernel : ∀ t : Fin grid4.N, isFirst (grid4.coords t) ↔ t.val = 0)
theorem isLast_iff : ∀ t : Fin cfg4.N, isLast (grid4.coords t) ↔ t.val = 31 :=
  (by decide +kernel : ∀ t : Fin grid4.N, isLast (grid4.coords t) ↔ t.val = 31)

/-! ## Where the result's window is idle -/

theorem live_mask : ∀ t : Fin cfg4.N, cfg4.idle 0 (grid4.coords t) = false := fun _ => rfl
theorem live_feat : ∀ t : Fin cfg4.N, cfg4.idle 1 (grid4.coords t) = false := fun _ => rfl
/-- At every point but the last the result's window is idle and its block is not written back. -/
theorem idle_result : ∀ t : Fin cfg4.N, ¬isLast (grid4.coords t) → cfg4.idle 2 (grid4.coords t) = true := by decide +kernel
theorem noFlush_result : ∀ t : Fin cfg4.N, ¬isLast (grid4.coords t) → (cfg4.win 2).flush t = false := by decide +kernel
/-- At the last point it is live. -/
theorem live_result : ∀ t : Fin cfg4.N, isLast (grid4.coords t) → cfg4.idle 2 (grid4.coords t) = false := by decide +kernel

/-! ## What whole-buffer stores leave -/

/-- The zero offsets of the whole rectangles, as a constant function. -/
theorem off_zero : (![0, 0] : Fin 2 → Nat) = fun _ => 0 := by funext a; fin_cases a <;> rfl

/-- The cleared accumulator is the zero payload; an accumulation is the update payload of what it loaded. -/
theorem cleared_eq : cleared (F := F) = k4_pay1 (F := F) :=
  View.canon_unit_zero (S := S64x64) off_zero inb_S64x64_S64x64_0_0 _
theorem step_eq (mk : Vec F S64x3200 .bf16) (h : Vec F S3200x64 .f32) (acc : Vec F S64x64 .f32) :
    step mk h acc = k4_pay2 (View.ld mk maskRect) (View.ld h featRect) (View.ld acc sqRect) :=
  View.canon_unit_zero (S := S64x64) off_zero inb_S64x64_S64x64_0_0 _

/-- After a store through the whole-shape rectangle at zero offsets, made last, the buffer reads as that store's
    payload, whatever was stored before: stated over any shape. -/
theorem read_last_whole {S : Shape} {e : EltTy} (v : View sig .tc .vmem S e) (f : v.ty.Contents (Elt F))
    {off : Fin S.rank → Nat} (h : off = fun _ => 0) (inb : ∀ a, off a + S.size a ≤ S.size a)
    (P : S.Idx → Elt F e) (L : List (View.Piece (Elt F) S e)) :
    v.read (Elt F) (v.writes (Elt F) f ((⟨Rect.unit off S.size inb, P⟩ : View.Piece (Elt F) S e) :: L)) = P := by
  rw [View.read_writes_eq_canon v f _
    (fun y => ⟨(⟨Rect.unit off S.size inb, P⟩ : View.Piece (Elt F) S e), List.mem_cons_self, View.mem_set_unit_zero h inb y⟩),
    View.canon_cons_unit_zero h]

/-- One whole-buffer store of the accumulator's shape, read back, is its payload; so is the later of two. -/
theorem read_one (v : View sig .tc .vmem S64x64 .f32) (f : v.ty.Contents (Elt F)) (P : Vec F S64x64 .f32) :
    v.read (Elt F) (v.writes (Elt F) f [⟨sqRect, P⟩]) = P :=
  read_last_whole v f off_zero inb_S64x64_S64x64_0_0 P []
theorem read_two (v : View sig .tc .vmem S64x64 .f32) (f : v.ty.Contents (Elt F)) (P Q : Vec F S64x64 .f32) :
    v.read (Elt F) (v.writes (Elt F) f [⟨sqRect, P⟩, ⟨sqRect, Q⟩]) = P :=
  read_last_whole v f off_zero inb_S64x64_S64x64_0_0 P [⟨sqRect, Q⟩]

/-! ## The body's three runs -/

set_option maxHeartbeats 1000000 in
/-- A middle point: neither conditional fires; the accumulator is loaded, updated and stored back. -/
theorem run_middle (c : Dev nD) (E : Set ℕ) (i : grid4.Coords) (h1 : ¬isFirst i) (h2 : ¬isLast i)
    (arg1 : Memref sig .tc .vmem S64x3200 .bf16) (harg1 : arg1.IsWhole)
    (arg2 : Memref sig .tc .vmem S3200x64 .f32) (harg2 : arg2.IsWhole)
    (arg3 : Memref sig .tc .vmem S64x64 .f32) (harg3 : arg3.IsWhole)
    (arg4 : Memref sig .tc .vmem S64x64 .f32) (harg4 : arg4.IsWhole)
    (x : Vec F S64x3200 .bf16) (y : Vec F S3200x64 .f32) (acc : Vec F S64x64 .f32) (K : PUnit → sProp 𝕄) :
    iprop(owns (c : Thread nD τ) arg1 fullShare x ∗ owns (c : Thread nD τ) arg2 fullShare y
        ∗ owns (c : Thread nD τ) arg4 fullShare acc
        ∗ (iprop(owns (c : Thread nD τ) arg1 fullShare x ∗ owns (c : Thread nD τ) arg2 fullShare y
            ∗ owns (c : Thread nD τ) arg4 fullShare (step x y acc)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f4, %hf4, H4⟩, Hk⟩
  subst hf0; subst hf1; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  rw [read_one, step_eq]; rfl

set_option maxHeartbeats 1000000 in
/-- The first point: the accumulator is cleared, then loaded, updated and stored back. -/
theorem run_first (c : Dev nD) (E : Set ℕ) (i : grid4.Coords) (h1 : isFirst i) (h2 : ¬isLast i)
    (arg1 : Memref sig .tc .vmem S64x3200 .bf16) (harg1 : arg1.IsWhole)
    (arg2 : Memref sig .tc .vmem S3200x64 .f32) (harg2 : arg2.IsWhole)
    (arg3 : Memref sig .tc .vmem S64x64 .f32) (harg3 : arg3.IsWhole)
    (arg4 : Memref sig .tc .vmem S64x64 .f32) (harg4 : arg4.IsWhole)
    (x : Vec F S64x3200 .bf16) (y : Vec F S3200x64 .f32) (K : PUnit → sProp 𝕄) :
    iprop(owns (c : Thread nD τ) arg1 fullShare x ∗ owns (c : Thread nD τ) arg2 fullShare y
        ∗ (∃ d, owns (c : Thread nD τ) arg4 fullShare d)
        ∗ (iprop(owns (c : Thread nD τ) arg1 fullShare x ∗ owns (c : Thread nD τ) arg2 fullShare y
            ∗ owns (c : Thread nD τ) arg4 fullShare (step x y cleared)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d4, %f4, -, H4⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  sl_unfold_words
  rw [read_two, step_eq, View.readCov_unit_zero (S := S64x64) _ off_zero, View.ld_unit_zero (S := S64x64) off_zero, cleared_eq]; rfl

set_option maxHeartbeats 1000000 in
/-- The last point: the accumulator is loaded, updated and stored back, then copied over the result's buffer. -/
theorem run_last (c : Dev nD) (E : Set ℕ) (i : grid4.Coords) (h1 : ¬isFirst i) (h2 : isLast i)
    (arg1 : Memref sig .tc .vmem S64x3200 .bf16) (harg1 : arg1.IsWhole)
    (arg2 : Memref sig .tc .vmem S3200x64 .f32) (harg2 : arg2.IsWhole)
    (arg3 : Memref sig .tc .vmem S64x64 .f32) (harg3 : arg3.IsWhole)
    (arg4 : Memref sig .tc .vmem S64x64 .f32) (harg4 : arg4.IsWhole)
    (x : Vec F S64x3200 .bf16) (y : Vec F S3200x64 .f32) (acc : Vec F S64x64 .f32) (K : PUnit → sProp 𝕄) :
    iprop(owns (c : Thread nD τ) arg1 fullShare x ∗ owns (c : Thread nD τ) arg2 fullShare y
        ∗ (∃ d, owns (c : Thread nD τ) arg3 fullShare d)
        ∗ owns (c : Thread nD τ) arg4 fullShare acc
        ∗ (iprop(owns (c : Thread nD τ) arg1 fullShare x ∗ owns (c : Thread nD τ) arg2 fullShare y
            ∗ owns (c : Thread nD τ) arg3 fullShare (step x y acc)
            ∗ owns (c : Thread nD τ) arg4 fullShare (step x y acc)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [read_one, View.readCov_unit_zero (S := S64x64) _ off_zero, step_eq]; rfl
  iexists _; isplitr
  swap; · iexact H4
  ipureintro
  sl_unfold_words
  rw [read_one, step_eq]; rfl

/-! ## The inputs' staging buffers hold their blocks -/

/-- The mask's staging buffer holds the point's block whenever the body is called: it is fetched at every point. -/
theorem held_mask {c : Dev nD} (dat : Dat τ (Elt F) Unit ℕ (UR sig nD τ) ℕ cfg4 c)
    (hA : dat.A 0 = V c (Pipeline.arrRef spec4 0)) (hafter : ∀ t, dat.after 0 t = blockAt V c 0 t)
    (t : Fin cfg4.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- So does the features' staging buffer. -/
theorem held_feat {c : Dev nD} (dat : Dat τ (Elt F) Unit ℕ (UR sig nD τ) ℕ cfg4 c)
    (hA : dat.A 1 = V c (Pipeline.arrRef spec4 1)) (hafter : ∀ t, dat.after 1 t = blockAt V c 1 t)
    (t : Fin cfg4.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- The region invariant before position `n`: before the first point every scoped buffer that is no staging buffer
    of this launch at anything and the generator register at some state; afterwards the same with the scratch at the
    accumulator the point before left. -/
def inv (c : Dev nD) : (n : ℕ) → n ≤ cfg4.N → sProp 𝕄
  | 0, _ => Pipeline.ΦA spec4 c
  | n + 1, hn => iprop(owns (c : Thread nD τ) (Memref.whole cc4_scratch0) fullShare (accAt V c n hn)
      ∗ Pipeline.scopedRestBut (Ix := Unit) (Name := ℕ) (U := UR sig nD τ) (Lvl := ℕ) (Val := Elt F) spec4 c [cc4_scratch0]
      ∗ ∃ r, prngReg c r)

/-- The launch's proof data on core `c`: the arrays as found; after the body at point `t` the two inputs' buffers at
    their blocks and the result's at the accumulator after `t` (consulted at the last point only: elsewhere the window is
    idle); the invariant `inv`; nothing is owed. -/
def dat (c : Dev nD) : Dat τ (Elt F) Unit ℕ (UR sig nD τ) ℕ cfg4 c where
  A w := V c (Pipeline.arrRef spec4 w)
  after w t := match w with
    | ⟨0, _⟩ => blockAt V c 0 t
    | ⟨1, _⟩ => blockAt V c 1 t
    | ⟨2, _⟩ => accAt V c t.val t.isLt
  Φ t := inv V c t.val (Nat.le_of_lt_succ t.isLt)
  q _ := fullShare
  owed _ := 0

theorem dat_A (c : Dev nD) (w : Fin cfg4.W) : (dat V c).A w = V c (Pipeline.arrRef spec4 w) := by
  dsimp only [dat]
theorem after_mask (c : Dev nD) (t : Fin cfg4.N) : (dat V c).after 0 t = blockAt V c 0 t := by dsimp only [dat]
theorem after_feat (c : Dev nD) (t : Fin cfg4.N) : (dat V c).after 1 t = blockAt V c 1 t := by dsimp only [dat]
theorem after_result (c : Dev nD) (t : Fin cfg4.N) : (dat V c).after 2 t = accAt V c t.val t.isLt := by dsimp only [dat]

theorem before_mask (c : Dev nD) (t : Fin cfg4.N) (d) : (dat V c).before 0 t d = blockAt V c 0 t :=
  held_mask V (dat V c) (dat_A V c 0) (after_mask V c) t d
theorem before_feat (c : Dev nD) (t : Fin cfg4.N) (d) : (dat V c).before 1 t d = blockAt V c 1 t :=
  held_feat V (dat V c) (dat_A V c 1) (after_feat V c) t d

/-! ## The accumulator and the invariant, point by point -/

/-- The accumulator after the first point. -/
theorem accAt_first (c : Dev nD) (t : Fin cfg4.N) (hz : t.val = 0) :
    accAt V c t.val t.isLt = step (blockAt V c 0 t) (blockAt V c 1 t) cleared := by
  obtain ⟨n, hn⟩ := t
  cases n with
  | zero => rfl
  | succ n => exact absurd hz (Nat.succ_ne_zero n)

/-- The accumulator after any later point, from the one before. -/
theorem accAt_later (c : Dev nD) (t : Fin cfg4.N) (hz : t.val ≠ 0) :
    accAt V c t.val t.isLt = step (blockAt V c 0 t) (blockAt V c 1 t)
      (accAt V c (t.val - 1) (Nat.lt_of_le_of_lt (Nat.sub_le _ _) t.isLt)) := by
  obtain ⟨n, hn⟩ := t
  cases n with
  | zero => exact absurd rfl hz
  | succ n => rfl

/-- The scoped buffers that are neither a staging buffer of this launch nor its scratch. -/
abbrev others (c : Dev nD) : sProp 𝕄 :=
  Pipeline.scopedRestBut (Ix := Unit) (Name := ℕ) (U := UR sig nD τ) (Lvl := ℕ) (Val := Elt F) spec4 c [cc4_scratch0]

theorem inv_zero (c : Dev nD) (n : ℕ) (h : n ≤ cfg4.N) (hz : n = 0) : inv V c n h = Pipeline.ΦA spec4 c := by
  subst hz; rfl

theorem inv_succ (c : Dev nD) (n : ℕ) (hn : n < cfg4.N) :
    inv V c (n + 1) hn = iprop(owns (c : Thread nD τ) (Memref.whole cc4_scratch0) fullShare (accAt V c n hn)
      ∗ others c ∗ ∃ r, prngReg c r) := rfl

theorem inv_pos (c : Dev nD) (n : ℕ) (h : n ≤ cfg4.N) (hz : n ≠ 0) :
    inv V c n h = iprop(owns (c : Thread nD τ) (Memref.whole cc4_scratch0) fullShare (accAt V c (n - 1) (by omega))
      ∗ others c ∗ ∃ r, prngReg c r) := by
  cases n with
  | zero => exact absurd rfl hz
  | succ n => rfl

/-- What the launch hands the region, with the scratch split off the other scoped buffers and owned as a memref. -/
theorem PhiA_eq (c : Dev nD) :
    (Pipeline.ΦA spec4 c : sProp 𝕄)
      = iprop(iprop((∃ d, owns (c : Thread nD τ) (Memref.whole cc4_scratch0) fullShare d) ∗ others c) ∗ (∃ r, prngReg c r)) := by
  unfold Pipeline.ΦA; rw [scopedRest4_split]; simp only [owns_whole]

theorem inv_castSucc (c : Dev nD) (t : Fin cfg4.N) :
    (dat V c).Φ t.castSucc = inv V c t.val (Nat.le_of_lt t.isLt) := by
  dsimp only [dat]; simp only [Fin.coe_castSucc]

/-! ## The body at a point -/

/-- What the pipeline hands the body at point `t`, window by window, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d)))

/-- and what it takes back: the result's buffer as found where its window is idle, at the accumulator where it is live. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. The inputs' buffers hold their blocks; the point is the first, the last or one between,
    which decides the two conditionals; the invariant hands the body the scratch (at anything before the first point,
    at the accumulator the point before left afterwards) and takes it back at this point's accumulator; the result's
    buffer passes through untouched where its window is idle and ends at the accumulator at the last point. -/
theorem body_at (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_mask, before_feat]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st4_0 t) fullShare ((dat V c).after 0 t) from by
    unfold Dat.leavesExact; rw [live_mask t], after_mask]
  rw [show (dat V c).leavesExact 1 t = owns (c : Thread nD τ) (st4_1 t) fullShare ((dat V c).after 1 t) from by
    unfold Dat.leavesExact; rw [live_feat t], after_feat]
  have hN : t.val < 32 := lt_of_lt_of_eq t.isLt (show cfg4.N = 32 from N_4)
  by_cases hL : t.val = 31
  · have hF : t.val ≠ 0 := by omega
    rw [show (dat V c).leavesExact 2 t = owns (c : Thread nD τ) (st4_2 t) fullShare ((dat V c).after 2 t) from by
      unfold Dat.leavesExact; rw [live_result t ((isLast_iff t).mpr hL)], after_result]
    rw [accAt_later V c t hF, inv_castSucc V c t, inv_pos V c _ _ hF]
    iintro ⟨⟨HS, HR, Hg⟩, Ho, ⟨%d0, H0⟩, ⟨%d1, H1⟩, ⟨%d2, H2⟩⟩
    iapply (run_last c Set.univ (grid4.coords t) (fun h => hF ((isFirst_iff t).mp h)) ((isLast_iff t).mpr hL)
      _ _ _ _ _ _ _ _ (blockAt V c 0 t) (blockAt V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hL' : ¬isLast (grid4.coords t) := fun h => hL ((isLast_iff t).mp h)
    rw [Dat.leavesExact_idle (dat V c) 2 t (idle_result t hL') (noFlush_result t hL')]
    by_cases hF : t.val = 0
    · rw [accAt_first V c t hF, inv_castSucc V c t, inv_zero V c _ _ hF, PhiA_eq]
      iintro ⟨⟨⟨HS, HR⟩, Hg⟩, Ho, ⟨%d0, H0⟩, ⟨%d1, H1⟩, H2⟩
      iapply (run_first c Set.univ (grid4.coords t) ((isFirst_iff t).mpr hF) hL'
        _ _ _ _ _ _ _ _ (blockAt V c 0 t) (blockAt V c 1 t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [accAt_later V c t hF, inv_castSucc V c t, inv_pos V c _ _ hF]
      iintro ⟨⟨HS, HR, Hg⟩, Ho, ⟨%d0, H0⟩, ⟨%d1, H1⟩, H2⟩
      iapply (run_middle c Set.univ (grid4.coords t) (fun h => hF ((isFirst_iff t).mp h)) hL'
        _ _ _ _ _ _ _ _ (blockAt V c 0 t) (blockAt V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The pipeline library's obligation for this launch, at every point. -/
theorem obligation (c : Dev nD) : BodyObligation (dat (F := F) V c) (defs₀ (F := F)) Variants.none () Set.univ := fun t => by
  rw [bigSep_W4, bigSep_W4]
  exact body_at V c t

/-- What the launch hands the region is the invariant before the first point. -/
theorem inv_enter (c : Dev nD) : Pipeline.ΦA spec4 c ⊢ (dat V c).Φ 0 := by
  rw [show (dat V c).Φ 0 = inv V c 0 (Nat.zero_le _) from rfl, inv_zero V c 0 _ rfl]
  try exact Idealize.SL.BI.Entails.refl _

/-- After the last point the invariant gives the scoped buffers and the register back, the accumulator forgotten. -/
theorem inv_leave (c : Dev nD) : (dat V c).Φ (Fin.last cfg4.N) ⊢ Pipeline.ΦA spec4 c := by
  rw [show (dat V c).Φ (Fin.last cfg4.N) = inv V c (Fin.last cfg4.N).val (Nat.le_of_lt_succ (Fin.last cfg4.N).isLt) from rfl,
    inv_pos V c _ _ (by rw [Fin.val_last]; have : cfg4.N = 32 := N_4; omega), PhiA_eq]
  iintro ⟨HS, HR, Hg⟩
  isplitl [HS HR]
  · isplitl [HS]; · iexists _; iexact HS
    iexact HR
  iexact Hg

end Cert.KernelIdeal.Pool4

end
-- ==== Proof.RunDefs.lean ====
/-
  The contents of the core's buffers at every boundary between the program's host stretches and its five
  launches, with each launch's result array named: the projection of the inputs (`proj1`), the first layer's
  output (`layer1`), its projection (`proj2`), the second layer's output (`layer2`) and the pooled sums
  (`pooled`) — each the array its launch's write-backs leave, from the contents that launch is entered at.
  `results` packs them in the form the program's segment list is stated over, and the equations `at_2 … at_13` say
  that the boundary contents over `results` are the ones named here.
-/
import proofs.«408095_j65790309040228_2_alg».proof.Proof.Gen.KernelIdeal.Regions
import proofs.«408095_j65790309040228_2_alg».proof.Proof.Mm0
import proofs.«408095_j65790309040228_2_alg».proof.Proof.Fin1
import proofs.«408095_j65790309040228_2_alg».proof.Proof.Mm2
import proofs.«408095_j65790309040228_2_alg».proof.Proof.Fin3
import proofs.«408095_j65790309040228_2_alg».proof.Proof.Pool4

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A valuation of the core's buffers read at the TensorCore's references: what a launch's proof data take. -/
abbrev atRefs (X : Dev nD → Valuation τ sig (Elt F)) :
    (c : Dev nD) → (b : Ref sig .tc) → Buf (Elt F) ((c : Thread nD τ).loc b) := fun c b => X c b

/-- After the first host stretch: the first projection is entered here. -/
abbrev X1 (c : Dev nD) : Valuation τ sig (Elt F) := V1 m c
/-- The first projection's result array: h₁ = x · W₁. -/
def proj1 (c : Dev nD) : Buf (Elt F) ((c : Thread nD τ).loc main_v28) := (Mm0.dat (atRefs (X1 m)) c).arrAt 2 cfg0.N
abbrev X2 (c : Dev nD) : Valuation τ sig (Elt F) := Function.update (X1 m c) main_v28 (proj1 m c)
abbrev X3 (c : Dev nD) : Valuation τ sig (Elt F) := StableHlo.after hostOps1 (X2 m c)
/-- The first layer's output array. -/
def layer1 (c : Dev nD) : Buf (Elt F) ((c : Thread nD τ).loc main_v43) := (Fin1.dat (atRefs (X3 m)) c).arrAt 4 cfg1.N
abbrev X4 (c : Dev nD) : Valuation τ sig (Elt F) := Function.update (X3 m c) main_v43 (layer1 m c)
/-- The second projection's result array: h₂ = layer1 · W₂. -/
def proj2 (c : Dev nD) : Buf (Elt F) ((c : Thread nD τ).loc main_v44) := (Mm2.dat (atRefs (X4 m)) c).arrAt 2 cfg2.N
abbrev X5 (c : Dev nD) : Valuation τ sig (Elt F) := Function.update (X4 m c) main_v44 (proj2 m c)
abbrev X6 (c : Dev nD) : Valuation τ sig (Elt F) := StableHlo.after hostOps3 (X5 m c)
/-- The second layer's output array. -/
def layer2 (c : Dev nD) : Buf (Elt F) ((c : Thread nD τ).loc main_v59) := (Fin3.dat (atRefs (X6 m)) c).arrAt 4 cfg3.N
abbrev X7 (c : Dev nD) : Valuation τ sig (Elt F) := Function.update (X6 m c) main_v59 (layer2 m c)
abbrev X8 (c : Dev nD) : Valuation τ sig (Elt F) := StableHlo.after hostOps4 (X7 m c)
abbrev X9 (c : Dev nD) : Valuation τ sig (Elt F) := StableHlo.after hostOps4_1 (X8 m c)
abbrev X10 (c : Dev nD) : Valuation τ sig (Elt F) := StableHlo.after hostOps4_2 (X9 m c)
abbrev X11 (c : Dev nD) : Valuation τ sig (Elt F) := StableHlo.after hostOps4_3 (X10 m c)
/-- The pooled sums' array. -/
def pooled (c : Dev nD) : Buf (Elt F) ((c : Thread nD τ).loc main_v69) := (Pool4.dat (atRefs (X11 m)) c).arrAt 2 cfg4.N
abbrev X12 (c : Dev nD) : Valuation τ sig (Elt F) := Function.update (X11 m c) main_v69 (pooled m c)
abbrev X13 (c : Dev nD) : Valuation τ sig (Elt F) := StableHlo.after hostOps5 (X12 m c)

/-- What the launches leave, in the form the segment list reads it: at boundary J, the contents named above. -/
def results : Outs (F := F) := fun J r c =>
  match J with
  | 2 => X2 m c r
  | 4 => X4 m c r
  | 5 => X5 m c r
  | 7 => X7 m c r
  | 12 => X12 m c r
  | _ => X13 m c r

theorem at_2 (c : Dev nD) : V2 m (results m) c = X2 m c := by
  show Function.update (V1 m c) main_v28 (Function.update (X1 m c) main_v28 (proj1 m c) main_v28) = _
  rw [Function.update_self]
theorem at_3 (c : Dev nD) : V3 m (results m) c = X3 m c := by
  show StableHlo.after hostOps1 (V2 m (results m) c) = _
  rw [at_2]
theorem at_4 (c : Dev nD) : V4 m (results m) c = X4 m c := by
  show Function.update (V3 m (results m) c) main_v43 (Function.update (X3 m c) main_v43 (layer1 m c) main_v43) = _
  rw [Function.update_self, at_3]
theorem at_5 (c : Dev nD) : V5 m (results m) c = X5 m c := by
  show Function.update (V4 m (results m) c) main_v44 (Function.update (X4 m c) main_v44 (proj2 m c) main_v44) = _
  rw [Function.update_self, at_4]
theorem at_6 (c : Dev nD) : V6 m (results m) c = X6 m c := by
  show StableHlo.after hostOps3 (V5 m (results m) c) = _
  rw [at_5]
theorem at_7 (c : Dev nD) : V7 m (results m) c = X7 m c := by
  show Function.update (V6 m (results m) c) main_v59 (Function.update (X6 m c) main_v59 (layer2 m c) main_v59) = _
  rw [Function.update_self, at_6]
theorem at_8 (c : Dev nD) : V8 m (results m) c = X8 m c := by
  show StableHlo.after hostOps4 (V7 m (results m) c) = _
  rw [at_7]
theorem at_9 (c : Dev nD) : V9 m (results m) c = X9 m c := by
  show StableHlo.after hostOps4_1 (V8 m (results m) c) = _
  rw [at_8]
theorem at_10 (c : Dev nD) : V10 m (results m) c = X10 m c := by
  show StableHlo.after hostOps4_2 (V9 m (results m) c) = _
  rw [at_9]
theorem at_11 (c : Dev nD) : V11 m (results m) c = X11 m c := by
  show StableHlo.after hostOps4_3 (V10 m (results m) c) = _
  rw [at_10]
theorem at_12 (c : Dev nD) : V12 m (results m) c = X12 m c := by
  show Function.update (V11 m (results m) c) main_v69 (Function.update (X11 m c) main_v69 (pooled m c) main_v69) = _
  rw [Function.update_self, at_11]
theorem at_13 (c : Dev nD) : V13 m (results m) c = X13 m c := by
  show StableHlo.after hostOps5 (V12 m (results m) c) = _
  rw [at_12]

end Cert.KernelIdeal.Run

end
-- ==== Proof.Segs.lean ====
/-
  The program's five launches as segments of its run. Each is entered with every unscoped buffer of the core
  held whole at the boundary's contents (`Run.XJ`), beside the generator register at some state and the core
  owing nothing (`beside`), and is left the same way at the next boundary's contents: the launch's arrays are taken
  out of the held buffers at entry and put back, at what its write-backs leave, at exit; the register and the scoped
  buffers pass into the launch's invariant and out of it.
-/
import proofs.«408095_j65790309040228_2_alg».proof.Proof.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every launch's proof data, each at the contents its launch is entered at. -/
def pdats : (p : Fin 5) → (c : Dev nD) → Dat τ (Elt F) Unit ℕ (UR sig nD τ) ℕ (cfgs p) c
  | ⟨0, _⟩ => fun c => Mm0.dat (atRefs (X1 m)) c
  | ⟨1, _⟩ => fun c => Fin1.dat (atRefs (X3 m)) c
  | ⟨2, _⟩ => fun c => Mm2.dat (atRefs (X4 m)) c
  | ⟨3, _⟩ => fun c => Fin3.dat (atRefs (X6 m)) c
  | ⟨4, _⟩ => fun c => Pool4.dat (atRefs (X11 m)) c

abbrev noVariants : Variants := Variants.none
/-- No core waits on another: no level is assigned. -/
abbrev noLevels : GSem nD τ sig → Finset Unit := fun _ => ∅
abbrev levelOf : GSem nD τ sig → Unit → ℕ := fun _ _ => 0

/-- What rides beside the held buffers through every segment: the generator register at some state, nothing owed. -/
abbrev beside (c : Dev nD) : sProp 𝕄 :=
  iprop((∃ r, prngReg c r) ∗ ∃ W, owes (c : Thread nD τ) (0 : CellTallies nD τ sig Unit) W)

/-- The thread state at a boundary with contents `X`. -/
abbrev stateAt (X : Dev nD → Valuation τ sig (Elt F)) (c : Dev nD) : sProp 𝕄 :=
  iprop(StableHlo.held (c : Thread nD τ) (Pipeline.ucRefs τ sig) (X c) ∗ beside c)

/-! ## What a launch leaves in the held buffers

A launch writes back through its one output window only: at its exit the output window's reference holds the array the
write-backs leave, every input window's array is as it was entered, and no other buffer is touched. So the exit contents
are the entry contents updated at the output window's reference. -/

section Exit

variable {p : Fin 5} (lf : Pipeline.LaunchFacts (nD := nD) (τ := τ) cfgs p) (o : Fin (cfgs p).W)
  (hinp : ∀ w, w ≠ o → ((cfgs p).win w).isOut = false) {c : Dev nD}
  (dat : Dat τ (Elt F) Unit ℕ (UR sig nD τ) ℕ (cfgs p) c) (X : Valuation τ sig (Elt F))
  (hA : ∀ w, dat.A w = X (Pipeline.arrRef (cfgs p).spec w))

include lf hinp hA in
/-- Every array of the launch holds at exit what the entry contents, updated at the output's reference with the array
    the write-backs leave, say: the output by the update itself; an input because its array is never written back, is
    read off the entry contents, and lies at another reference than the output's (the arrays are pairwise distinct). -/
theorem exit_arr (w : Fin (cfgs p).W) :
    dat.arrAt w (cfgs p).N
      = Function.update X (Proc.devRef .tc (Pipeline.arrRef (cfgs p).spec o)) (dat.arrAt o (cfgs p).N)
          (Pipeline.arrRef (cfgs p).spec w) := by
  by_cases h : w = o
  · subst h
    exact (Function.update_self (f := X) (Proc.devRef .tc (Pipeline.arrRef (cfgs p).spec w) : DevRef τ sig) (dat.arrAt w (cfgs p).N)).symm
  · rw [Function.update_of_ne (StableHlo.devRef_ne_of_ne fun e => h (lf.win.arr_inj e))]
    exact (dat.arrAt_in w (hinp w h) _).trans (hA w)

/-- A buffer that is no array of the launch is not the output's: the update leaves it as entered. -/
theorem exit_rest (b : Ref sig .tc) (hb : b ∉ Finset.univ.image (Pipeline.arrRef (cfgs p).spec)) :
    Function.update X (Proc.devRef .tc (Pipeline.arrRef (cfgs p).spec o)) (dat.arrAt o (cfgs p).N) b = X b :=
  Function.update_of_ne (StableHlo.devRef_ne_of_ne fun e => hb (Finset.mem_image.mpr ⟨o, Finset.mem_univ _, e.symm⟩)) _ _

end Exit

/-! ## A launch with no semaphore of its own, between two boundary contents -/

set_option backward.isDefEq.respectTransparency.types false in
/-- Launch p as a segment entered at the contents V and left at the contents W, given: the launch's layout facts; the body
    obligation of its proof data; that the data hold every array whole, owe nothing and bound no recorded pair; that
    the data's arrays are read off V (hA); that every window but o is an input and W is V updated at o's reference with
    the array o's write-backs leave (hinp, hW); and that the data's invariant is entered from, and left to, the scoped
    buffers no window stages beside the generator register (hin, hout). The arrays are split out of the held buffers at
    entry and joined back at exit; the register goes into the invariant and comes out of it; the rest of the held buffers
    bypasses the launch. -/
def launchSeg (p : Fin 5) (lf : Pipeline.LaunchFacts (nD := nD) (τ := τ) cfgs p)
    (V W : Dev nD → Valuation τ sig (Elt F))
    (hbody : ∀ c, BodyObligation (pdats m p c) (defs₀ (F := F)) Variants.none () Set.univ)
    (hq : ∀ c w, (pdats m p c).q w = fullShare)
    (howed : ∀ c t, (pdats m p c).owed t = 0)
    (hrec : ∀ c t, (pdats m p c).recorded t = Set.univ)
    (hA : ∀ c w, (pdats m p c).A w = V c (Pipeline.arrRef (cfgs p).spec w))
    (o : Fin (cfgs p).W) (hinp : ∀ w, w ≠ o → ((cfgs p).win w).isOut = false)
    (hW : ∀ c, W c = Function.update (V c) (Proc.devRef .tc (Pipeline.arrRef (cfgs p).spec o)) ((pdats m p c).arrAt o (cfgs p).N))
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄)) :
    Pipeline.RegionSeg (pcfgs (F := F)) adm (pdats m) () defs₀ noVariants noLevels levelOf p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLevels levelOf p howed
  pre c := stateAt V c
  post c := stateAt W c
  X c := iprop(∃ r, prngReg c r)
  Y c := iprop(∃ r, prngReg c r)
  Z c := Pipeline.unscopedRest (Ix := Unit) (Name := ℕ) (U := UR sig nD τ) (Lvl := ℕ) (cfgs p).spec c (atRefs V c)
  hentry c := by
    -- the held buffers at V are the launch's arrays at the data's entry contents and the rest
    have hsplit := Pipeline.arrays_of_unscopedBufs (p := p) (pcfgs (F := F)) adm (pdats m) lf.win lf.arr_whole c
      ((pdats m p c).share_full (hq c)) (atRefs V c) (hA c)
    rw [Pipeline.unscopedBufs_held] at hsplit
    unfold Pipeline.Dat.owesAt Pipeline.owesWithin
    rw [howed c]
    iintro ⟨⟨Hheld, Hreg, Howes⟩, -, -⟩
    icases Howes with ⟨%S, Howes⟩
    ihave Hparts := hsplit $$ Hheld
    icases Hparts with ⟨Harr, Hrest⟩
    imodintro
    isplitl [Harr]; · iexact Harr
    isplitr
    · -- no table is prefetched
      unfold Pipeline.prefHeld
      rw [show (Finset.univ : Finset (Fin 0)) = ∅ from rfl, BI.bigSep_empty]; iempintro
    isplitl [Howes]
    · -- nothing owed; no bound on the recorded pairs
      iexists S
      isplitr
      · ipureintro; intro x _; exact Or.inl (by rw [hrec c]; trivial)
      iexact Howes
    isplitl [Hreg]; · iexact Hreg
    iexact Hrest
  hin c := by
    refine BIBase.Entails.trans ?_ (hin c)
    unfold Pipeline.ΦA
    iintro ⟨Hreg, -, Hscoped⟩
    isplitl [Hscoped]; · iexact Hscoped
    iexact Hreg
  hout c := by
    refine (hout c).trans ?_
    rw [Pipeline.ownSems0_none]; unfold Pipeline.ΦA
    iintro ⟨Hscoped, Hreg⟩
    isplitl [Hreg]; · iexact Hreg
    isplitr; · iempintro
    iexact Hscoped
  hexit c := by
    -- the arrays at their exit contents and the rest at V are the held buffers at W
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atRefs V c) (atRefs W c) ((pdats m p c).arrAt · (cfgs p).N)
      (fun w => (exit_arr lf o hinp (pdats m p c) (V c) (hA c) w).trans (congrFun (hW c) _).symm)
      (fun b hb => (congrFun (hW c) _).trans (exit_rest o (pdats m p c) (V c) b hb))
    rw [Pipeline.unscopedBufs_held] at hjoin
    unfold Pipeline.Dat.owesAt Pipeline.owesWithin
    rw [howed c]
    iintro ⟨Harr, Howes, Hreg, Hrest⟩
    icases Howes with ⟨%S, -, Howes⟩
    imodintro
    isplitl [Harr Hrest]
    · iapply hjoin
      isplitl [Harr]; · iexact Harr
      iexact Hrest
    isplitl [Hreg]; · iexact Hreg
    iexists S; iexact Howes

/-! ## The five launches -/

/-- The first projection: entered at X1, left at X2. It reads the rows and the weight and writes the product. -/
def seg0 : Pipeline.RegionSeg (pcfgs (F := F)) adm (pdats m) () defs₀ noVariants noLevels levelOf 0 :=
  launchSeg m 0 launch0 (X1 m) (X2 m) (Mm0.obligation _) (fun _ _ => rfl) (fun _ _ => rfl) (fun _ _ => rfl)
    (Mm0.dat_A _) 2 (by decide) (fun _ => rfl) (fun _ => .rfl) (fun _ => .rfl)
theorem seg0_pre (c : Dev nD) : (seg0 m).pre c = stateAt (X1 m) c := rfl
theorem seg0_post (c : Dev nD) : (seg0 m).post c = stateAt (X2 m) c := rfl

/-- The first layer's closing step: entered at X3, left at X4. It reads the aggregate, the projection, the scale and
    the bias and writes the layer's output. -/
def seg1 : Pipeline.RegionSeg (pcfgs (F := F)) adm (pdats m) () defs₀ noVariants noLevels levelOf 1 :=
  launchSeg m 1 launch1 (X3 m) (X4 m) (Fin1.obligation _) (fun _ _ => rfl) (fun _ _ => rfl) (fun _ _ => rfl)
    (Fin1.dat_A _) 4 (by decide) (fun _ => rfl) (fun _ => .rfl) (fun _ => .rfl)
theorem seg1_pre (c : Dev nD) : (seg1 m).pre c = stateAt (X3 m) c := rfl
theorem seg1_post (c : Dev nD) : (seg1 m).post c = stateAt (X4 m) c := rfl

/-- The second projection: entered at X4, left at X5. It reads the first layer's output and the weight and writes the product. -/
def seg2 : Pipeline.RegionSeg (pcfgs (F := F)) adm (pdats m) () defs₀ noVariants noLevels levelOf 2 :=
  launchSeg m 2 launch2 (X4 m) (X5 m) (Mm2.obligation _) (fun _ _ => rfl) (fun _ _ => rfl) (fun _ _ => rfl)
    (Mm2.dat_A _) 2 (by decide) (fun _ => rfl) (fun _ => .rfl) (fun _ => .rfl)
theorem seg2_pre (c : Dev nD) : (seg2 m).pre c = stateAt (X4 m) c := rfl
theorem seg2_post (c : Dev nD) : (seg2 m).post c = stateAt (X5 m) c := rfl

/-- The second layer's closing step: entered at X6, left at X7. It reads the aggregate, the projection, the scale and
    the bias and writes the layer's output. -/
def seg3 : Pipeline.RegionSeg (pcfgs (F := F)) adm (pdats m) () defs₀ noVariants noLevels levelOf 3 :=
  launchSeg m 3 launch3 (X6 m) (X7 m) (Fin3.obligation _) (fun _ _ => rfl) (fun _ _ => rfl) (fun _ _ => rfl)
    (Fin3.dat_A _) 4 (by decide) (fun _ => rfl) (fun _ => .rfl) (fun _ => .rfl)
theorem seg3_pre (c : Dev nD) : (seg3 m).pre c = stateAt (X6 m) c := rfl
theorem seg3_post (c : Dev nD) : (seg3 m).post c = stateAt (X7 m) c := rfl

/-- The pooling launch: entered at X11, left at X12. It reads the mask and the features and writes the pooled sums; its
    invariant carries the scratch accumulator between points, so it is entered from and left to the scoped buffers and
    the register by the launch's own two entailments. -/
def seg4 : Pipeline.RegionSeg (pcfgs (F := F)) adm (pdats m) () defs₀ noVariants noLevels levelOf 4 :=
  launchSeg m 4 launch4 (X11 m) (X12 m) (Pool4.obligation _) (fun _ _ => rfl) (fun _ _ => rfl) (fun _ _ => rfl)
    (Pool4.dat_A _) 2 (by decide) (fun _ => rfl) (fun c => Pool4.inv_enter _ c) (fun c => Pool4.inv_leave _ c)
theorem seg4_pre (c : Dev nD) : (seg4 m).pre c = stateAt (X11 m) c := rfl
theorem seg4_post (c : Dev nD) : (seg4 m).post c = stateAt (X12 m) c := rfl

end Cert.KernelIdeal.Run

end
-- ==== Proof.Run.lean ====
/-
  The whole program's run. The program is thirteen segments in a row — eight host stretches and the five launches —,
  each entered with the core's unscoped buffers held whole at the boundary's contents beside the generator register
  and nothing owed, and leaving them so at the next boundary's contents. Chained from the launch memory, they give:
  every weakly fair execution terminates, nothing faults, and every unscoped buffer of the core ends holding the last
  boundary's contents `X13` — the argument arrays as launched (no segment writes one) and the result array at the
  value the host operations and the launches' result arrays compose to.
-/
import proofs.«408095_j65790309040228_2_alg».proof.Proof.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's segments: the generated list over the launches' results named in `results`, every host stretch
    carrying `beside` along, the five launches the records of `seg0 … seg4`. -/
abbrev allSegs (c : Dev nD) : List (Seg (pcfgs (F := F)) adm (pdats m) () defs₀ noVariants noLevels levelOf) :=
  segs m (results m) noVariants noLevels levelOf (fun _ => beside) () (pdats m) (seg0 m) (seg1 m) (seg2 m) (seg3 m) (seg4 m) c

/-- Each launch is entered from the boundary before it and leaves the boundary after it. -/
theorem enter0 (c : Dev nD) : iprop(StableHlo.held (c : Thread nD τ) (Pipeline.ucRefs τ sig) (V1 m c) ∗ beside c) ⊢ (seg0 m).pre c := by
  rw [seg0_pre]
theorem leave0 (c : Dev nD) : (seg0 m).post c ⊢ iprop(StableHlo.held (c : Thread nD τ) (Pipeline.ucRefs τ sig) (V2 m (results m) c) ∗ beside c) := by
  rw [seg0_post, at_2]
theorem enter1 (c : Dev nD) : iprop(StableHlo.held (c : Thread nD τ) (Pipeline.ucRefs τ sig) (V3 m (results m) c) ∗ beside c) ⊢ (seg1 m).pre c := by
  rw [seg1_pre, at_3]
theorem leave1 (c : Dev nD) : (seg1 m).post c ⊢ iprop(StableHlo.held (c : Thread nD τ) (Pipeline.ucRefs τ sig) (V4 m (results m) c) ∗ beside c) := by
  rw [seg1_post, at_4]
theorem enter2 (c : Dev nD) : iprop(StableHlo.held (c : Thread nD τ) (Pipeline.ucRefs τ sig) (V4 m (results m) c) ∗ beside c) ⊢ (seg2 m).pre c := by
  rw [seg2_pre, at_4]
theorem leave2 (c : Dev nD) : (seg2 m).post c ⊢ iprop(StableHlo.held (c : Thread nD τ) (Pipeline.ucRefs τ sig) (V5 m (results m) c) ∗ beside c) := by
  rw [seg2_post, at_5]
theorem enter3 (c : Dev nD) : iprop(StableHlo.held (c : Thread nD τ) (Pipeline.ucRefs τ sig) (V6 m (results m) c) ∗ beside c) ⊢ (seg3 m).pre c := by
  rw [seg3_pre, at_6]
theorem leave3 (c : Dev nD) : (seg3 m).post c ⊢ iprop(StableHlo.held (c : Thread nD τ) (Pipeline.ucRefs τ sig) (V7 m (results m) c) ∗ beside c) := by
  rw [seg3_post, at_7]
theorem enter4 (c : Dev nD) : iprop(StableHlo.held (c : Thread nD τ) (Pipeline.ucRefs τ sig) (V11 m (results m) c) ∗ beside c) ⊢ (seg4 m).pre c := by
  rw [seg4_pre, at_11]
theorem leave4 (c : Dev nD) : (seg4 m).post c ⊢ iprop(StableHlo.held (c : Thread nD τ) (Pipeline.ucRefs τ sig) (V12 m (results m) c) ∗ beside c) := by
  rw [seg4_post, at_12]

/-- After the last host stretch the generator register is let go and the core owes nothing. -/
theorem close_chain (c : Dev nD) :
    iprop(StableHlo.held (c : Thread nD τ) (Pipeline.ucRefs τ sig) (V13 m (results m) c) ∗ beside c)
      ⊢ (iprop(StableHlo.held (c : Thread nD τ) (Pipeline.ucRefs τ sig) (V13 m (results m) c)
          ∗ ∃ W, owes (c : Thread nD τ) (0 : CellTallies nD τ sig Unit) W) : sProp 𝕄) := by
  iintro ⟨Hh, -, Ho⟩
  isplitl [Hh]; · iexact Hh
  iexact Ho

-- the launch theorem's implicit arguments are found by unifying its conclusion with this one, which takes unfolding
-- plain definitions in a metavariable's type
set_option backward.isDefEq.respectTransparency.types false in
/-- THE RUN: from any memory with zero counters every weakly fair execution of the program terminates, nothing
    faulting, and every unscoped buffer ends at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = X13 m c b) := by
  refine Pipeline.θ_run_regions_kit_dev (pcfgs (F := F)) adm (pdats m) () cellOf_inj emb₁ defs₀ noVariants noLevels levelOf m ρ main
    (allSegs m)
    (fun c Q => by
      rewrite [main_chain c, Seg.run_eq_chain,
        show (allSegs m c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          Prog.lift (.customCall (Pipeline.entry 4) ()),
          StableHlo.seq hostOps5 ] from rfl]
      exact .rfl)
    (fun c => by simp only [allSegs, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V13 m (results m) c))
    (hch := fun c => ⟨.rfl, enter0 m c, leave0 m c, enter1 m c, (leave1 m c).trans (enter2 m c), leave2 m c, enter3 m c, leave3 m c,
      .rfl, .rfl, .rfl, enter4 m c, leave4 m c, close_chain m c⟩)
    (hinit := by
      refine Pipeline.initEach noLevels levelOf fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X13 m c b)
    (hfin := fun c s' => by
      rw [at_13]
      iintro ⟨Hh, HSI⟩
      unfold StableHlo.held
      imodintro
      iapply (pointsTo_read_all (Pipeline.ucRefs τ sig) (fun b => (((c : Thread nD τ)).1, b)) (X13 m c) s')
      isplitl [Hh] <;> iassumption)
    (hQ := fun _ h => h)

/-- An unscoped TensorCore reference is among those read at the end. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

end Cert.KernelIdeal.Run

end
-- ==== Proof.Frames.lean ====
/-
  The frame of the tiled program, read off its run: every argument array ends as launched, because the last
  boundary's contents at an argument walk back, stretch by stretch and launch by launch, to the launch memory — no
  host operation and no launch writes an argument.
-/
import proofs.«408095_j65790309040228_2_alg».proof.Proof.Run

set_option maxRecDepth 16384

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem kept0 (c : Dev nD) : X13 m c main_arg0 = m ((c : Thread nD τ).loc main_arg0) := by
  rw [← at_13]; exact V13_main_arg0 m (results m) c
theorem kept1 (c : Dev nD) : X13 m c main_arg1 = m ((c : Thread nD τ).loc main_arg1) := by
  rw [← at_13]; exact V13_main_arg1 m (results m) c
theorem kept2 (c : Dev nD) : X13 m c main_arg2 = m ((c : Thread nD τ).loc main_arg2) := by
  rw [← at_13]; exact V13_main_arg2 m (results m) c
theorem kept3 (c : Dev nD) : X13 m c main_arg3 = m ((c : Thread nD τ).loc main_arg3) := by
  rw [← at_13]; exact V13_main_arg3 m (results m) c
theorem kept4 (c : Dev nD) : X13 m c main_arg4 = m ((c : Thread nD τ).loc main_arg4) := by
  rw [← at_13]; exact V13_main_arg4 m (results m) c
theorem kept5 (c : Dev nD) : X13 m c main_arg5 = m ((c : Thread nD τ).loc main_arg5) := by
  rw [← at_13]; exact V13_main_arg5 m (results m) c
theorem kept6 (c : Dev nD) : X13 m c main_arg6 = m ((c : Thread nD τ).loc main_arg6) := by
  rw [← at_13]; exact V13_main_arg6 m (results m) c

/-- The frame: the program runs to the end, nothing faults, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_ucRefs main_arg0 (by decide))).trans (kept0 m c),
    (h c _ (mem_ucRefs main_arg1 (by decide))).trans (kept1 m c),
    (h c _ (mem_ucRefs main_arg2 (by decide))).trans (kept2 m c),
    (h c _ (mem_ucRefs main_arg3 (by decide))).trans (kept3 m c),
    (h c _ (mem_ucRefs main_arg4 (by decide))).trans (kept4 m c),
    (h c _ (mem_ucRefs main_arg5 (by decide))).trans (kept5 m c),
    (h c _ (mem_ucRefs main_arg6 (by decide))).trans (kept6 m c)⟩)
    (run_all m ρ)

end Cert.KernelIdeal.Run

end
-- ==== Proof.LibMatProd.lean ====
import Idealize.ShloMosaic.PureOps.Ideal
import Idealize.ShloMosaic.Lib.ValueIdx
import Mathlib.Data.EReal.Basic
import Mathlib.Algebra.BigOperators.Group.Finset.Basic

/-!
# A matrix product on extended reals, index by index

`mmP A B` is the product of an `M × K` and a `K × N` array of extended reals: entry `(r, s)` is the sum over the
contracted axis of `A (r, j) * B (j, s)`. Every tiled matrix product of the program is this function of its two operand
arrays, whatever the tiling.
-/

open Idealize.ShloMosaic Idealize.ShloMosaic.ValueIdx

namespace MatProd

/-- The `M × K` by `K × N` product on extended reals, as a function of the result's index. -/
noncomputable def mmP {M K N : ℕ} (A : (⟨2, ![M, K]⟩ : Shape).Idx → EReal) (B : (⟨2, ![K, N]⟩ : Shape).Idx → EReal) :
    (⟨2, ![M, N]⟩ : Shape).Idx → EReal :=
  fun idx => ∑ j : Fin K, A (ix2 (idx 0) j) * B (ix2 j (idx 1))

/-- Entry `(r, s)` of the product is the sum of the products along the contracted axis. -/
theorem mmP_apply {M K N : ℕ} (A : (⟨2, ![M, K]⟩ : Shape).Idx → EReal) (B : (⟨2, ![K, N]⟩ : Shape).Idx → EReal)
    (r : Fin M) (s : Fin N) : mmP A B (ix2 r s) = ∑ j : Fin K, A (ix2 r j) * B (ix2 j s) := rfl

end MatProd
-- ==== Proof.LibDotPlain.lean ====
/-
  A plain matrix product read index by index, for any extents: a contraction of an [M × K] by a [K × N] array whose
  dimension numbers contract the left operand's axis 1 with the right operand's axis 0, with no batch axis, is the
  matrix product `MatProd.mmP` — entry (r, s) the sum over j of l (r, j) · r (j, s) — both as the host's
  `dot_general` and as the matrix unit's product into a zero accumulator, at the exact-arithmetic instance.
-/
import Idealize.ShloMosaic.PureOps.Ideal
import Idealize.ShloMosaic.PureOps.Ideal.Laws
import Idealize.ShloMosaic.PureOps.Contract
import Idealize.ShloMosaic.Lib.ValueIdx
import proofs.«408095_j65790309040228_2_alg».proof.Proof.LibMatProd

noncomputable section

namespace Idealize.ShloMosaic.DotPlain

open Idealize.ShloMosaic Idealize.ShloMosaic.ValueIdx MatProd

variable {M K N : Nat} (d : DotDims ⟨2, ![M, K]⟩ ⟨2, ![K, N]⟩ ⟨2, ![M, N]⟩)

/-- The left operand's row is the result's row. -/
theorem lhs_axis0 (hlb : d.lhsBatch = []) (hln : d.lhsNonContracting = [0]) (j : (⟨2, ![M, N]⟩ : Shape).Idx) (k : d.contr.Idx) :
    (d.lhsIdx j k 0).val = (j 0).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])

/-- The right operand's column is the result's column. -/
theorem rhs_axis1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])

/-- The contraction's sum, re-indexed by the contracted coordinate: the matrix product's entry. -/
theorem contr_sum (hlc : d.lhsContracting = [1]) (hrc : d.rhsContracting = [0]) (hln : d.lhsNonContracting = [0])
    (hrn : d.rhsNonContracting = [1]) (hlb : d.lhsBatch = []) (hrb : d.rhsBatch = [])
    (X : (⟨2, ![M, K]⟩ : Shape).Idx → EReal) (Y : (⟨2, ![K, N]⟩ : Shape).Idx → EReal) (j : (⟨2, ![M, N]⟩ : Shape).Idx) :
    ∑ k : d.contr.Idx, X (d.lhsIdx j k) * Y (d.rhsIdx j k) = mmP X Y j := by
  have hr : d.contr.rank = 1 := by rw [d.rank_contr, hlc]; rfl
  have hs : d.contr.size ⟨0, by omega⟩ = K := by
    rw [d.size_contr 0 (by rw [hlc]; exact Nat.one_pos)]
    simp [hlc]
  refine (Equiv.sum_comp (contrEquiv1 d K hr hs).symm _).symm.trans ?_
  unfold mmP
  refine Finset.sum_congr rfl fun kk _ => ?_
  have e1 : d.lhsIdx j ((contrEquiv1 d K hr hs).symm kk) = ix2 (j 0) kk := by
    funext a; apply Fin.ext
    match a with
    | ⟨0, _⟩ => exact lhs_axis0 d hlb hln j _
    | ⟨1, _⟩ => exact (d.lhsIdx_val_of_single hlc j _).trans (contrEquiv1_symm_val d K hr hs kk)
  have e2 : d.rhsIdx j ((contrEquiv1 d K hr hs).symm kk) = ix2 kk (j 1) := by
    funext a; apply Fin.ext
    match a with
    | ⟨0, _⟩ => exact (d.rhsIdx_val_of_single hrc j _).trans (contrEquiv1_symm_val d K hr hs kk)
    | ⟨1, _⟩ => exact rhs_axis1 d hlb hrb hln hrn j _
  exact congrArg₂ (· * ·) (congrArg X e1) (congrArg Y e2)

/-- The host's `dot_general` with these dimension numbers is the matrix product. -/
theorem dotGeneral_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (sched : HostSchedule)
    (X : FVec Ideal ⟨2, ![M, K]⟩ φ₁) (Y : FVec Ideal ⟨2, ![K, N]⟩ φ₂) :
    FloatOps.dotGeneral d prec sched X Y = mmP X Y := by
  funext j
  rw [Ideal.dotGeneral_apply]
  exact contr_sum d hlc hrc hln hrn hlb hrb X Y j

/-- The matrix unit's product with these dimension numbers into a zero accumulator is the matrix product. -/
theorem matmul_zero_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (X : FVec Ideal ⟨2, ![M, K]⟩ φ₁) (Y : FVec Ideal ⟨2, ![K, N]⟩ φ₂) :
    FloatOps.matmul d prec X Y (constant ⟨2, ![M, N]⟩ .f32 0x00000000#32) = mmP X Y := by
  funext j
  rw [Ideal.matmul_constant_zero_apply]
  exact contr_sum d hlc hrc hln hrn hlb hrb X Y j

end Idealize.ShloMosaic.DotPlain

end
-- ==== Proof.ValMm0.lean ====
/-
  What the projection launch leaves in its result array, read on the extended reals: the matrix product of the
  100000 × 64 input array by the 64 × 64 weight — entry (r, s) the sum over j of x (r, j) · w (j, s) — whatever
  the tiling: point t writes rows 10000·t … of that product, and the ten points' blocks fill the array.
-/
import proofs.«408095_j65790309040228_2_alg».proof.Proof.Mm0
import proofs.«408095_j65790309040228_2_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mm0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open MatProd
variable (V : (c : Dev nD) → (b : Ref sig .tc) → Buf (Elt Ideal) ((c : Thread nD τ).loc b))

/-- The whole-buffer rectangle starts at the origin. -/
theorem origin : (![0, 0] : Fin 2 → Nat) = fun _ => 0 := funext fun a => by fin_cases a <;> rfl

/-- In exact arithmetic a change of float format is the identity and the matrix unit's product into a zero
    accumulator is the plain product: the body's payload is the matrix product of the two blocks it loaded. -/
theorem payload_eq (x : Vec Ideal S10000x64 .f32) (w : Vec Ideal S64x64 .f32) :
    k0_pay1 (F := Ideal) x w = mmP (M := 10000) (K := 64) (N := 64) x w := by
  refine Eq.trans ?_ (Idealize.ShloMosaic.DotPlain.matmul_zero_eq dot_S10000x64_S64x64_S10000x64_1_0_0_1_n_n
    rfl rfl rfl rfl rfl rfl (φ₁ := .bf16) (φ₂ := .bf16) none x w)
  unfold k0_pay1
  try simp only [shapeCast_self]
  rfl

/-- The printed index maps, decided over the grid: point t's row block and result block are block t along the rows,
    and every other block index is zero. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's result block. -/
theorem index_onto : ∀ q0 : Fin 10, ∃ t : Fin cfg0.N, win0_2.index t = ![q0.val, 0] :=
  (by decide +kernel : ∀ q0 : Fin 10, ∃ t : Fin grid0.N, win0_2.index t = ![q0.val, 0])

/-- Entry (p, q) of the product of point t's two blocks is the whole arrays' product at the place that entry has in
    the result array: the row block's entry (p, k) is the array's entry (10000·t + p, k), the weight block's entry
    (k, q) is the weight's entry (k, q), so the two sums agree term by term. -/
theorem block_entry (c : Dev nD) (t : Fin cfg0.N) (p : Fin 10000) (q : Fin 64) :
    mmP (M := 10000) (K := 64) (N := 64) (blockAt V c 0 t) (blockAt V c 1 t) (ix2 p q)
      = mmP (M := 100000) (K := 64) (N := 64) (V c (Pipeline.arrRef spec0 0)) (V c (Pipeline.arrRef spec0 1))
          (((cfg0.win 2).blk t).view.emb (ix2 p q)) := by
  obtain ⟨e00, e01, e10, e11, e20, e21⟩ := index_facts t
  unfold mmP
  refine Finset.sum_congr rfl fun k _ => ?_
  refine congrArg₂ (· * ·) ?_ ?_
  · show V c (Pipeline.arrRef spec0 0) (((cfg0.win 0).blk t).view.emb (ix2 p k))
        = V c (Pipeline.arrRef spec0 0) (ix2 ((((cfg0.win 2).blk t).view.emb (ix2 p q)) 0) k)
    refine congrArg _ (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 64 + 1 * k.val = k.val
      omega
  · show V c (Pipeline.arrRef spec0 1) (((cfg0.win 1).blk t).view.emb (ix2 k q))
        = V c (Pipeline.arrRef spec0 1) (ix2 k ((((cfg0.win 2).blk t).view.emb (ix2 p q)) 1))
    refine congrArg _ (funext fun a => Fin.ext ?_)
    match a with
    | ⟨0, _⟩ =>
      show win0_1.index t (0 : Fin 2) * 64 + 1 * k.val = k.val
      omega
    | ⟨1, _⟩ =>
      show win0_1.index t (1 : Fin 2) * 64 + 1 * q.val = win0_2.index t (1 : Fin 2) * 64 + 1 * q.val
      omega

/-- What point t writes back is block t of the whole arrays' product. -/
theorem flushed_eq (c : Dev nD) (t : Fin cfg0.N) :
    (dat (F := Ideal) V c).flushed 2 t = ((cfg0.win 2).blk t).view.read (Elt Ideal)
      (mmP (M := 100000) (K := 64) (N := 64) (V c (Pipeline.arrRef spec0 0)) (V c (Pipeline.arrRef spec0 1))) := by
  show (cfg0.win 2).cut (grid0.coords t) ((dat V c).after 2 t) = _
  rw [after_result]
  unfold product
  rw [View.canon_unit_zero origin]
  simp only [View.ld_unit_zero (S := S10000x64) origin, View.ld_unit_zero (S := S64x64) origin]
  rw [payload_eq]
  funext j
  obtain ⟨p, q, rfl⟩ : ∃ (p : Fin 10000) (q : Fin 64), j = ix2 p q := ⟨j 0, j 1, eq_ix2 j⟩
  exact block_entry V c t p q

/-- An index of the result array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  rw [show ((cfg0.win 2).blk t).view.set = (win0_2.rect t).set from View.set_slice_whole _ _, Rect.mem_set_unit]
  exact Iff.rfl

/-- The ten blocks fill the result array: row r is in the block of point r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The result array after the launch is the matrix product of the two arrays the launch is entered with. -/
theorem result_eq (c : Dev nD) :
    (dat (F := Ideal) V c).arrAt 2 cfg0.N
      = mmP (M := 100000) (K := 64) (N := 64) (V c (Pipeline.arrRef spec0 0)) (V c (Pipeline.arrRef spec0 1)) :=
  (dat V c).arrAt_eq_of_cover 2 _ (fun t _ => flushed_eq V c t) cover

/-- The launch's two input arrays end as they were entered. -/
theorem rows_kept (c : Dev nD) : (dat (F := Ideal) V c).arrAt 0 cfg0.N = V c (Pipeline.arrRef spec0 0) :=
  ((dat V c).arrAt_in 0 rfl _).trans (dat_A V c 0)
theorem weight_kept (c : Dev nD) : (dat (F := Ideal) V c).arrAt 1 cfg0.N = V c (Pipeline.arrRef spec0 1) :=
  ((dat V c).arrAt_in 1 rfl _).trans (dat_A V c 1)

end Cert.KernelIdeal.Mm0

end
-- ==== Proof.ValFin1.lean ====
/-
  What the closing-step launch leaves in its result array, read on the extended reals, index by index:
  at (r, s) it is max((agg (r, s) + h (r, s) · d (r, 0)) + b (0, s), 0) of the four arrays the launch is entered
  with — the aggregated messages, the projected features, the column of squared inverse-root degrees and the bias
  row — whatever the tiling: point t writes rows 10000·t … of that array, and the ten points' blocks fill it.
-/
import proofs.«408095_j65790309040228_2_alg».proof.Proof.Fin1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fin1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The closing step at an index, from the four input arrays. -/
def closedAt (agg h : S100000x64.Idx → EReal) (d : S100000x1.Idx → EReal) (b : S1x64.Idx → EReal) :
    S100000x64.Idx → EReal :=
  fun i => max ((agg i + h i * d (ix2 (i 0) (0 : Fin 1))) + b (ix2 (0 : Fin 1) (i 1))) 0

/-- A column broadcast over many columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at a block index: the clamped sum, the column read at the row, the bias row at the column. -/
theorem pay_apply (a h : Vec Ideal S10000x64 .f32) (s : Vec Ideal S10000x1 .f32) (b : Vec Ideal S1x64 .f32)
    (p : Fin 10000) (q : Fin 64) :
    k1_pay1 a h s b (ix2 p q)
      = max ((a (ix2 p q) + h (ix2 p q) * s (ix2 p (0 : Fin 1))) + b (ix2 (0 : Fin 1) q)) 0 := by
  unfold k1_pay1
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · exact congrFun (shapeCast_self a _) _
      · refine (mulf_apply _ _ _).trans ?_
        refine congrArg₂ (· * ·) ?_ ?_
        · exact congrFun (shapeCast_self h _) _
        · refine (broadcastTo_a1_ab_apply _ _ p q).trans ?_
          exact congrFun (shapeCast_self s _) _
    · refine (broadcastTo_1b_ab_apply _ _ p q).trans ?_
      exact congrFun (shapeCast_self b _) _
  · exact Ideal.ofBits_zero_f32

/-- Both offsets of a whole-buffer rectangle are zero. -/
theorem zero_off : (![0, 0] : Fin 2 → Nat) = fun _ => 0 := funext fun a => by fin_cases a <;> rfl

/-- The index maps at every grid point: the two row-block inputs and the column move with the result's block,
    the column's and the bias row's other block indices are zero, and the result's block index is at most 9. -/
theorem idx_facts : ∀ t : Fin cfg1.N,
    win1_0.index t (0 : Fin 2) = win1_4.index t (0 : Fin 2)
    ∧ win1_0.index t (1 : Fin 2) = win1_4.index t (1 : Fin 2)
    ∧ win1_1.index t (0 : Fin 2) = win1_4.index t (0 : Fin 2)
    ∧ win1_1.index t (1 : Fin 2) = win1_4.index t (1 : Fin 2)
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (0 : Fin 2) ≤ 9
    ∧ win1_4.index t (1 : Fin 2) = 0 :=
  (by decide +kernel : ∀ t : Fin grid1.N, _)

/-- The clamped sum of four reads is the closing step at an index when each read is where that index says. -/
theorem closedAt_of_reads (A H : S100000x64.Idx → EReal) (D : S100000x1.Idx → EReal) (B : S1x64.Idx → EReal)
    (i0 i1 i : S100000x64.Idx) (i2 : S100000x1.Idx) (i3 : S1x64.Idx)
    (h0 : i0 = i) (h1 : i1 = i) (h2 : i2 = ix2 (i 0) (0 : Fin 1)) (h3 : i3 = ix2 (0 : Fin 1) (i 1)) :
    max ((A i0 + H i1 * D i2) + B i3) 0 = closedAt A H D B i := by
  subst h0 h1 h2 h3; rfl

/-- The body's value at a block index is the closing step of the whole arrays at the array index under it. -/
theorem flushed_at (c : Dev nD) (t : Fin cfg1.N) (p : Fin 10000) (q : Fin 64) :
    k1_pay1 (blockAt V c 0 t) (blockAt V c 1 t) (blockAt V c 2 t) (blockAt V c 3 t) (ix2 p q)
      = closedAt (V c (Pipeline.arrRef spec1 0)) (V c (Pipeline.arrRef spec1 1)) (V c (Pipeline.arrRef spec1 2))
          (V c (Pipeline.arrRef spec1 3)) (((cfg1.win 4).blk t).view.emb (ix2 p q)) := by
  refine (pay_apply _ _ _ _ p q).trans ?_
  obtain ⟨e0, e1, e2, e3, e4, e5, e6, e7, e8, e9⟩ := idx_facts t
  have h0 : ((cfg1.win 0).blk t).view.emb (ix2 p q) = ((cfg1.win 4).blk t).view.emb (ix2 p q) := by
    funext a; apply Fin.ext
    match a with
    | ⟨0, _⟩ => show win1_0.index t (0 : Fin 2) * 10000 + 1 * p.val = win1_4.index t (0 : Fin 2) * 10000 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 10000 + 1 * p.val = win1_4.index t (0 : Fin 2) * 10000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1))
      = ix2 ((((cfg1.win 4).blk t).view.emb (ix2 p q)) 0) (0 : Fin 1) := by
    funext a; apply Fin.ext
    match a with
    | ⟨0, _⟩ => show win1_2.index t (0 : Fin 2) * 10000 + 1 * p.val = win1_4.index t (0 : Fin 2) * 10000 + 1 * p.val; omega
    | ⟨1, _⟩ => show win1_2.index t (1 : Fin 2) * 1 + 1 * 0 = 0; omega
  have h3 : ((cfg1.win 3).blk t).view.emb (ix2 (0 : Fin 1) q)
      = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  exact closedAt_of_reads (V c (Pipeline.arrRef spec1 0)) (V c (Pipeline.arrRef spec1 1)) (V c (Pipeline.arrRef spec1 2))
    (V c (Pipeline.arrRef spec1 3)) _ _ _ _ _ h0 h1 h2 h3

/-- What point `t` writes back is block `t` of the closing step of the whole arrays. -/
theorem flushed_eq (c : Dev nD) (t : Fin cfg1.N) :
    (dat (F := Ideal) V c).flushed 4 t = ((cfg1.win 4).blk t).view.read (Elt Ideal)
      (closedAt (V c (Pipeline.arrRef spec1 0)) (V c (Pipeline.arrRef spec1 1)) (V c (Pipeline.arrRef spec1 2))
        (V c (Pipeline.arrRef spec1 3))) := by
  show (cfg1.win 4).cut (grid1.coords t) ((dat V c).after 4 t) = _
  rw [after_result]
  unfold closed
  rw [View.canon_unit_zero zero_off]
  simp only [View.ld_unit_zero (S := S10000x64) zero_off, View.ld_unit_zero (S := S10000x1) zero_off,
    View.ld_unit_zero (S := S1x64) zero_off]
  funext j
  obtain ⟨p, q, rfl⟩ : ∃ (p : Fin 10000) (q : Fin 64), j = ix2 p q := ⟨j 0, j 1, eq_ix2 j⟩
  exact flushed_at V c t p q

/-- An index of the array is in point `t`'s block iff each coordinate is in the block's range on its axis. -/
theorem mem_blk (t : Fin cfg1.N) (i : S100000x64.Idx) :
    i ∈ ((cfg1.win 4).blk t).view.set
      ↔ ∀ a : Fin 2, win1_4.index t a * S10000x64.size a ≤ (i a).val
          ∧ (i a).val < win1_4.index t a * S10000x64.size a + S10000x64.size a := by
  show i ∈ ((View.whole (Pipeline.arrRef spec1 4)).slice (win1_4.rect t)).set ↔ _
  rw [View.set_slice_whole, Rect.mem_set_unit]
  exact Iff.rfl

/-- Every row block of the array is some point's. -/
theorem idx_onto : ∀ r : Fin 10, ∃ t : Fin cfg1.N, win1_4.index t = ![r.val, 0] :=
  (by decide +kernel : ∀ r : Fin 10, ∃ t : Fin grid1.N, win1_4.index t = ![r.val, 0])

/-- The ten blocks fill the array: row r is in the block of point r / 10000. -/
theorem covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

/-- The result array after the launch is `closedAt` of the four arrays the launch is entered with. -/
theorem result_eq (c : Dev nD) :
    (dat (F := Ideal) V c).arrAt 4 cfg1.N
      = closedAt (V c (Pipeline.arrRef spec1 0)) (V c (Pipeline.arrRef spec1 1)) (V c (Pipeline.arrRef spec1 2))
          (V c (Pipeline.arrRef spec1 3)) :=
  (dat (F := Ideal) V c).arrAt_eq_of_cover 4 _ (fun t _ => flushed_eq V c t) covered

end Cert.KernelIdeal.Fin1

end
-- ==== Proof.ValMm2.lean ====
/-
  What the projection launch leaves in its result array, read on the extended reals: the matrix product of the
  100000 × 64 input array by the 64 × 64 weight — entry (r, s) the sum over j of x (r, j) · w (j, s) — whatever
  the tiling: point t writes rows 10000·t … of that product, and the ten points' blocks fill the array.
-/
import proofs.«408095_j65790309040228_2_alg».proof.Proof.Mm2
import proofs.«408095_j65790309040228_2_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mm2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open MatProd
variable (V : (c : Dev nD) → (b : Ref sig .tc) → Buf (Elt Ideal) ((c : Thread nD τ).loc b))

/-- The whole-buffer rectangle starts at the origin. -/
theorem origin : (![0, 0] : Fin 2 → Nat) = fun _ => 0 := funext fun a => by fin_cases a <;> rfl

/-- In exact arithmetic a change of float format is the identity and the matrix unit's product into a zero
    accumulator is the plain product: the body's payload is the matrix product of the two blocks it loaded. -/
theorem payload_eq (x : Vec Ideal S10000x64 .f32) (w : Vec Ideal S64x64 .f32) :
    k2_pay1 (F := Ideal) x w = mmP (M := 10000) (K := 64) (N := 64) x w := by
  refine Eq.trans ?_ (Idealize.ShloMosaic.DotPlain.matmul_zero_eq dot_S10000x64_S64x64_S10000x64_1_0_0_1_n_n
    rfl rfl rfl rfl rfl rfl (φ₁ := .bf16) (φ₂ := .bf16) none x w)
  unfold k2_pay1
  try simp only [shapeCast_self]
  rfl

/-- The printed index maps, decided over the grid: point t's row block and result block are block t along the rows,
    and every other block index is zero. -/
theorem index_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some point's result block. -/
theorem index_onto : ∀ q0 : Fin 10, ∃ t : Fin cfg2.N, win2_2.index t = ![q0.val, 0] :=
  (by decide +kernel : ∀ q0 : Fin 10, ∃ t : Fin grid2.N, win2_2.index t = ![q0.val, 0])

/-- Entry (p, q) of the product of point t's two blocks is the whole arrays' product at the place that entry has in
    the result array: the row block's entry (p, k) is the array's entry (10000·t + p, k), the weight block's entry
    (k, q) is the weight's entry (k, q), so the two sums agree term by term. -/
theorem block_entry (c : Dev nD) (t : Fin cfg2.N) (p : Fin 10000) (q : Fin 64) :
    mmP (M := 10000) (K := 64) (N := 64) (blockAt V c 0 t) (blockAt V c 1 t) (ix2 p q)
      = mmP (M := 100000) (K := 64) (N := 64) (V c (Pipeline.arrRef spec2 0)) (V c (Pipeline.arrRef spec2 1))
          (((cfg2.win 2).blk t).view.emb (ix2 p q)) := by
  obtain ⟨e00, e01, e10, e11, e20, e21⟩ := index_facts t
  unfold mmP
  refine Finset.sum_congr rfl fun k _ => ?_
  refine congrArg₂ (· * ·) ?_ ?_
  · show V c (Pipeline.arrRef spec2 0) (((cfg2.win 0).blk t).view.emb (ix2 p k))
        = V c (Pipeline.arrRef spec2 0) (ix2 ((((cfg2.win 2).blk t).view.emb (ix2 p q)) 0) k)
    refine congrArg _ (funext fun a => Fin.ext ?_)
    match a with
    | ⟨0, _⟩ =>
      show win2_0.index t (0 : Fin 2) * 10000 + 1 * p.val = win2_2.index t (0 : Fin 2) * 10000 + 1 * p.val
      omega
    | ⟨1, _⟩ =>
      show win2_0.index t (1 : Fin 2) * 64 + 1 * k.val = k.val
      omega
  · show V c (Pipeline.arrRef spec2 1) (((cfg2.win 1).blk t).view.emb (ix2 k q))
        = V c (Pipeline.arrRef spec2 1) (ix2 k ((((cfg2.win 2).blk t).view.emb (ix2 p q)) 1))
    refine congrArg _ (funext fun a => Fin.ext ?_)
    match a with
    | ⟨0, _⟩ =>
      show win2_1.index t (0 : Fin 2) * 64 + 1 * k.val = k.val
      omega
    | ⟨1, _⟩ =>
      show win2_1.index t (1 : Fin 2) * 64 + 1 * q.val = win2_2.index t (1 : Fin 2) * 64 + 1 * q.val
      omega

/-- What point t writes back is block t of the whole arrays' product. -/
theorem flushed_eq (c : Dev nD) (t : Fin cfg2.N) :
    (dat (F := Ideal) V c).flushed 2 t = ((cfg2.win 2).blk t).view.read (Elt Ideal)
      (mmP (M := 100000) (K := 64) (N := 64) (V c (Pipeline.arrRef spec2 0)) (V c (Pipeline.arrRef spec2 1))) := by
  show (cfg2.win 2).cut (grid2.coords t) ((dat V c).after 2 t) = _
  rw [after_result]
  unfold product
  rw [View.canon_unit_zero origin]
  simp only [View.ld_unit_zero (S := S10000x64) origin, View.ld_unit_zero (S := S64x64) origin]
  rw [payload_eq]
  funext j
  obtain ⟨p, q, rfl⟩ : ∃ (p : Fin 10000) (q : Fin 64), j = ix2 p q := ⟨j 0, j 1, eq_ix2 j⟩
  exact block_entry V c t p q

/-- An index of the result array is in point t's block iff each coordinate is in the block's range on its axis. -/
theorem mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  rw [show ((cfg2.win 2).blk t).view.set = (win2_2.rect t).set from View.set_slice_whole _ _, Rect.mem_set_unit]
  exact Iff.rfl

/-- The ten blocks fill the result array: row r is in the block of point r / 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The result array after the launch is the matrix product of the two arrays the launch is entered with. -/
theorem result_eq (c : Dev nD) :
    (dat (F := Ideal) V c).arrAt 2 cfg2.N
      = mmP (M := 100000) (K := 64) (N := 64) (V c (Pipeline.arrRef spec2 0)) (V c (Pipeline.arrRef spec2 1)) :=
  (dat V c).arrAt_eq_of_cover 2 _ (fun t _ => flushed_eq V c t) cover

/-- The launch's two input arrays end as they were entered. -/
theorem rows_kept (c : Dev nD) : (dat (F := Ideal) V c).arrAt 0 cfg2.N = V c (Pipeline.arrRef spec2 0) :=
  ((dat V c).arrAt_in 0 rfl _).trans (dat_A V c 0)
theorem weight_kept (c : Dev nD) : (dat (F := Ideal) V c).arrAt 1 cfg2.N = V c (Pipeline.arrRef spec2 1) :=
  ((dat V c).arrAt_in 1 rfl _).trans (dat_A V c 1)

end Cert.KernelIdeal.Mm2

end
-- ==== Proof.ValFin3.lean ====
/-
  What the closing-step launch leaves in its result array, read on the extended reals, index by index:
  at (r, s) it is max((agg (r, s) + h (r, s) · d (r, 0)) + b (0, s), 0) of the four arrays the launch is entered
  with — the aggregated messages, the projected features, the column of squared inverse-root degrees and the bias
  row — whatever the tiling: point t writes rows 10000·t … of that array, and the ten points' blocks fill it.
-/
import proofs.«408095_j65790309040228_2_alg».proof.Proof.Fin3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fin3

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The closing step at an index, from the four input arrays. -/
def closedAt (agg h : S100000x64.Idx → EReal) (d : S100000x1.Idx → EReal) (b : S1x64.Idx → EReal) :
    S100000x64.Idx → EReal :=
  fun i => max ((agg i + h i * d (ix2 (i 0) (0 : Fin 1))) + b (ix2 (0 : Fin 1) (i 1))) 0

/-- A column broadcast over many columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at a block index: the clamped sum, the column read at the row, the bias row at the column. -/
theorem pay_apply (a h : Vec Ideal S10000x64 .f32) (s : Vec Ideal S10000x1 .f32) (b : Vec Ideal S1x64 .f32)
    (p : Fin 10000) (q : Fin 64) :
    k3_pay1 a h s b (ix2 p q)
      = max ((a (ix2 p q) + h (ix2 p q) * s (ix2 p (0 : Fin 1))) + b (ix2 (0 : Fin 1) q)) 0 := by
  unfold k3_pay1
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · exact congrFun (shapeCast_self a _) _
      · refine (mulf_apply _ _ _).trans ?_
        refine congrArg₂ (· * ·) ?_ ?_
        · exact congrFun (shapeCast_self h _) _
        · refine (broadcastTo_a1_ab_apply _ _ p q).trans ?_
          exact congrFun (shapeCast_self s _) _
    · refine (broadcastTo_1b_ab_apply _ _ p q).trans ?_
      exact congrFun (shapeCast_self b _) _
  · exact Ideal.ofBits_zero_f32

/-- Both offsets of a whole-buffer rectangle are zero. -/
theorem zero_off : (![0, 0] : Fin 2 → Nat) = fun _ => 0 := funext fun a => by fin_cases a <;> rfl

/-- The index maps at every grid point: the two row-block inputs and the column move with the result's block,
    the column's and the bias row's other block indices are zero, and the result's block index is at most 9. -/
theorem idx_facts : ∀ t : Fin cfg3.N,
    win3_0.index t (0 : Fin 2) = win3_4.index t (0 : Fin 2)
    ∧ win3_0.index t (1 : Fin 2) = win3_4.index t (1 : Fin 2)
    ∧ win3_1.index t (0 : Fin 2) = win3_4.index t (0 : Fin 2)
    ∧ win3_1.index t (1 : Fin 2) = win3_4.index t (1 : Fin 2)
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (0 : Fin 2) ≤ 9
    ∧ win3_4.index t (1 : Fin 2) = 0 :=
  (by decide +kernel : ∀ t : Fin grid3.N, _)

/-- The clamped sum of four reads is the closing step at an index when each read is where that index says. -/
theorem closedAt_of_reads (A H : S100000x64.Idx → EReal) (D : S100000x1.Idx → EReal) (B : S1x64.Idx → EReal)
    (i0 i1 i : S100000x64.Idx) (i2 : S100000x1.Idx) (i3 : S1x64.Idx)
    (h0 : i0 = i) (h1 : i1 = i) (h2 : i2 = ix2 (i 0) (0 : Fin 1)) (h3 : i3 = ix2 (0 : Fin 1) (i 1)) :
    max ((A i0 + H i1 * D i2) + B i3) 0 = closedAt A H D B i := by
  subst h0 h1 h2 h3; rfl

/-- The body's value at a block index is the closing step of the whole arrays at the array index under it. -/
theorem flushed_at (c : Dev nD) (t : Fin cfg3.N) (p : Fin 10000) (q : Fin 64) :
    k3_pay1 (blockAt V c 0 t) (blockAt V c 1 t) (blockAt V c 2 t) (blockAt V c 3 t) (ix2 p q)
      = closedAt (V c (Pipeline.arrRef spec3 0)) (V c (Pipeline.arrRef spec3 1)) (V c (Pipeline.arrRef spec3 2))
          (V c (Pipeline.arrRef spec3 3)) (((cfg3.win 4).blk t).view.emb (ix2 p q)) := by
  refine (pay_apply _ _ _ _ p q).trans ?_
  obtain ⟨e0, e1, e2, e3, e4, e5, e6, e7, e8, e9⟩ := idx_facts t
  have h0 : ((cfg3.win 0).blk t).view.emb (ix2 p q) = ((cfg3.win 4).blk t).view.emb (ix2 p q) := by
    funext a; apply Fin.ext
    match a with
    | ⟨0, _⟩ => show win3_0.index t (0 : Fin 2) * 10000 + 1 * p.val = win3_4.index t (0 : Fin 2) * 10000 + 1 * p.val; omega
    | ⟨1, _⟩ => show win3_0.index t (1 : Fin 2) * 64 + 1 * q.val = win3_4.index t (1 : Fin 2) * 64 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 10000 + 1 * p.val = win3_4.index t (0 : Fin 2) * 10000 + 1 * p.val; omega
    | ⟨1, _⟩ => show win3_1.index t (1 : Fin 2) * 64 + 1 * q.val = win3_4.index t (1 : Fin 2) * 64 + 1 * q.val; omega
  have h2 : ((cfg3.win 2).blk t).view.emb (ix2 p (0 : Fin 1))
      = ix2 ((((cfg3.win 4).blk t).view.emb (ix2 p q)) 0) (0 : Fin 1) := by
    funext a; apply Fin.ext
    match a with
    | ⟨0, _⟩ => show win3_2.index t (0 : Fin 2) * 10000 + 1 * p.val = win3_4.index t (0 : Fin 2) * 10000 + 1 * p.val; omega
    | ⟨1, _⟩ => show win3_2.index t (1 : Fin 2) * 1 + 1 * 0 = 0; omega
  have h3 : ((cfg3.win 3).blk t).view.emb (ix2 (0 : Fin 1) q)
      = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 64 + 1 * q.val = win3_4.index t (1 : Fin 2) * 64 + 1 * q.val; omega
  exact closedAt_of_reads (V c (Pipeline.arrRef spec3 0)) (V c (Pipeline.arrRef spec3 1)) (V c (Pipeline.arrRef spec3 2))
    (V c (Pipeline.arrRef spec3 3)) _ _ _ _ _ h0 h1 h2 h3

/-- What point `t` writes back is block `t` of the closing step of the whole arrays. -/
theorem flushed_eq (c : Dev nD) (t : Fin cfg3.N) :
    (dat (F := Ideal) V c).flushed 4 t = ((cfg3.win 4).blk t).view.read (Elt Ideal)
      (closedAt (V c (Pipeline.arrRef spec3 0)) (V c (Pipeline.arrRef spec3 1)) (V c (Pipeline.arrRef spec3 2))
        (V c (Pipeline.arrRef spec3 3))) := by
  show (cfg3.win 4).cut (grid3.coords t) ((dat V c).after 4 t) = _
  rw [after_result]
  unfold closed
  rw [View.canon_unit_zero zero_off]
  simp only [View.ld_unit_zero (S := S10000x64) zero_off, View.ld_unit_zero (S := S10000x1) zero_off,
    View.ld_unit_zero (S := S1x64) zero_off]
  funext j
  obtain ⟨p, q, rfl⟩ : ∃ (p : Fin 10000) (q : Fin 64), j = ix2 p q := ⟨j 0, j 1, eq_ix2 j⟩
  exact flushed_at V c t p q

/-- An index of the array is in point `t`'s block iff each coordinate is in the block's range on its axis. -/
theorem mem_blk (t : Fin cfg3.N) (i : S100000x64.Idx) :
    i ∈ ((cfg3.win 4).blk t).view.set
      ↔ ∀ a : Fin 2, win3_4.index t a * S10000x64.size a ≤ (i a).val
          ∧ (i a).val < win3_4.index t a * S10000x64.size a + S10000x64.size a := by
  show i ∈ ((View.whole (Pipeline.arrRef spec3 4)).slice (win3_4.rect t)).set ↔ _
  rw [View.set_slice_whole, Rect.mem_set_unit]
  exact Iff.rfl

/-- Every row block of the array is some point's. -/
theorem idx_onto : ∀ r : Fin 10, ∃ t : Fin cfg3.N, win3_4.index t = ![r.val, 0] :=
  (by decide +kernel : ∀ r : Fin 10, ∃ t : Fin grid3.N, win3_4.index t = ![r.val, 0])

/-- The ten blocks fill the array: row r is in the block of point r / 10000. -/
theorem covered (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_blk]
  intro a
  match a with
  | ⟨0, _⟩ =>
    show win3_4.index t (0 : Fin 2) * 10000 ≤ (i 0).val ∧ (i 0).val < win3_4.index t (0 : Fin 2) * 10000 + 10000
    omega
  | ⟨1, _⟩ =>
    show win3_4.index t (1 : Fin 2) * 64 ≤ (i 1).val ∧ (i 1).val < win3_4.index t (1 : Fin 2) * 64 + 64
    omega

/-- The result array after the launch is `closedAt` of the four arrays the launch is entered with. -/
theorem result_eq (c : Dev nD) :
    (dat (F := Ideal) V c).arrAt 4 cfg3.N
      = closedAt (V c (Pipeline.arrRef spec3 0)) (V c (Pipeline.arrRef spec3 1)) (V c (Pipeline.arrRef spec3 2))
          (V c (Pipeline.arrRef spec3 3)) :=
  (dat (F := Ideal) V c).arrAt_eq_of_cover 4 _ (fun t _ => flushed_eq V c t) covered

end Cert.KernelIdeal.Fin3

end
-- ==== Proof.Bridge.lean ====
/-
  The tiled program's result is the reference's, stage by stage, on the extended reals. Both programs apply the same
  host operations around their layers — the degrees and their inverse roots, the edge weights, the gather of rows and
  the scatter of messages, the counts and the final quotient — so those stages are one term on both sides once their
  inputs are identified. What differs is: each layer's projection, a tiled matrix-unit product in one program and one
  `dot_general` in the other — both the matrix product `mmP`; each layer's closing step, one fused launch against
  four host operations — at every index the same max((agg + h · d²) + b, 0); and the pooled sums (PoolBridge).
-/
import proofs.«408095_j65790309040228_2_alg».proof.Proof.RunDefs
import proofs.«408095_j65790309040228_2_alg».proof.Proof.Gen.ReferenceIdeal.Read
import Idealize.ShloMosaic.Lib.StableHlo.Run
import Idealize.ShloMosaic.Lib.KernelVsHost
import Idealize.ShloMosaic.Lib.IdealHost
import proofs.«408095_j65790309040228_2_alg».proof.Proof.ValMm0
import proofs.«408095_j65790309040228_2_alg».proof.Proof.ValFin1
import proofs.«408095_j65790309040228_2_alg».proof.Proof.ValMm2
import proofs.«408095_j65790309040228_2_alg».proof.Proof.ValFin3
import proofs.«408095_j65790309040228_2_alg».proof.Proof.LibDotPlain

set_option maxRecDepth 16384

noncomputable section

namespace Cert.KernelIdeal.Bridge

open Cert.KernelIdeal Cert.KernelIdeal.Gen Cert.KernelIdeal.Run
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (c : Dev nD)

open Cert.ReferenceIdeal.Read MatProd

/-- The program's seven argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

/-! ## What no segment writes stays -/

theorem keep1 (r : Ref sig .tc) (h : r ∉ hostOps0_W) : X1 m c r = m ((c : Thread nD τ).loc r) := V1_of m c r h
theorem keep2 (r : Ref sig .tc) (h : r ∉ ([main_v28] : List (Ref sig .tc))) : X2 m c r = X1 m c r := by
  have := V2_of m (results m) c r h; rwa [at_2] at this
theorem keep3 (r : Ref sig .tc) (h : r ∉ hostOps1_W) : X3 m c r = X2 m c r := by
  have := V3_of m (results m) c r h; rwa [at_3, at_2] at this
theorem keep4 (r : Ref sig .tc) (h : r ∉ ([main_v43] : List (Ref sig .tc))) : X4 m c r = X3 m c r := by
  have := V4_of m (results m) c r h; rwa [at_4, at_3] at this
theorem keep5 (r : Ref sig .tc) (h : r ∉ ([main_v44] : List (Ref sig .tc))) : X5 m c r = X4 m c r := by
  have := V5_of m (results m) c r h; rwa [at_5, at_4] at this
theorem keep6 (r : Ref sig .tc) (h : r ∉ hostOps3_W) : X6 m c r = X5 m c r := by
  have := V6_of m (results m) c r h; rwa [at_6, at_5] at this

/-! ## The first host stretch: rows, columns, edge weights, squared inverse-root degrees -/

theorem row_eq : X1 m c main_v1 = val_main_v1 (F := Ideal) (a1 m c) := by
  show StableHlo.after hostOps0 (V0 m c) (Proc.devRef .tc main_v1) = _
  after_results
  rfl
theorem col_eq : X1 m c main_v3 = val_main_v3 (F := Ideal) (a1 m c) := by
  show StableHlo.after hostOps0 (V0 m c) (Proc.devRef .tc main_v3) = _
  after_results
  rfl
set_option maxHeartbeats 4000000 in
theorem weight_eq : X1 m c main_v25 = val_main_v26 (F := Ideal) (a1 m c) := by
  show StableHlo.after hostOps0 (V0 m c) (Proc.devRef .tc main_v25) = _
  after_results_simp
  rfl
set_option maxHeartbeats 4000000 in
/-- The column of squared inverse-root degrees is the reference's vector of them, laid out as a column. -/
theorem degsq_eq (hc : Cert.ReferenceIdeal.S100000.ShapeCasts S100000x1) :
    X1 m c main_v27 = shapeCast S100000x1 (val_main_v40 (F := Ideal) (a1 m c)) hc := by
  show StableHlo.after hostOps0 (V0 m c) (Proc.devRef .tc main_v27) = _
  after_results_simp
  rfl

/-! ## The projections -/

/-- The reference's `dot_general` of a 100000 × 64 array by a 64 × 64 one is the matrix product. -/
theorem host_dot_eq (x : FVec Ideal Cert.ReferenceIdeal.S100000x64 .f32) (w : FVec Ideal Cert.ReferenceIdeal.S64x64 .f32) :
    Host.dotGeneral Cert.ReferenceIdeal.dot_S100000x64_S64x64_S100000x64_1_0_0_1_n_n none x w
      = mmP (M := 100000) (K := 64) (N := 64) x w :=
  DotPlain.dotGeneral_eq _ rfl rfl rfl rfl rfl rfl none .single x w

theorem proj1_eq : proj1 m c = val_main_v4 (F := Ideal) (a0 m c) (a3 m c) := by
  unfold proj1
  rw [Mm0.result_eq]
  show mmP (X1 m c main_arg0) (X1 m c main_arg3) = _
  rw [keep1 m c main_arg0 (by decide), keep1 m c main_arg3 (by decide)]
  exact (host_dot_eq _ _).symm

/-! ## Reading a vector laid out as a column, and as a row -/

theorem column_entry (d : Cert.ReferenceIdeal.S100000.Idx → EReal) (hc : Cert.ReferenceIdeal.S100000.ShapeCasts S100000x1)
    (r : Fin 100000) : shapeCast S100000x1 d hc (ix2 r (0 : Fin 1)) = d (ix1 r) :=
  shapeCast_apply d hc _ _ (by rw [Shape.rowMajor_val_one, Shape.rowMajor_val_two]; show r.val = r.val * 1 + 0; omega)

theorem row_entry (b : Cert.ReferenceIdeal.S64.Idx → EReal) (hb : Cert.ReferenceIdeal.S64.ShapeCasts S1x64)
    (s : Fin 64) : shapeCast S1x64 b hb (ix2 (0 : Fin 1) s) = b (ix1 s) :=
  shapeCast_apply b hb _ _ (by rw [Shape.rowMajor_val_one, Shape.rowMajor_val_two]; show s.val = 0 * 64 + s.val; omega)

/-! ## The first layer -/

theorem x2_proj : X2 m c main_v28 = val_main_v4 (F := Ideal) (a0 m c) (a3 m c) :=
  (Function.update_self _ _ _).trans (proj1_eq m c)

set_option maxHeartbeats 4000000 in
/-- The aggregation stretch over any contents that hold the reference's projection, rows, columns and edge weights
    leaves the reference's aggregated messages. -/
theorem agg1_of (Y : Valuation τ sig (Elt Ideal))
    (hh : Y main_v28 = val_main_v4 (F := Ideal) (a0 m c) (a3 m c))
    (hrow : Y main_v1 = val_main_v1 (F := Ideal) (a1 m c)) (hcol : Y main_v3 = val_main_v3 (F := Ideal) (a1 m c))
    (hw : Y main_v25 = val_main_v26 (F := Ideal) (a1 m c)) :
    StableHlo.after hostOps1 Y (Proc.devRef .tc main_v41) = val_main_v39 (F := Ideal) (a0 m c) (a1 m c) (a3 m c) := by
  after_results_simp
  rw [hh, hrow, hcol, hw]
  rfl

theorem agg1_eq : X3 m c main_v41 = val_main_v39 (F := Ideal) (a0 m c) (a1 m c) (a3 m c) :=
  agg1_of m c (X2 m c) (x2_proj m c)
    ((keep2 m c main_v1 (by decide)).trans (row_eq m c)) ((keep2 m c main_v3 (by decide)).trans (col_eq m c))
    ((keep2 m c main_v25 (by decide)).trans (weight_eq m c))

/-- The bias row the first closing step is entered with is the bias vector laid out as a row. -/
theorem bias1_of (Y : Valuation τ sig (Elt Ideal)) (hb : Cert.ReferenceIdeal.S64.ShapeCasts S1x64) :
    StableHlo.after hostOps1 Y (Proc.devRef .tc main_v42) = shapeCast S1x64 (Y main_arg4) hb := by
  after_results
  rfl

theorem idx_column (i : Cert.ReferenceIdeal.S100000x64.Idx) : idx_main_v41 (idx_main_v42 i) = ix1 (i 0) := by
  funext a; match a with | ⟨0, _⟩ => rfl
theorem idx_row (i : Cert.ReferenceIdeal.S100000x64.Idx) : idx_main_v45 (idx_main_v46 i) = ix1 (i 1) := by
  funext a; match a with | ⟨0, _⟩ => rfl

/-- The first layer's output array is the reference's: at every index both are max((agg + h · d²) + b, 0). -/
theorem layer1_eq : layer1 m c = val_main_v48 (F := Ideal) (a0 m c) (a1 m c) (a3 m c) (a4 m c) := by
  have hc : Cert.ReferenceIdeal.S100000.ShapeCasts S100000x1 := by decide
  have hb : Cert.ReferenceIdeal.S64.ShapeCasts S1x64 := by decide
  unfold layer1
  rw [Fin1.result_eq]
  show Fin1.closedAt (X3 m c main_v41) (X3 m c main_v28) (X3 m c main_v27) (X3 m c main_v42) = _
  rw [agg1_eq, (keep3 m c main_v28 (by decide)).trans (x2_proj m c),
    (keep3 m c main_v27 (by decide)).trans ((keep2 m c main_v27 (by decide)).trans (degsq_eq m c hc)),
    show X3 m c main_v42 = _ from bias1_of (X2 m c) hb,
    (keep2 m c main_arg4 (by decide)).trans (keep1 m c main_arg4 (by decide))]
  funext i
  obtain ⟨p, q, rfl⟩ : ∃ (p : Fin 100000) (q : Fin 64), i = ix2 p q := ⟨i 0, i 1, eq_ix2 i⟩
  rw [val_main_v48_apply, val_main_v47_apply, val_main_v44_apply, val_main_v43_apply, val_main_v42_apply, val_main_v41_apply,
    val_main_v46_apply, val_main_v45_apply, val_main_call0_v0_apply, val_main_call0_cst_apply, idx_column, idx_row]
  unfold Fin1.closedAt
  have e1 := column_entry (val_main_v40 (F := Ideal) (a1 m c)) hc p
  have e2 := row_entry (a4 m c) hb q
  show max ((_ + _ * shapeCast S100000x1 (val_main_v40 (F := Ideal) (a1 m c)) hc (ix2 p (0 : Fin 1)))
      + shapeCast S1x64 (a4 m c) hb (ix2 (0 : Fin 1) q)) 0
    = max ((_ + _ * val_main_v40 (F := Ideal) (a1 m c) (ix1 p)) + a4 m c (ix1 q)) (Ideal.ofBits .f32 0x00000000#32)
  rw [e1, e2, Ideal.ofBits_zero_f32]

/-! ## The second layer -/

theorem x4_layer : X4 m c main_v43 = val_main_v48 (F := Ideal) (a0 m c) (a1 m c) (a3 m c) (a4 m c) :=
  (Function.update_self _ _ _).trans (layer1_eq m c)

theorem proj2_eq : proj2 m c = val_main_v49 (F := Ideal) (a0 m c) (a1 m c) (a3 m c) (a4 m c) (a5 m c) := by
  unfold proj2
  rw [Mm2.result_eq]
  show mmP (X4 m c main_v43) (X4 m c main_arg5) = _
  rw [x4_layer, (keep4 m c main_arg5 (by decide)).trans ((keep3 m c main_arg5 (by decide)).trans
    ((keep2 m c main_arg5 (by decide)).trans (keep1 m c main_arg5 (by decide))))]
  exact (host_dot_eq _ _).symm

theorem x5_proj : X5 m c main_v44 = val_main_v49 (F := Ideal) (a0 m c) (a1 m c) (a3 m c) (a4 m c) (a5 m c) :=
  (Function.update_self _ _ _).trans (proj2_eq m c)

/-- A reference outside everything written between the first boundary and the fifth holds there what it held at the first. -/
theorem keep_1_to_5 (r : Ref sig .tc) (h2 : r ∉ ([main_v28] : List (Ref sig .tc))) (h3 : r ∉ hostOps1_W)
    (h4 : r ∉ ([main_v43] : List (Ref sig .tc))) (h5 : r ∉ ([main_v44] : List (Ref sig .tc))) : X5 m c r = X1 m c r :=
  (keep5 m c r h5).trans ((keep4 m c r h4).trans ((keep3 m c r h3).trans (keep2 m c r h2)))

set_option maxHeartbeats 4000000 in
/-- The second aggregation stretch over any contents that hold the reference's second projection, rows, columns and
    edge weights leaves the reference's aggregated messages (the reference recomputes the edge weights for its second
    layer: the same term). -/
theorem agg2_of (Y : Valuation τ sig (Elt Ideal))
    (hh : Y main_v44 = val_main_v49 (F := Ideal) (a0 m c) (a1 m c) (a3 m c) (a4 m c) (a5 m c))
    (hrow : Y main_v1 = val_main_v1 (F := Ideal) (a1 m c)) (hcol : Y main_v3 = val_main_v3 (F := Ideal) (a1 m c))
    (hw : Y main_v25 = val_main_v26 (F := Ideal) (a1 m c)) :
    StableHlo.after hostOps3 Y (Proc.devRef .tc main_v57)
      = val_main_v84 (F := Ideal) (a0 m c) (a1 m c) (a3 m c) (a4 m c) (a5 m c) := by
  after_results_simp
  rw [hh, hrow, hcol, hw]
  rfl

theorem agg2_eq : X6 m c main_v57 = val_main_v84 (F := Ideal) (a0 m c) (a1 m c) (a3 m c) (a4 m c) (a5 m c) :=
  agg2_of m c (X5 m c) (x5_proj m c)
    ((keep_1_to_5 m c main_v1 (by decide) (by decide) (by decide) (by decide)).trans (row_eq m c))
    ((keep_1_to_5 m c main_v3 (by decide) (by decide) (by decide) (by decide)).trans (col_eq m c))
    ((keep_1_to_5 m c main_v25 (by decide) (by decide) (by decide) (by decide)).trans (weight_eq m c))

theorem bias2_of (Y : Valuation τ sig (Elt Ideal)) (hb : Cert.ReferenceIdeal.S64.ShapeCasts S1x64) :
    StableHlo.after hostOps3 Y (Proc.devRef .tc main_v58) = shapeCast S1x64 (Y main_arg6) hb := by
  after_results
  rfl

theorem idx_column2 (i : Cert.ReferenceIdeal.S100000x64.Idx) : idx_main_v86 (idx_main_v87 i) = ix1 (i 0) := by
  funext a; match a with | ⟨0, _⟩ => rfl
theorem idx_row2 (i : Cert.ReferenceIdeal.S100000x64.Idx) : idx_main_v90 (idx_main_v91 i) = ix1 (i 1) := by
  funext a; match a with | ⟨0, _⟩ => rfl

/-- The reference's second computation of the squared inverse-root degrees is its first. -/
theorem degsq_again : val_main_v85 (F := Ideal) (a1 m c) = val_main_v40 (F := Ideal) (a1 m c) := rfl

/-- The second layer's output array is the reference's. -/
theorem layer2_eq : layer2 m c = val_main_v93 (F := Ideal) (a0 m c) (a1 m c) (a3 m c) (a4 m c) (a5 m c) (a6 m c) := by
  have hc : Cert.ReferenceIdeal.S100000.ShapeCasts S100000x1 := by decide
  have hb : Cert.ReferenceIdeal.S64.ShapeCasts S1x64 := by decide
  unfold layer2
  rw [Fin3.result_eq]
  show Fin3.closedAt (X6 m c main_v57) (X6 m c main_v44) (X6 m c main_v27) (X6 m c main_v58) = _
  rw [agg2_eq, (keep6 m c main_v44 (by decide)).trans (x5_proj m c),
    (keep6 m c main_v27 (by decide)).trans ((keep_1_to_5 m c main_v27 (by decide) (by decide) (by decide) (by decide)).trans
      (degsq_eq m c hc)),
    show X6 m c main_v58 = _ from bias2_of (X5 m c) hb,
    (keep_1_to_5 m c main_arg6 (by decide) (by decide) (by decide) (by decide)).trans (keep1 m c main_arg6 (by decide))]
  funext i
  obtain ⟨p, q, rfl⟩ : ∃ (p : Fin 100000) (q : Fin 64), i = ix2 p q := ⟨i 0, i 1, eq_ix2 i⟩
  rw [val_main_v93_apply, val_main_v92_apply, val_main_v89_apply, val_main_v88_apply, val_main_v87_apply, val_main_v86_apply,
    val_main_v91_apply, val_main_v90_apply, val_main_call1_v0_apply, val_main_call1_cst_apply, idx_column2, idx_row2, degsq_again]
  unfold Fin3.closedAt
  have e1 := column_entry (val_main_v40 (F := Ideal) (a1 m c)) hc p
  have e2 := row_entry (a6 m c) hb q
  show max ((_ + _ * shapeCast S100000x1 (val_main_v40 (F := Ideal) (a1 m c)) hc (ix2 p (0 : Fin 1)))
      + shapeCast S1x64 (a6 m c) hb (ix2 (0 : Fin 1) q)) 0
    = max ((_ + _ * val_main_v40 (F := Ideal) (a1 m c) (ix1 p)) + a6 m c (ix1 q)) (Ideal.ofBits .f32 0x00000000#32)
  rw [e1, e2, Ideal.ofBits_zero_f32]

/-! ## The tail: counts and the quotient -/

set_option maxHeartbeats 4000000 in
/-- The last stretch over any contents that hold the reference's segment sums and the labels leaves the reference's
    result. -/
theorem tail_of (Y : Valuation τ sig (Elt Ideal))
    (hp : Y main_v69 = val_main_v96 (F := Ideal) (a0 m c) (a1 m c) (a2 m c) (a3 m c) (a4 m c) (a5 m c) (a6 m c))
    (hlab : Y main_arg2 = a2 m c) :
    StableHlo.after hostOps5 Y (Proc.devRef .tc main_v78)
      = val_main_v105 (F := Ideal) (a0 m c) (a1 m c) (a2 m c) (a3 m c) (a4 m c) (a5 m c) (a6 m c) := by
  after_results_simp
  rw [hp, hlab]
  rfl

end Cert.KernelIdeal.Bridge

end
-- ==== Proof.ValPool4.lean ====
/-
  What the pooling launch leaves in its result array, read on the extended reals: the matrix product of the
  64 × 102400 membership mask by the 102400 × 64 padded features — entry (g, s) the sum over all 102400 rows n of
  mask (g, n) · feat (n, s). The launch computes it as thirty-two partial products of 3200 rows each, added one
  after the other into an accumulator that starts at zero; on the extended reals a sum of sums over consecutive
  ranges is the sum over the whole range, whatever the grouping.
-/
import proofs.«408095_j65790309040228_2_alg».proof.Proof.Pool4
import proofs.«408095_j65790309040228_2_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pool4

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open MatProd
variable (V : (c : Dev nD) → (b : Ref sig .tc) → Buf (Elt Ideal) ((c : Thread nD τ).loc b))

theorem hz0 : (![0, 0] : Fin 2 → Nat) = fun _ => 0 := funext fun a => by fin_cases a <;> rfl

/-- The cleared accumulator is zero everywhere. -/
theorem cleared_val : cleared (F := Ideal) = fun _ => (0 : EReal) := by
  unfold cleared
  rw [View.canon_unit_zero hz0]
  unfold k4_pay1
  dsimp only
  rw [shapeCast_self]
  funext i
  show Ideal.ofBits .f32 0x00000000#32 = 0
  exact Ideal.ofBits_zero_f32

/-- One accumulation adds the product of the two blocks to the accumulator, entry by entry. -/
theorem step_val (mk : Vec Ideal S64x3200 .bf16) (h : Vec Ideal S3200x64 .f32) (acc : Vec Ideal S64x64 .f32) :
    step mk h acc = fun i => acc i + mmP (M := 64) (K := 3200) (N := 64) mk h i := by
  unfold step
  rw [View.canon_unit_zero hz0, View.ld_unit_zero (S := S64x3200) hz0, View.ld_unit_zero (S := S3200x64) hz0,
    View.ld_unit_zero (S := S64x64) hz0]
  unfold k4_pay2
  dsimp only
  simp only [shapeCast_self]
  funext i
  show acc i + FloatOps.matmul (F := Ideal) (φ₁ := .bf16) (φ₂ := .bf16) dot_S64x3200_S3200x64_S64x64_1_0_0_1_n_n none mk h (constant S64x64 .f32 0x00000000#32) i = _
  rw [DotPlain.matmul_zero_eq dot_S64x3200_S3200x64_S64x64_1_0_0_1_n_n rfl rfl rfl rfl rfl rfl]

/-- The index maps over the grid: the mask's block moves along its columns, the features' along their rows, the
    result's block stays at the origin. -/
theorem idx_facts : ∀ t : Fin cfg4.N, win4_0.index t (0 : Fin 2) = 0 ∧ win4_0.index t (1 : Fin 2) = t.val
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- The mask block at point `t` holds columns `3200·t …` of the mask array. -/
theorem mask_block (c : Dev nD) (t : Fin cfg4.N) (g : Fin 64) (k : Fin 3200) (h : 3200 * t.val + k.val < 102400) :
    blockAt V c 0 t (ix2 g k) = V c (Pipeline.arrRef spec4 0) (ix2 g ⟨3200 * t.val + k.val, h⟩) := by
  show V c (Pipeline.arrRef spec4 0) (((cfg4.win 0).blk t).view.emb (ix2 g k)) = _
  congr 1
  obtain ⟨e0, e1, -, -, -, -⟩ := idx_facts t
  funext a; apply Fin.ext
  match a with
  | ⟨0, _⟩ => show win4_0.index t (0 : Fin 2) * 64 + 1 * g.val = g.val; omega
  | ⟨1, _⟩ => show win4_0.index t (1 : Fin 2) * 3200 + 1 * k.val = 3200 * t.val + k.val; omega

/-- The feature block at point `t` holds rows `3200·t …` of the feature array. -/
theorem feat_block (c : Dev nD) (t : Fin cfg4.N) (k : Fin 3200) (s : Fin 64) (h : 3200 * t.val + k.val < 102400) :
    blockAt V c 1 t (ix2 k s) = V c (Pipeline.arrRef spec4 1) (ix2 ⟨3200 * t.val + k.val, h⟩ s) := by
  show V c (Pipeline.arrRef spec4 1) (((cfg4.win 1).blk t).view.emb (ix2 k s)) = _
  congr 1
  obtain ⟨-, -, e0, e1, -, -⟩ := idx_facts t
  funext a; apply Fin.ext
  match a with
  | ⟨0, _⟩ => show win4_1.index t (0 : Fin 2) * 3200 + 1 * k.val = 3200 * t.val + k.val; omega
  | ⟨1, _⟩ => show win4_1.index t (1 : Fin 2) * 64 + 1 * s.val = s.val; omega

/-- The mask array and the feature array the launch is entered with, at their literal shapes. -/
def maskArr (c : Dev nD) : (⟨2, ![64, 102400]⟩ : Shape).Idx → EReal := V c (Pipeline.arrRef spec4 0)
def featArr (c : Dev nD) : (⟨2, ![102400, 64]⟩ : Shape).Idx → EReal := V c (Pipeline.arrRef spec4 1)

/-- Term `m` of entry `i` of the product: mask (i₀, m) · feat (m, i₁), and zero past the contracted extent. -/
def prodTerm (c : Dev nD) (i : S64x64.Idx) (m : ℕ) : EReal :=
  if h : m < 102400 then maskArr V c (ix2 (i 0) ⟨m, h⟩) * featArr V c (ix2 ⟨m, h⟩ (i 1)) else 0

/-- The product of the two blocks of point `t` is the run of 3200 terms from `3200·t`. -/
theorem point_sum (c : Dev nD) (t : Fin cfg4.N) (i : S64x64.Idx) :
    mmP (M := 64) (K := 3200) (N := 64) (blockAt V c 0 t) (blockAt V c 1 t) i
      = ∑ k ∈ Finset.range 3200, prodTerm V c i (3200 * t.val + k) := by
  rw [← Fin.sum_univ_eq_sum_range (fun k => prodTerm V c i (3200 * t.val + k)) 3200]
  unfold mmP
  refine Finset.sum_congr rfl fun k _ => ?_
  have ht : t.val < 32 := t.isLt
  have hk : k.val < 3200 := k.isLt
  have h : 3200 * t.val + k.val < 102400 := by omega
  rw [mask_block V c t (i 0) k h, feat_block V c t k (i 1) h]
  unfold prodTerm
  rw [dif_pos h]
  rfl

/-- After point `n` the accumulator holds, entry by entry, the first `3200·(n+1)` terms of the product. -/
theorem accAt_sum (c : Dev nD) : ∀ (n : ℕ) (hn : n < cfg4.N) (i : S64x64.Idx),
    accAt V c n hn i = ∑ m ∈ Finset.range (3200 * (n + 1)), prodTerm V c i m
  | 0, hn, i => by
    rw [accAt_zero, step_val, cleared_val]
    show (0 : EReal) + mmP (M := 64) (K := 3200) (N := 64) (blockAt V c 0 ⟨0, hn⟩) (blockAt V c 1 ⟨0, hn⟩) i = _
    rw [zero_add, point_sum V c ⟨0, hn⟩ i]
    refine Finset.sum_congr rfl fun k _ => ?_
    show prodTerm V c i (3200 * 0 + k) = _
    rw [Nat.mul_zero, Nat.zero_add]
  | n + 1, hn, i => by
    rw [accAt_succ, step_val]
    show accAt V c n (Nat.lt_of_succ_lt hn) i
      + mmP (M := 64) (K := 3200) (N := 64) (blockAt V c 0 ⟨n + 1, hn⟩) (blockAt V c 1 ⟨n + 1, hn⟩) i = _
    rw [accAt_sum c n (Nat.lt_of_succ_lt hn) i, point_sum V c ⟨n + 1, hn⟩ i,
      show 3200 * (n + 1 + 1) = 3200 * (n + 1) + 3200 by ring, Finset.sum_range_add]

/-- All 102400 terms of an entry add up to the entry of the full matrix product. -/
theorem sum_all (c : Dev nD) (i : S64x64.Idx) :
    ∑ m ∈ Finset.range 102400, prodTerm V c i m
      = mmP (M := 64) (K := 102400) (N := 64) (maskArr V c) (featArr V c) i := by
  rw [← Fin.sum_univ_eq_sum_range (fun m => prodTerm V c i m) 102400]
  unfold mmP
  refine Finset.sum_congr rfl fun j _ => ?_
  unfold prodTerm
  rw [dif_pos j.isLt]

/-- After the last point the accumulator is the full matrix product. -/
theorem accAt_last (c : Dev nD) (n : ℕ) (hn : n < cfg4.N) (h31 : n = 31) :
    accAt V c n hn = mmP (M := 64) (K := 102400) (N := 64) (maskArr V c) (featArr V c) := by
  funext i
  rw [accAt_sum V c n hn i, h31, show 3200 * (31 + 1) = 102400 by norm_num, sum_all]

/-- The result's block is the whole array at every point: what a point writes back of a buffer `G` is `G` read
    through the block. -/
theorem whole_block (t : Fin cfg4.N) (G : S64x64.Idx → EReal) :
    (cfg4.win 2).cut (grid4.coords t) G = ((cfg4.win 2).blk t).view.read (Elt Ideal) G := by
  obtain ⟨-, -, -, -, e0, e1⟩ := idx_facts t
  funext j
  show G ((cfg4.win 2).xinj (grid4.coords t) j) = G (((cfg4.win 2).blk t).view.emb j)
  congr 1
  funext a; apply Fin.ext
  match a with
  | ⟨0, _⟩ => show (j 0).val = win4_2.index t (0 : Fin 2) * 64 + 1 * (j 0).val; omega
  | ⟨1, _⟩ => show (j 1).val = win4_2.index t (1 : Fin 2) * 64 + 1 * (j 1).val; omega

/-- The result array after the launch is the matrix product of the two arrays the launch is entered with. -/
theorem result_eq (c : Dev nD) :
    (dat (F := Ideal) V c).arrAt 2 cfg4.N
      = mmP (M := 64) (K := 102400) (N := 64) (V c (Pipeline.arrRef spec4 0)) (V c (Pipeline.arrRef spec4 1)) := by
  show _ = mmP (M := 64) (K := 102400) (N := 64) (maskArr V c) (featArr V c)
  refine (dat (F := Ideal) V c).arrAt_eq_of_cover 2
    (mmP (M := 64) (K := 102400) (N := 64) (maskArr V c) (featArr V c)) ?_ ?_
  · -- the one point that writes back is the last, and it writes the whole accumulator over the whole array
    intro t hf
    have ht : t.val < 32 := t.isLt
    have h31 : t.val = 31 := by have := (flush4_2 t).mp hf; omega
    show (cfg4.win 2).cut (grid4.coords t) ((dat V c).after 2 t) = _
    rw [after_result, accAt_last V c t.val t.isLt h31]
    exact whole_block t _
  · -- that point's block is the whole array
    intro i
    have h31 : (31 : ℕ) < cfg4.N := by decide
    obtain ⟨-, -, -, -, e0, e1⟩ := idx_facts ⟨31, h31⟩
    refine ⟨⟨31, h31⟩, (flush4_2 _).mpr rfl, ?_⟩
    show i ∈ ((View.whole main_v69).slice (win4_2.rect ⟨31, h31⟩)).set
    rw [View.set_slice_whole, Rect.mem_set_unit]
    intro a
    match a with
    | ⟨0, _⟩ =>
      show win4_2.index ⟨31, h31⟩ (0 : Fin 2) * 64 ≤ (i 0).val ∧ (i 0).val < win4_2.index ⟨31, h31⟩ (0 : Fin 2) * 64 + 64
      have hi : (i 0).val < 64 := (i 0).isLt
      omega
    | ⟨1, _⟩ =>
      show win4_2.index ⟨31, h31⟩ (1 : Fin 2) * 64 ≤ (i 1).val ∧ (i 1).val < win4_2.index ⟨31, h31⟩ (1 : Fin 2) * 64 + 64
      have hi : (i 1).val < 64 := (i 1).isLt
      omega

end Cert.KernelIdeal.Pool4

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.PoolMath.lean ====
/-
  Pooling by a membership mask is a segment sum. For group labels `lab : Fin n → 32-bit word` and node features
  `feat`, the 64 × (n + p) mask whose entry (g, k) is 1 when k < n and the label of k is the word g, and 0
  otherwise (the padded tail carries the label −1, which is no group), times the features padded with p zero rows,
  has at (g, s) the sum of feat (k, s) over the nodes k whose label, read as a signed number, is g — which is what
  the host's accumulating scatter of the feature rows into a zero 64 × 64 array by those labels holds at (g, s).
-/
import Idealize.ShloMosaic.PureOps.Ideal
import Idealize.ShloMosaic.PureOps.Ideal.Laws
import Idealize.ShloMosaic.PureOps.Contract
import Idealize.ShloMosaic.Lib.ValueIdx
import proofs.«408095_j65790309040228_2_alg».proof.Proof.LibMatProd
import proofs.«408095_j65790309040228_2_alg».proof.Proof.LibRowGatherScatter

noncomputable section

namespace PoolMath

open Idealize.ShloMosaic Idealize.ShloMosaic.ValueIdx MatProd

/-- The masked product is the guarded sum: if the mask's entry (g, k) is 1 on the first n columns exactly where the
    label of k, read signed, is g, and the padded features vanish beyond row n and are `feat` before it, then entry
    (g, s) of mask · padded is the sum over the n nodes of feat (k, s) where the label is g. -/
theorem masked_product_eq_guarded_sum {n p : Nat} (lab : Fin n → Int)
    (mask : (⟨2, ![64, n + p]⟩ : Shape).Idx → EReal) (padded : (⟨2, ![n + p, 64]⟩ : Shape).Idx → EReal)
    (feat : (⟨2, ![n, 64]⟩ : Shape).Idx → EReal)
    (hmask : ∀ (g : Fin 64) (k : Fin (n + p)), mask (ix2 g k)
      = if h : k.val < n then (if lab ⟨k.val, h⟩ = (g.val : Int) then (1 : EReal) else 0) else 0)
    (hpad : ∀ (k : Fin (n + p)) (s : Fin 64), padded (ix2 k s)
      = if h : k.val < n then feat (ix2 ⟨k.val, h⟩ s) else 0)
    (g s : Fin 64) :
    mmP mask padded (ix2 g s) = ∑ k : Fin n, if lab k = (g.val : Int) then feat (ix2 k s) else 0 := by
  -- the contracted axis splits into the n real columns and the p padded ones
  rw [mmP_apply, Fin.sum_univ_add]
  -- on the padded columns both factors vanish
  have htail : ∑ j : Fin p, mask (ix2 g (Fin.natAdd n j)) * padded (ix2 (Fin.natAdd n j) s) = 0 := by
    apply Finset.sum_eq_zero
    intro j _
    have hj : ¬ (Fin.natAdd n j).val < n := by
      rw [Fin.coe_natAdd]; omega
    rw [hmask, hpad, dif_neg hj, dif_neg hj, zero_mul]
  rw [htail, add_zero]
  -- on a real column the mask's entry is the indicator of the guard, and (indicator) * x is the guarded x
  apply Finset.sum_congr rfl
  intro k _
  have hk : (Fin.castAdd p k).val < n := by
    rw [Fin.coe_castAdd]; exact k.isLt
  have hkk : (⟨(Fin.castAdd p k).val, hk⟩ : Fin n) = k := Fin.ext (Fin.coe_castAdd p k)
  rw [hmask, hpad, dif_pos hk, dif_pos hk, hkk]
  by_cases hc : lab k = (g.val : Int)
  · rw [if_pos hc, if_pos hc, one_mul]
  · rw [if_neg hc, if_neg hc, zero_mul]

/-- A 32-bit word equals the word of a group number g < 64 exactly when, read as a signed number, it is g: the
    word of g is g itself (g < 2^32), it lies below 2^31 and so reads signed as g; conversely a word that reads
    signed as a non-negative number is below 2^31 and its unsigned value is that number. -/
theorem word_eq_iff_toInt (b : BitVec 32) (g : Fin 64) :
    b = BitVec.ofNat 32 g.val ↔ b.toInt = (g.val : Int) := by
  have hg : g.val < 64 := g.isLt
  have hb : b.toNat < 2 ^ 32 := b.isLt
  have hmod : g.val % 2 ^ 32 = g.val := Nat.mod_eq_of_lt (by omega)
  constructor
  · intro h
    have hn : b.toNat = g.val := by rw [h, BitVec.toNat_ofNat, hmod]
    rw [BitVec.toInt_eq_toNat_cond, hn]
    split_ifs with h2
    · rfl
    · exfalso; omega
  · intro h
    apply BitVec.eq_of_toNat_eq
    rw [BitVec.toNat_ofNat, hmod]
    rw [BitVec.toInt_eq_toNat_cond] at h
    split_ifs at h with h2
    · exact_mod_cast h
    · exfalso; omega

/-- The word −1 (all 32 bits set, unsigned 2^32 − 1) is the word of no group number below 64. -/
theorem minus_one_ne (g : Fin 64) : (4294967295#32 : BitVec 32) ≠ BitVec.ofNat 32 g.val := by
  intro h
  have hg : g.val < 64 := g.isLt
  have hn := congrArg BitVec.toNat h
  rw [BitVec.toNat_ofNat, BitVec.toNat_ofNat, Nat.mod_eq_of_lt (show g.val < 2 ^ 32 by omega)] at hn
  omega

end PoolMath

end
-- ==== Proof.PoolBridge.lean ====
/-
  The pooled sums of the tiled program are the reference's segment sums. The tiled program builds a 64 × 102400 mask
  — entry (g, k) is 1 where k is a node (k < 100000) whose group label is the word g, else 0; the 2400 padded columns
  carry the label −1, which is no group — and multiplies it by the second layer's output padded with 2400 zero rows;
  the reference scatters the rows of that output into a zero 64 × 64 array by their labels read as signed numbers,
  a label outside 0 … 63 landing nowhere. Both have at (g, s) the sum of the output's entries (k, s) over the nodes k
  whose label is g.
-/
import proofs.«408095_j65790309040228_2_alg».proof.Proof.RunDefs
import proofs.«408095_j65790309040228_2_alg».proof.Proof.ValPool4
import proofs.«408095_j65790309040228_2_alg».proof.Proof.PoolMath
import proofs.«408095_j65790309040228_2_alg».proof.Proof.Gen.ReferenceIdeal.Read
import Idealize.ShloMosaic.Lib.StableHlo.Run
import Idealize.ShloMosaic.Lib.KernelVsHost
import Idealize.ShloMosaic.Lib.IdealHost

set_option maxRecDepth 16384

noncomputable section

namespace Cert.KernelIdeal.PoolBridge

open Cert.KernelIdeal Cert.KernelIdeal.Gen Cert.KernelIdeal.Run
open Idealize.ShloMosaic Idealize.ShloMosaic.TcCoe Idealize.ShloMosaic.StableHlo Idealize.ShloMosaic.ValueIdx
open Idealize.SL Idealize.SL.Sem
open Cert.ReferenceIdeal.Read

variable (m : (ℓ : Loc nD τ sig) → Buf (Elt Ideal) ℓ) (c : Dev nD)

/-- The program's seven argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

section Terms

variable (lab : (⟨S100000, .i32⟩ : BufTy).Contents (Elt Ideal)) (feat : (⟨S100000x64, .f32⟩ : BufTy).Contents (Elt Ideal))

/-- The labels padded with 2400 entries −1. -/
def padLab : (⟨S102400, .i32⟩ : BufTy).Contents (Elt Ideal) :=
  pad S102400 ![0] ![2400] ![0] lab (constantI S_ 32 4294967295#32) pads_S100000_S102400_024000 h_S_

/-- The padded labels laid along every one of the 64 rows. -/
def labRows : (⟨S64x102400, .i32⟩ : BufTy).Contents (Elt Ideal) :=
  broadcastInDim S64x102400 ![0, 1] bcast_S1x102400_S64x102400_0_1
    (broadcastInDim S1x102400 ![1] bcast_S102400_S1x102400_1 (padLab lab))

/-- The group numbers 0 … 63 laid down every one of the 102400 columns. -/
def groupCols : (⟨S64x102400, .i32⟩ : BufTy).Contents (Elt Ideal) :=
  broadcastInDim S64x102400 ![0, 1] bcast_S64x1_S64x102400_0_1
    (broadcastInDim S64x1 ![0] bcast_S64_S64x1_0 (iotaInDim S64 32 0))

/-- The membership mask. -/
def maskOf : (⟨S64x102400, .bf16⟩ : BufTy).Contents (Elt Ideal) :=
  uitofp (F := Ideal) .bf16 (cmpi .eq (labRows lab) groupCols)

/-- The features padded with 2400 zero rows. -/
def paddedOf : (⟨S102400x64, .f32⟩ : BufTy).Contents (Elt Ideal) :=
  pad S102400x64 ![0, 0] ![2400, 0] ![0, 0] feat (sitofp (F := Ideal) .f32 (constantI S_ 32 0#32))
    pads_S100000x64_S102400x64_024000_000 h_S_

end Terms

section Reads

variable (Y : Valuation τ sig (Elt Ideal))

set_option maxHeartbeats 4000000 in
/-- After the four host stretches before the pooling launch, from any contents: the mask array is the membership mask
    of the label argument as it stood before them. -/
theorem read_mask :
    StableHlo.after hostOps4_3 (StableHlo.after hostOps4_2 (StableHlo.after hostOps4_1 (StableHlo.after hostOps4 Y)))
      (Proc.devRef .tc main_v67) = maskOf (Y (Proc.devRef .tc main_arg2)) := by
  after_results_simp
  rfl

set_option maxHeartbeats 4000000 in
/-- After the same four stretches the padded feature array is the padding of the second layer's output array as it
    stood before them. -/
theorem read_padded :
    StableHlo.after hostOps4_3 (StableHlo.after hostOps4_2 (StableHlo.after hostOps4_1 (StableHlo.after hostOps4 Y)))
      (Proc.devRef .tc main_v68) = paddedOf (Y (Proc.devRef .tc main_v59)) := by
  after_results_simp
  rfl

end Reads

/-- The label argument is as launched when the pooling's host stretches begin: no host stretch writes an argument and
    no launch may change one. -/
theorem X7_arg2 : X7 m c main_arg2 = a2 m c := by
  rw [← at_7]
  exact (V7_of m (results m) c main_arg2 (by decide)).trans <| (V6_of m (results m) c main_arg2 (by decide)).trans <|
    (V5_of m (results m) c main_arg2 (by decide)).trans <| (V4_of m (results m) c main_arg2 (by decide)).trans <|
    (V3_of m (results m) c main_arg2 (by decide)).trans <| (V2_of m (results m) c main_arg2 (by decide)).trans <|
    (V1_of m c main_arg2 (by decide)).trans rfl

section Pointwise

variable (lab : (⟨S100000, .i32⟩ : BufTy).Contents (Elt Ideal)) (feat : (⟨S100000x64, .f32⟩ : BufTy).Contents (Elt Ideal))

/-- Comparing two words for equality and converting the one-bit answer unsigned gives 1 or 0. -/
theorem cmpi_eq_val (x y : BitVec 32) :
    (FloatOps.uitofp (F := Ideal) .bf16 (IntOp.cmpi .eq x y) : EReal) = if x = y then 1 else 0 := by
  show ((((BitVec.ofBool (x == y)).toNat : ℕ) : ℝ) : EReal) = _
  by_cases h : x = y
  · rw [if_pos h, h]; simp
  · rw [if_neg h]
    have hb : (x == y) = false := by simpa using h
    rw [hb]; simp

/-- The padded labels at column k: the label of node k, or −1 past the last node. -/
theorem padLab_apply (k : Fin 102400) :
    padLab lab (ix1 k) = if h : k.val < 100000 then lab (ix1 ⟨k.val, h⟩) else 4294967295#32 := by
  unfold padLab
  by_cases h : k.val < 100000
  · rw [dif_pos h]
    exact pad_apply_of_inside _ _ _ lab _ pads_S100000_S102400_024000 h_S_ (ix1 k) (ix1 ⟨k.val, h⟩)
      (fun a => match a with
        | ⟨0, _⟩ => by show k.val = 0 + k.val * (0 + 1); omega)
  · rw [dif_neg h]
    rw [pad_apply_of_not_inside _ _ _ lab _ pads_S100000_S102400_024000 h_S_ (ix1 k) (0 : Fin 1)
      (by
        show ¬(0 ≤ k.val ∧ (k.val - 0) % (0 + 1) = 0 ∧ (k.val - 0) / (0 + 1) < 100000)
        intro hh; apply h; have := hh.2.2; simpa using this)]
    rfl

/-- Every row of the label rows holds the padded labels. -/
theorem labRows_apply (g : Fin 64) (k : Fin 102400) : labRows lab (ix2 g k) = padLab lab (ix1 k) := by
  unfold labRows
  rw [broadcastInDim_apply _ bcast_S1x102400_S64x102400_0_1 _ (ix2 g k) (ix2 (0 : Fin 1) k) (fun a => match a with
    | ⟨0, _⟩ => by show 0 = if (1 : Nat) = 1 then 0 else g.val; rw [if_pos rfl]
    | ⟨1, _⟩ => by show k.val = if (102400 : Nat) = 1 then 0 else k.val; rw [if_neg (by decide)])]
  exact broadcastInDim_apply _ bcast_S102400_S1x102400_1 _ (ix2 (0 : Fin 1) k) (ix1 k) (fun a => match a with
    | ⟨0, _⟩ => by show k.val = if (102400 : Nat) = 1 then 0 else k.val; rw [if_neg (by decide)])

/-- Row g of the group columns holds the word of g throughout. -/
theorem groupCols_apply (g : Fin 64) (k : Fin 102400) : groupCols (ix2 g k) = BitVec.ofNat 32 g.val := by
  unfold groupCols
  rw [broadcastInDim_apply _ bcast_S64x1_S64x102400_0_1 _ (ix2 g k) (ix2 g (0 : Fin 1)) (fun a => match a with
    | ⟨0, _⟩ => by show g.val = if (64 : Nat) = 1 then 0 else g.val; rw [if_neg (by decide)]
    | ⟨1, _⟩ => by show 0 = if (1 : Nat) = 1 then 0 else k.val; rw [if_pos rfl])]
  rw [broadcastInDim_apply _ bcast_S64_S64x1_0 _ (ix2 g (0 : Fin 1)) (ix1 g) (fun a => match a with
    | ⟨0, _⟩ => by show g.val = if (64 : Nat) = 1 then 0 else g.val; rw [if_neg (by decide)])]
  rfl

/-- The mask at (g, k): 1 where k is a node whose label reads signed as g, else 0. -/
theorem maskOf_apply (g : Fin 64) (k : Fin 102400) :
    maskOf lab (ix2 g k)
      = if h : k.val < 100000 then (if (lab (ix1 ⟨k.val, h⟩)).toInt = (g.val : Int) then (1 : EReal) else 0) else 0 := by
  show (FloatOps.uitofp (F := Ideal) .bf16 (IntOp.cmpi .eq (labRows lab (ix2 g k)) (groupCols (ix2 g k))) : EReal) = _
  rw [cmpi_eq_val, labRows_apply, groupCols_apply, padLab_apply]
  by_cases h : k.val < 100000
  · rw [dif_pos h, dif_pos h]
    by_cases hc : lab (ix1 ⟨k.val, h⟩) = BitVec.ofNat 32 g.val
    · rw [if_pos hc, if_pos ((PoolMath.word_eq_iff_toInt _ g).1 hc)]
    · rw [if_neg hc, if_neg fun h' => hc ((PoolMath.word_eq_iff_toInt _ g).2 h')]
  · rw [dif_neg h, dif_neg h, if_neg (PoolMath.minus_one_ne g)]

/-- The padded features at (k, s): the features of node k, or 0 past the last node. -/
theorem paddedOf_apply (k : Fin 102400) (s : Fin 64) :
    paddedOf feat (ix2 k s) = if h : k.val < 100000 then feat (ix2 ⟨k.val, h⟩ s) else 0 := by
  unfold paddedOf
  by_cases h : k.val < 100000
  · rw [dif_pos h]
    exact pad_apply_of_inside _ _ _ feat _ pads_S100000x64_S102400x64_024000_000 h_S_ (ix2 k s) (ix2 ⟨k.val, h⟩ s)
      (fun a => match a with
        | ⟨0, _⟩ => by show k.val = 0 + k.val * (0 + 1); omega
        | ⟨1, _⟩ => by show s.val = 0 + s.val * (0 + 1); omega)
  · rw [dif_neg h]
    rw [pad_apply_of_not_inside _ _ _ feat _ pads_S100000x64_S102400x64_024000_000 h_S_ (ix2 k s) (0 : Fin 2)
      (by
        show ¬(0 ≤ k.val ∧ (k.val - 0) % (0 + 1) = 0 ∧ (k.val - 0) / (0 + 1) < 100000)
        intro hh; apply h; have := hh.2.2; simpa using this)]
    show ((((0#32 : BitVec 32).toInt : ℤ) : ℝ) : EReal) = 0
    simp

end Pointwise

/-- If the second layer's output array is the reference's, the pooled sums are the reference's segment sums. -/
theorem pooled_eq
    (hlayer : layer2 m c = val_main_v93 (F := Ideal) (a0 m c) (a1 m c) (a3 m c) (a4 m c) (a5 m c) (a6 m c)) :
    pooled m c = val_main_v96 (F := Ideal) (a0 m c) (a1 m c) (a2 m c) (a3 m c) (a4 m c) (a5 m c) (a6 m c) := by
  -- the launch leaves the product of the two arrays it is entered with
  have hp : pooled m c = MatProd.mmP (M := 64) (K := 102400) (N := 64) (X11 m c main_v67) (X11 m c main_v68) :=
    Pool4.result_eq (atRefs (X11 m)) c
  -- which are the mask of the labels as launched and the padded second layer's output
  have h67 : X11 m c main_v67 = maskOf (a2 m c) := by
    rw [← X7_arg2 m c]; exact read_mask (X7 m c)
  have h59 : X7 m c main_v59 = layer2 m c := Function.update_self ..
  have h68 : X11 m c main_v68 = paddedOf (layer2 m c) := by
    rw [← h59]; exact read_padded (X7 m c)
  rw [hp, h67, h68, hlayer]
  funext i
  obtain ⟨g, s, rfl⟩ : ∃ g s, i = ix2 g s := ⟨i 0, i 1, eq_ix2 i⟩
  -- the tiled program's side: the sum over the nodes of the entries (k, s) guarded by "the label of k reads g"
  rw [PoolMath.masked_product_eq_guarded_sum (n := 100000) (p := 2400) (fun k => (a2 m c (ix1 k)).toInt) _ _
    (val_main_v93 (F := Ideal) (a0 m c) (a1 m c) (a3 m c) (a4 m c) (a5 m c) (a6 m c))
    (fun g k => maskOf_apply (a2 m c) g k) (fun k s => paddedOf_apply _ k s) g s]
  -- the reference's side: the zero array plus the sum over the nodes whose label reads signed as g
  show _ = Ideal.hostScatterAdd Cert.ReferenceIdeal.scatter_S64x64_S100000x1_S100000x64_1_0_0_1 (val_main_v94 (F := Ideal))
    (val_main_v95 (F := Ideal) (a2 m c))
    (val_main_v93 (F := Ideal) (a0 m c) (a1 m c) (a3 m c) (a4 m c) (a5 m c) (a6 m c)) (ix2 g s)
  rw [RowOps.scatterAdd_rows_apply _ rfl rfl rfl rfl, val_main_v94_apply]
  show _ = Ideal.ofBits .f32 0x00000000#32 + _
  rw [Ideal.ofBits_zero_f32, zero_add]
  refine Finset.sum_congr rfl fun e _ => ?_
  rw [val_main_v95_apply]
  have he : idx_main_v95 (ix2 e (0 : Fin 1)) = ix1 e := by
    funext a; match a with | ⟨0, _⟩ => rfl
  rw [he]

end Cert.KernelIdeal.PoolBridge

end
-- ==== Proof.RefValue.lean ====
/-
  The reference program's run, with its result stated as the last of its stage functions of the seven argument
  arrays: every weakly fair execution terminates with the result array at that function of the launch contents and
  the arguments unchanged.
-/
import proofs.«408095_j65790309040228_2_alg».proof.Proof.Gen.ReferenceIdeal.Run
import proofs.«408095_j65790309040228_2_alg».proof.Proof.Gen.ReferenceIdeal.Read

noncomputable section

namespace Cert.ReferenceIdeal.RefValue

open Cert.ReferenceIdeal Cert.ReferenceIdeal.Gen Idealize.ShloMosaic Idealize.ShloMosaic.TcCoe Idealize.SL.Sem

variable {F : FTy → Type} [FloatOps F]

theorem run_stage (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105)
        = Read.val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (Read.val_main_v105_eq m c), (h c).2⟩) (Value.run m ρ)

end Cert.ReferenceIdeal.RefValue

end
-- ==== Proof.Final.lean ====
/-
  The two idealized programs end with equal results. The tiled program's result array is the last boundary's
  contents at its result reference, which the bridge identifies, stage by stage, with the reference's last stage
  function of the argument arrays; the reference's run ends at that same function of ITS argument arrays, which are
  the tiled program's by hypothesis.
-/
import proofs.«408095_j65790309040228_2_alg».proof.Proof.Frames
import proofs.«408095_j65790309040228_2_alg».proof.Proof.Bridge
import proofs.«408095_j65790309040228_2_alg».proof.Proof.PoolBridge
import proofs.«408095_j65790309040228_2_alg».proof.Proof.RefValue
import proofs.«408095_j65790309040228_2_alg».proof.Defs
import proofs.«408095_j65790309040228_2_alg».proof.Proof.Gen.Pre_finite_inputs

set_option maxRecDepth 16384

noncomputable section

namespace Cert.KernelIdeal.Final

open Cert.KernelIdeal Cert.KernelIdeal.Gen Cert.KernelIdeal.Run Cert.KernelIdeal.Bridge
open Idealize.ShloMosaic Idealize.ShloMosaic.TcCoe
open Idealize.SL Idealize.SL.Sem
open Cert.ReferenceIdeal.Read

variable (m : (ℓ : Loc nD τ sig) → Buf (Elt Ideal) ℓ) (c : Dev nD)

/-- The group labels reach the last stretch as launched. -/
theorem labels_kept : X12 m c main_arg2 = a2 m c := by
  have h := (V12_of m (results m) c main_arg2 (by decide)).trans <| (V11_of m (results m) c main_arg2 (by decide)).trans <|
    (V10_of m (results m) c main_arg2 (by decide)).trans <| (V9_of m (results m) c main_arg2 (by decide)).trans <|
    (V8_of m (results m) c main_arg2 (by decide)).trans <| (V7_of m (results m) c main_arg2 (by decide)).trans <|
    (V6_of m (results m) c main_arg2 (by decide)).trans <| (V5_of m (results m) c main_arg2 (by decide)).trans <|
    (V4_of m (results m) c main_arg2 (by decide)).trans <| (V3_of m (results m) c main_arg2 (by decide)).trans <|
    (V2_of m (results m) c main_arg2 (by decide)).trans <| (V1_of m c main_arg2 (by decide))
  rw [at_12] at h
  exact h

/-- THE VALUE: the tiled program's result array is the reference's last stage function of the argument arrays. -/
theorem result_eq :
    X13 m c main_v78 = val_main_v105 (F := Ideal) (a0 m c) (a1 m c) (a2 m c) (a3 m c) (a4 m c) (a5 m c) (a6 m c) :=
  tail_of m c (X12 m c) ((Function.update_self _ _ _).trans (PoolBridge.pooled_eq m c (layer2_eq m c))) (labels_kept m c)

/-- The two idealized programs, run from memories that agree on the arguments, both end, with equal results. -/
theorem algebraic : Cert.algebraic_KernelIdeal_ReferenceIdeal := by
  intro m ρ m' ρ' _ hagree
  refine ⟨fun c => X13 m c main_v78, ?_, ?_⟩
  · exact (θ_run defs _ _).mono (fun r h c => ⟨h c _ (mem_ucRefs main_v78 (by decide)),
      (h c _ (mem_ucRefs main_arg0 (by decide))).trans (kept0 m c),
      (h c _ (mem_ucRefs main_arg1 (by decide))).trans (kept1 m c),
      (h c _ (mem_ucRefs main_arg2 (by decide))).trans (kept2 m c),
      (h c _ (mem_ucRefs main_arg3 (by decide))).trans (kept3 m c),
      (h c _ (mem_ucRefs main_arg4 (by decide))).trans (kept4 m c),
      (h c _ (mem_ucRefs main_arg5 (by decide))).trans (kept5 m c),
      (h c _ (mem_ucRefs main_arg6 (by decide))).trans (kept6 m c)⟩)
      (run_all m ρ)
  · refine (θ_run Cert.ReferenceIdeal.defs _ _).mono (fun r h c => ⟨(h c).1.trans ?_, (h c).2⟩)
      (Cert.ReferenceIdeal.RefValue.run_stage (F := Ideal) m' ρ')
    rw [(hagree c).1, (hagree c).2.1, (hagree c).2.2.1, (hagree c).2.2.2.1, (hagree c).2.2.2.2.1, (hagree c).2.2.2.2.2.1,
      (hagree c).2.2.2.2.2.2]
    exact (result_eq m c).symm

end Cert.KernelIdeal.Final

end
-- ==== Proof.lean ====
/-
  The certificate. Both programs compute a two-layer graph convolution with a mean pool: each layer projects the
  node features by a 64 × 64 weight, gathers the projected rows along the edges, scales them by the symmetric
  inverse-root-degree weights, scatters them back onto the nodes, adds the self-loop term and the bias and clamps at
  zero; the node outputs are then summed per group and divided by the group sizes. The tiled program does the two
  projections, the two closing steps and the group sums in five tiled launches (the group sums as a membership mask
  times the features, accumulated over thirty-two blocks); the reference does all of it in host operations.

  Frames: the tiled program is run as thirteen segments — host stretches and launches — chained through the contents
  of the core's buffers at each boundary, each launch's result array being what its write-backs leave (proved once,
  at any float instance, and used at the bit level and at the exact instance); the reference's frame is its
  run with the result dropped. The idealization rewrote no operation, so `preserves` has nothing to state. On the
  extended reals the two results are equal stage by stage: a tiled matrix-unit product and a host contraction are
  both the matrix product; the fused closing step is the same pointwise expression, in the same association; a
  mask-weighted sum is the sum over the masked nodes (0 · x = 0 and 1 · x = x for every extended real, so no
  finiteness is used); and every other stage is the same host operations applied to equal arrays.
-/
import proofs.«408095_j65790309040228_2_alg».proof.Defs
import proofs.«408095_j65790309040228_2_alg».proof.Proof.Gen.Kernel
import proofs.«408095_j65790309040228_2_alg».proof.Proof.Gen.KernelIdeal
import proofs.«408095_j65790309040228_2_alg».proof.Proof.Gen.ReferenceIdeal
import proofs.«408095_j65790309040228_2_alg».proof.Proof.Gen.Pre_finite_inputs
import proofs.«408095_j65790309040228_2_alg».proof.Proof.Bits.Frames
import proofs.«408095_j65790309040228_2_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Run.frame m ρ,
    fun m ρ _ => Cert.KernelIdeal.Run.frame m ρ,
    fun m ρ _ => (θ_run Cert.ReferenceIdeal.defs _ _).mono (fun _ h c => (h c).2)
      (Cert.ReferenceIdeal.RefValue.run_stage (F := Ideal) m ρ),
    trivial,
    Cert.KernelIdeal.Final.algebraic⟩

end Cert.Proof

end
